-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_cst_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_cst_10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_cst_15) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S32000x4096 : Shape := ⟨2, ![32000, 4096]⟩
abbrev S8x512 : Shape := ⟨2, ![8, 512]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn {F : FTy → Type} [FloatOps F] (main_arg0 : FVec F S8x512x4096 .f32) (main_arg1 : FVec F S32000x4096 .f32) (main_arg2 : IVec S8x512 32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  main_v8
-- ==== Kernel.lean ====
abbrev S8x512x4096 : Shape := ⟨3, ![8, 512, 4096]⟩
abbrev S32000x4096 : Shape := ⟨2, ![32000, 4096]⟩
abbrev S8x512 : Shape := ⟨2, ![8, 512]⟩
abbrev S8x1x512 : Shape := ⟨3, ![8, 1, 512]⟩
abbrev S8x1x128 : Shape := ⟨3, ![8, 1, 128]⟩
abbrev S1x512x4096 : Shape := ⟨3, ![1, 512, 4096]⟩
abbrev S1280x4096 : Shape := ⟨2, ![1280, 4096]⟩
abbrev S1x1x512 : Shape := ⟨3, ![1, 1, 512]⟩
abbrev S1x1x128 : Shape := ⟨3, ![1, 1, 128]⟩
abbrev S512x1 : Shape := ⟨2, ![512, 1]⟩
abbrev S1x512 : Shape := ⟨2, ![1, 512]⟩
abbrev S512 : Shape := ⟨1, ![512]⟩
abbrev S512x4096 : Shape := ⟨2, ![512, 4096]⟩
abbrev S512x1280 : Shape := ⟨2, ![512, 1280]⟩
abbrev S1x1280 : Shape := ⟨2, ![1, 1280]⟩
abbrev S1 : Shape := ⟨1, ![1]⟩
abbrev S1x1 : Shape := ⟨2, ![1, 1]⟩
abbrev S1x128 : Shape := ⟨2, ![1, 128]⟩
abbrev S8x1x1 : Shape := ⟨3, ![8, 1, 1]⟩
abbrev S8 : Shape := ⟨1, ![8]⟩
abbrev S4 : Shape := ⟨1, ![4]⟩
abbrev S_ : Shape := ⟨0, ![]⟩

abbrev nBuf : Space → Nat
  | .hbm => 60
  | .vmem => 16
  | .smem => 0
  | _ => 0

abbrev bufTy : (tb : Table) → Fin (tcTables nBuf tb) → BufTy
  | .hbm, ⟨0, _⟩ => ⟨S8x512x4096, .f32⟩
  | .hbm, ⟨1, _⟩ => ⟨S32000x4096, .f32⟩
  | .hbm, ⟨2, _⟩ => ⟨S8x512, .i32⟩
  | .hbm, ⟨3, _⟩ => ⟨S8x512x4096, .bf16⟩
  | .hbm, ⟨4, _⟩ => ⟨S32000x4096, .bf16⟩
  | .hbm, ⟨5, _⟩ => ⟨S8x1x512, .i32⟩
  | .hbm, ⟨6, _⟩ => ⟨S8x1x128, .f32⟩
  | .hbm, ⟨7, _⟩ => ⟨S8x1x128, .f32⟩
  | .hbm, ⟨8, _⟩ => ⟨S8x1x1, .f32⟩
  | .hbm, ⟨9, _⟩ => ⟨S8, .f32⟩
  | .hbm, ⟨10, _⟩ => ⟨S8x1x1, .f32⟩
  | .hbm, ⟨11, _⟩ => ⟨S8, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .i1⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S1x512x4096, .bf16⟩
  | .local _ .vmem, ⟨1, _⟩ => ⟨S1x512x4096, .bf16⟩
  | .local _ .vmem, ⟨2, _⟩ => ⟨S1280x4096, .bf16⟩
  | .local _ .vmem, ⟨3, _⟩ => ⟨S1280x4096, .bf16⟩
  | .local _ .vmem, ⟨4, _⟩ => ⟨S1x1x512, .i32⟩
  | .local _ .vmem, ⟨5, _⟩ => ⟨S1x1x512, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .i32⟩
  | .local _ .vmem, ⟨15, _⟩ => ⟨S512x1, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_cst_8 : Ref sig .tc := ⟨.hbm, 55, rfl⟩
abbrev main_cst_9 : Ref sig .tc := ⟨.hbm, 56, rfl⟩
abbrev main_v27 : Ref sig .tc := ⟨.hbm, 57, rfl⟩
abbrev main_v28 : Ref sig .tc := ⟨.hbm, 58, rfl⟩
abbrev main_cst_10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v53 : BitVec 1 := Scalar.cmpi .eq arg1 c24_i32
  let v54 : BitVec 32 := Scalar.extui v53
  let c0_i32_30 : BitVec 32 := 0#32
  let v55 : BitVec 1 := Scalar.cmpi .ne v54 c0_i32_30
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  bcast_S8x512_S8x1x512_0_2 : S8x512.BroadcastsInDim S8x1x512 (![0, 2] : Fin 2 → Fin S8x1x512.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S512 : S1x512.ShapeCasts S512
  shapeCasts_S512_S512x1 : S512.ShapeCasts S512x1
  natLt_1_32 : 1 < 32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  reduces_S512x1280_S512 : S512x1280.Reduces [1] S512
  broadcasts_S512x1_S512x1280 : S512x1.Broadcasts S512x1280
  iota_S1x1280_d1_w32 : S1x1280.Iotas .tc 32 [1]
  broadcasts_S1x1280_S512x1280 : S1x1280.Broadcasts S512x1280
  reduces_S512x1_S1 : S512x1.Reduces [0] S1
  shapeCasts_S1_S1x1 : S1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  slices_S8_S4_0 : S8.Slices ![0] S4
  slices_S8_S4_4 : S8.Slices ![4] S4
  reducesTo_S4_S_d0 : S4.ReducesTo [0] S_
  h_S_ : 0 < S_.numel
  bcast_S_S4 : S_.BroadcastsInDim S4 (![] : Fin 0 → Fin S4.rank)
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .bf16 = 32 ∨ (Rect.block (s := S8x512x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .i32 = 32 ∨ (Rect.block (s := S8x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x512x4096 : Shape := ⟨3, ![8, 512, 4096]⟩
abbrev S32000x4096 : Shape := ⟨2, ![32000, 4096]⟩
abbrev S8x512 : Shape := ⟨2, ![8, 512]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512x32000 : Shape := ⟨3, ![4, 512, 32000]⟩

abbrev nBuf : Space → Nat
  | .hbm => 113
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S32000x4096, .f32⟩
  | .hbm, ⟨2, _⟩ => ⟨S8x512, .i32⟩
  | .hbm, ⟨3, _⟩ => ⟨S8x512x32000, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S8x512x1, .f32⟩
  | .hbm, ⟨10, _⟩ => ⟨S8x512x32000, .f32⟩
  | .hbm, ⟨11, _⟩ => ⟨S8x512x32000, .f32⟩
  | .hbm, ⟨12, _⟩ => ⟨S8x512x32000, .f32⟩
  | .hbm, ⟨13, _⟩ => ⟨S_, .f32⟩
  | .hbm, ⟨14, _⟩ => ⟨S8x512, .f32⟩
  | .hbm, ⟨15, _⟩ => ⟨S8x512x1, .f32⟩
  | .hbm, ⟨16, _⟩ => ⟨S8x512x1, .f32⟩
  | .hbm, ⟨17, _⟩ => ⟨S8x512x32000, .f32⟩
  | .hbm, ⟨18, _⟩ => ⟨S8x512x32000, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8x512, .i32⟩
  | .hbm, ⟨23, _⟩ => ⟨S8x512, .i32⟩
  | .hbm, ⟨24, _⟩ => ⟨S_, .i32⟩
  | .hbm, ⟨25, _⟩ => ⟨S8x512, .i32⟩
  | .hbm, ⟨26, _⟩ => ⟨S8x512, .i32⟩
  | .hbm, ⟨27, _⟩ => ⟨S8x512x1, .i32⟩
  | .hbm, ⟨28, _⟩ => ⟨S_, .i32⟩
  | .hbm, ⟨29, _⟩ => ⟨S8x512x1, .i32⟩
  | .hbm, ⟨30, _⟩ => ⟨S8x512x1, .i1⟩
  | .hbm, ⟨31, _⟩ => ⟨S_, .i32⟩
  | .hbm, ⟨32, _⟩ => ⟨S8x512x1, .i32⟩
  | .hbm, ⟨33, _⟩ => ⟨S8x512x1, .i32⟩
  | .hbm, ⟨34, _⟩ => ⟨S8x512x1, .i32⟩
  | .hbm, ⟨35, _⟩ => ⟨S8x512x1x1, .i32⟩
  | .hbm, ⟨36, _⟩ => ⟨S1, .i32⟩
  | .hbm, ⟨37, _⟩ => ⟨S_, .i32⟩
  | .hbm, ⟨38, _⟩ => ⟨S8x512x1x1, .i32⟩
  | .hbm, ⟨39, _⟩ => ⟨S8x512x1x1, .i1⟩
  | .hbm, ⟨40, _⟩ => ⟨S1x1x1x1, .i32⟩
  | .hbm, ⟨41, _⟩ => ⟨S8x512x1x1, .i32⟩
  | .hbm, ⟨42, _⟩ => ⟨S8x512x1x1, .i1⟩
  | .hbm, ⟨43, _⟩ => ⟨S8x512x1x1, .i1⟩
  | .hbm, ⟨44, _⟩ => ⟨S_, .i1⟩
  | .hbm, ⟨45, _⟩ => ⟨S8x512x1, .i1⟩
  | .hbm, ⟨46, _⟩ => ⟨S8x512x1, .f32⟩
  | .hbm, ⟨47, _⟩ => ⟨S_, .f32⟩
  | .hbm, ⟨48, _⟩ => ⟨S8x512x1, .f32⟩
  | .hbm, ⟨49, _⟩ => ⟨S8x512x1, .f32⟩
  | .hbm, ⟨50, _⟩ => ⟨S8x512, .f32⟩
  | .hbm, ⟨51, _⟩ => ⟨S_, .i32⟩
  | .hbm, ⟨52, _⟩ => ⟨S8x512, .i32⟩
  | .hbm, ⟨53, _⟩ => ⟨S8x512, .i1⟩
  | .hbm, ⟨54, _⟩ => ⟨S_, .f32⟩
  | .hbm, ⟨55, _⟩ => ⟨S_, .f32⟩
  | .hbm, ⟨56, _⟩ => ⟨S8x512, .f32⟩
  | .hbm, ⟨57, _⟩ => ⟨S8x512, .f32⟩
  | .hbm, ⟨58, _⟩ => ⟨S_, .f32⟩
  | .hbm, ⟨59, _⟩ => ⟨S8, .f32⟩
  | .hbm, ⟨60, _⟩ => ⟨S8x512, .i32⟩
  | .hbm, ⟨61, _⟩ => ⟨S_, .i32⟩
  | .hbm, ⟨62, _⟩ => ⟨S8, .i32⟩
  | .hbm, ⟨63, _⟩ => ⟨S8, .f32⟩
  | .hbm, ⟨64, _⟩ => ⟨S8, .f32⟩
  | .hbm, ⟨65, _⟩ => ⟨S4, .f32⟩
  | .hbm, ⟨66, _⟩ => ⟨S4, .f32⟩
  | .hbm, ⟨67, _⟩ => ⟨S4x512x32000, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x512x32000, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S_, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S4, .f32⟩
  | .hbm, ⟨93, _⟩ => ⟨S4, .i1⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S4, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v2 : Ref sig .tc := ⟨.hbm, 26, rfl⟩
abbrev main_v3 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_cst : Ref sig .tc := ⟨.hbm, 47, rfl⟩
abbrev main_call2_v14 : Ref sig .tc := ⟨.hbm, 48, rfl⟩
abbrev main_v4 : Ref sig .tc := ⟨.hbm, 49, rfl⟩
abbrev main_v5 : Ref sig .tc := ⟨.hbm, 50, rfl⟩
abbrev main_c_1 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v8 : Ref sig .tc := ⟨.hbm, 57, rfl⟩
abbrev main_cst_2 : Ref sig .tc := ⟨.hbm, 58, rfl⟩
abbrev main_v9 : Ref sig .tc := ⟨.hbm, 59, rfl⟩
abbrev main_v10 : Ref sig .tc := ⟨.hbm, 60, rfl⟩
abbrev main_c_3 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_4 : Ref sig .tc := ⟨.hbm, 68, rfl⟩
abbrev main_v17 : Ref sig .tc := ⟨.hbm, 69, rfl⟩
abbrev main_cst_5 : Ref sig .tc := ⟨.hbm, 70, rfl⟩
abbrev main_v18 : Ref sig .tc := ⟨.hbm, 71, rfl⟩
abbrev main_v19 : Ref sig .tc := ⟨.hbm, 72, rfl⟩
abbrev main_cst_6 : Ref sig .tc := ⟨.hbm, 73, rfl⟩
abbrev main_v20 : Ref sig .tc := ⟨.hbm, 74, rfl⟩
abbrev main_cst_7 : Ref sig .tc := ⟨.hbm, 75, rfl⟩
abbrev main_v21 : Ref sig .tc := ⟨.hbm, 76, rfl⟩
abbrev main_cst_8 : Ref sig .tc := ⟨.hbm, 77, rfl⟩
abbrev main_v22 : Ref sig .tc := ⟨.hbm, 78, rfl⟩
abbrev main_cst_9 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_cst_10 : Ref sig .tc := ⟨.hbm, 84, rfl⟩
abbrev main_v27 : Ref sig .tc := ⟨.hbm, 85, rfl⟩
abbrev main_v28 : Ref sig .tc := ⟨.hbm, 86, rfl⟩
abbrev main_call4_v0 : Ref sig .tc := ⟨.hbm, 87, rfl⟩
abbrev main_call4_call0_cst : Ref sig .tc := ⟨.hbm, 88, rfl⟩
abbrev main_call4_call0_v0 : Ref sig .tc := ⟨.hbm, 89, rfl⟩
abbrev main_call4_call0_v1 : Ref sig .tc := ⟨.hbm, 90, rfl⟩
abbrev main_call4_call0_v2 : Ref sig .tc := ⟨.hbm, 91, rfl⟩
abbrev main_call4_call0_v3 : Ref sig .tc := ⟨.hbm, 92, rfl⟩
abbrev main_call4_call0_v4 : Ref sig .tc := ⟨.hbm, 93, rfl⟩
abbrev main_call4_call0_v5 : Ref sig .tc := ⟨.hbm, 94, rfl⟩
abbrev main_call4_call0_v6 : Ref sig .tc := ⟨.hbm, 95, rfl⟩
abbrev main_call4_call0_v7 : Ref sig .tc := ⟨.hbm, 96, rfl⟩
abbrev main_call4_call0_v8 : Ref sig .tc := ⟨.hbm, 97, rfl⟩
abbrev main_call4_call0_v9 : Ref sig .tc := ⟨.hbm, 98, rfl⟩
abbrev main_call4_call0_v10 : Ref sig .tc := ⟨.hbm, 99, rfl⟩
abbrev main_call4_call0_v11 : Ref sig .tc := ⟨.hbm, 100, rfl⟩
abbrev main_call4_v1 : Ref sig .tc := ⟨.hbm, 101, rfl⟩
abbrev main_v29 : Ref sig .tc := ⟨.hbm, 102, rfl⟩
abbrev main_cst_11 : Ref sig .tc := ⟨.hbm, 103, rfl⟩
abbrev main_v30 : Ref sig .tc := ⟨.hbm, 104, rfl⟩
abbrev main_v31 : Ref sig .tc := ⟨.hbm, 105, rfl⟩
abbrev main_cst_12 : Ref sig .tc := ⟨.hbm, 106, rfl⟩
abbrev main_v32 : Ref sig .tc := ⟨.hbm, 107, rfl⟩
abbrev main_cst_13 : Ref sig .tc := ⟨.hbm, 108, rfl⟩
abbrev main_cst_14 : Ref sig .tc := ⟨.hbm, 109, rfl⟩
abbrev main_v33 : Ref sig .tc := ⟨.hbm, 110, rfl⟩
abbrev main_v34 : Ref sig .tc := ⟨.hbm, 111, rfl⟩
abbrev main_cst_15 : Ref sig .tc := ⟨.hbm, 112, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  natLt_1_32 : 1 < 32
  slices_S8_S4_0 : S8.Slices ![0] S4
  slices_S8_S4_4 : S8.Slices ![4] S4
  slices_S8x512x32000_S4x512x32000_0_0_0 : S8x512x32000.Slices ![0, 0, 0] S4x512x32000
  reducesTo_S4x512x32000_S_d0_1_2 : S4x512x32000.ReducesTo [0, 1, 2] S_
  slices_S8x512x32000_S4x512x32000_4_0_0 : S8x512x32000.Slices ![4, 0, 0] S4x512x32000
  bcast_S_S4 : S_.BroadcastsInDim S4 (![] : Fin 0 → Fin S4.rank)
  reducesTo_S4_S_d0 : S4.ReducesTo [0] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KPieces.lean ====
/-
  What each control case of the kernel body leaves in the six carried columns (running maximum, rescaled sum of exponentials,
  picked logit, plain sum, clipped target, mask) and, at the last vocabulary block, in the two output blocks — as the body's
  pure values of the point's input blocks and of what the point before left. At any float instance.
-/
import proofs.«418210_j44899588112976_3_alg».proof.Proof.Gen.KernelIdeal.Frame
import Idealize.ShloMosaic.Lib.Pipeline.Value
import Idealize.ShloMosaic.Lib.Tactic

set_option maxRecDepth 16384

noncomputable section

namespace Cert.KPieces

open Idealize.ShloMosaic Idealize.ShloMosaic.TcCoe Idealize.SL.Sem Cert.KernelIdeal Cert.KernelIdeal.Gen

variable {F : FTy → Type} [FloatOps F]

/-- The zero offset of a rank-2 block, as the constant-zero function. -/
theorem hz2 : (![0, 0] : Fin 2 → Nat) = fun _ => 0 := funext fun a => by fin_cases a <;> rfl

/-- The zero offset of a rank-3 block, as the constant-zero function. -/
theorem hz3 : (![0, 0, 0] : Fin 3 → Nat) = fun _ => 0 := funext fun a => by fin_cases a <;> rfl

/-- At a sequence's first block the maximum column is reset to −∞ and then updated: the block's update of the reset value. -/
theorem sout0_A_0_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : cond0_0 i) (hc1 : ¬cond0_1 i)
    (x0 : Vec F S1x512x4096 .bf16) (x1 : Vec F S1280x4096 .bf16) (x2 : Vec F S1x1x512 .i32) :
    sout0_A_0 c i arg2 harg2 arg3 harg3 arg4 harg4 arg5 harg5 arg6 harg6 arg7 harg7 arg8 harg8 arg9 harg9 arg10 harg10 arg11 harg11 arg12 harg12 hc0 hc1 x0 x1 x2 = k0_pay16 x0 x1 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S512x1) hz2]
  simp only [View.readAt_eq_ld, harg2.read_unread, harg3.read_unread, View.readCov_unit_zero (S := S512x1) _ hz2, View.ld_unit_zero (S := S1x512x4096) hz3, View.ld_unit_zero (S := S1280x4096) hz2, View.ld_unit_zero (S := S1x1x512) hz3, View.ld_unit_zero (S := S512x1) hz2]

/-- At a sequence's first block the rescaled-sum column is reset to 0 and then updated against the reset maximum. -/
theorem sout0_A_1_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : cond0_0 i) (hc1 : ¬cond0_1 i)
    (x0 : Vec F S1x512x4096 .bf16) (x1 : Vec F S1280x4096 .bf16) (x2 : Vec F S1x1x512 .i32) :
    sout0_A_1 c i arg2 harg2 arg3 harg3 arg4 harg4 arg5 harg5 arg6 harg6 arg7 harg7 arg8 harg8 arg9 harg9 arg10 harg10 arg11 harg11 arg12 harg12 hc0 hc1 x0 x1 x2 = k0_pay15 x0 x1 k0_pay5 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S512x1) hz2]
  simp only [View.readAt_eq_ld, harg2.read_unread, harg3.read_unread, View.readCov_unit_zero (S := S512x1) _ hz2, View.ld_unit_zero (S := S1x512x4096) hz3, View.ld_unit_zero (S := S1280x4096) hz2, View.ld_unit_zero (S := S1x1x512) hz3, View.ld_unit_zero (S := S512x1) hz2]

/-- At a sequence's first block the picked-logit column is reset to 0 and then updated, the clipped targets being this block's. -/
theorem sout0_A_2_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : cond0_0 i) (hc1 : ¬cond0_1 i)
    (x0 : Vec F S1x512x4096 .bf16) (x1 : Vec F S1280x4096 .bf16) (x2 : Vec F S1x1x512 .i32) :
    sout0_A_2 c i arg2 harg2 arg3 harg3 arg4 harg4 arg5 harg5 arg6 harg6 arg7 harg7 arg8 harg8 arg9 harg9 arg10 harg10 arg11 harg11 arg12 harg12 hc0 hc1 x0 x1 x2 = k0_pay1 (k0_pay13 x0 x1) (k0_pay17 i) (k0_pay10 x2) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S512x1) hz2]
  simp only [View.readAt_eq_ld, harg2.read_unread, harg3.read_unread, harg4.read_unread, View.readCov_unit_zero (S := S512x1) _ hz2, View.ld_unit_zero (S := S1x512x4096) hz3, View.ld_unit_zero (S := S1280x4096) hz2, View.ld_unit_zero (S := S1x1x512) hz3, View.ld_unit_zero (S := S512x1) hz2]

/-- At a sequence's first block the plain-sum column is reset to 0 and then updated. -/
theorem sout0_A_3_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : cond0_0 i) (hc1 : ¬cond0_1 i)
    (x0 : Vec F S1x512x4096 .bf16) (x1 : Vec F S1280x4096 .bf16) (x2 : Vec F S1x1x512 .i32) :
    sout0_A_3 c i arg2 harg2 arg3 harg3 arg4 harg4 arg5 harg5 arg6 harg6 arg7 harg7 arg8 harg8 arg9 harg9 arg10 harg10 arg11 harg11 arg12 harg12 hc0 hc1 x0 x1 x2 = k0_pay2 (k0_pay13 x0 x1) k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S512x1) hz2]
  simp only [View.readAt_eq_ld, harg2.read_unread, harg3.read_unread, View.readCov_unit_zero (S := S512x1) _ hz2, View.ld_unit_zero (S := S1x512x4096) hz3, View.ld_unit_zero (S := S1280x4096) hz2, View.ld_unit_zero (S := S1x1x512) hz3, View.ld_unit_zero (S := S512x1) hz2]

/-- At a sequence's first block the clipped-target column is written from the target block. -/
theorem sout0_A_4_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : cond0_0 i) (hc1 : ¬cond0_1 i)
    (x0 : Vec F S1x512x4096 .bf16) (x1 : Vec F S1280x4096 .bf16) (x2 : Vec F S1x1x512 .i32) :
    sout0_A_4 c i arg2 harg2 arg3 harg3 arg4 harg4 arg5 harg5 arg6 harg6 arg7 harg7 arg8 harg8 arg9 harg9 arg10 harg10 arg11 harg11 arg12 harg12 hc0 hc1 x0 x1 x2 = k0_pay10 x2 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_unit_zero hz2]
  simp only [View.readAt_eq_ld, harg4.read_unread, View.ld_unit_zero (S := S1x1x512) hz3]

/-- At a sequence's first block the mask column is written from the target block. -/
theorem sout0_A_5_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : cond0_0 i) (hc1 : ¬cond0_1 i)
    (x0 : Vec F S1x512x4096 .bf16) (x1 : Vec F S1280x4096 .bf16) (x2 : Vec F S1x1x512 .i32) :
    sout0_A_5 c i arg2 harg2 arg3 harg3 arg4 harg4 arg5 harg5 arg6 harg6 arg7 harg7 arg8 harg8 arg9 harg9 arg10 harg10 arg11 harg11 arg12 harg12 hc0 hc1 x0 x1 x2 = k0_pay12 (k0_pay11 x2) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_unit_zero hz2]
  simp only [View.readAt_eq_ld, harg4.read_unread, View.ld_unit_zero (S := S1x1x512) hz3]

/-- At a middle block the maximum column is updated from what the block before left. -/
theorem sout0_B_0_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : ¬cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay16 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_B
  dsimp only
  sl_unfold_words
  rw [View.canon_unit_zero hz2]
  simp only [View.readAt_eq_ld, harg2.read_unread, harg3.read_unread, harg7.read_unread, View.ld_unit_zero (S := S1x512x4096) hz3, View.ld_unit_zero (S := S1280x4096) hz2, View.ld_unit_zero (S := S512x1) hz2]

/-- At a middle block the rescaled-sum column is updated from what the block before left (the old maximum read twice). -/
theorem sout0_B_1_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : ¬cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay15 x0 x1 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_B
  dsimp only
  sl_unfold_words
  rw [View.canon_unit_zero hz2]
  simp only [View.readAt_eq_ld, harg2.read_unread, harg3.read_unread, harg7.read_unread, harg8.read_unread, View.ld_unit_zero (S := S1x512x4096) hz3, View.ld_unit_zero (S := S1280x4096) hz2, View.ld_unit_zero (S := S512x1) hz2]

/-- At a middle block the picked-logit column is updated, against the carried clipped targets. -/
theorem sout0_B_2_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : ¬cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay1 (k0_pay13 x0 x1) (k0_pay17 i) xs4 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_B
  dsimp only
  sl_unfold_words
  rw [View.canon_unit_zero hz2]
  simp only [View.readAt_eq_ld, harg2.read_unread, harg3.read_unread, harg9.read_unread, harg11.read_unread, View.ld_unit_zero (S := S1x512x4096) hz3, View.ld_unit_zero (S := S1280x4096) hz2, View.ld_unit_zero (S := S512x1) hz2]

/-- At a middle block the plain-sum column is updated. -/
theorem sout0_B_3_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : ¬cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay2 (k0_pay13 x0 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_B
  dsimp only
  sl_unfold_words
  rw [View.canon_unit_zero hz2]
  simp only [View.readAt_eq_ld, harg2.read_unread, harg3.read_unread, harg10.read_unread, View.ld_unit_zero (S := S1x512x4096) hz3, View.ld_unit_zero (S := S1280x4096) hz2, View.ld_unit_zero (S := S512x1) hz2]

/-- At the last block the maximum column is updated as at a middle block. -/
theorem sout0_C_0_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay16 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_C
  dsimp only
  sl_unfold_words
  rw [View.canon_unit_zero hz2]
  simp only [View.readAt_eq_ld, harg2.read_unread, harg3.read_unread, harg7.read_unread, View.ld_unit_zero (S := S1x512x4096) hz3, View.ld_unit_zero (S := S1280x4096) hz2, View.ld_unit_zero (S := S512x1) hz2]

/-- At the last block the rescaled-sum column is updated as at a middle block. -/
theorem sout0_C_1_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay15 x0 x1 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_C
  dsimp only
  sl_unfold_words
  rw [View.canon_unit_zero hz2]
  simp only [View.readAt_eq_ld, harg2.read_unread, harg3.read_unread, harg7.read_unread, harg8.read_unread, View.ld_unit_zero (S := S1x512x4096) hz3, View.ld_unit_zero (S := S1280x4096) hz2, View.ld_unit_zero (S := S512x1) hz2]

/-- At the last block the picked-logit column is updated as at a middle block. -/
theorem sout0_C_2_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay1 (k0_pay13 x0 x1) (k0_pay17 i) xs4 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_C
  dsimp only
  sl_unfold_words
  rw [View.canon_unit_zero hz2]
  simp only [View.readAt_eq_ld, harg2.read_unread, harg3.read_unread, harg9.read_unread, harg11.read_unread, View.ld_unit_zero (S := S1x512x4096) hz3, View.ld_unit_zero (S := S1280x4096) hz2, View.ld_unit_zero (S := S512x1) hz2]

/-- At the last block the plain-sum column is updated as at a middle block. -/
theorem sout0_C_3_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    sout0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay2 (k0_pay13 x0 x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_C
  dsimp only
  sl_unfold_words
  rw [View.canon_unit_zero hz2]
  simp only [View.readAt_eq_ld, harg2.read_unread, harg3.read_unread, harg10.read_unread, View.ld_unit_zero (S := S1x512x4096) hz3, View.ld_unit_zero (S := S1280x4096) hz2, View.ld_unit_zero (S := S512x1) hz2]

/-- At the last block the first output's block is the finalisation of the four updated columns and the carried mask. -/
theorem out0_C_3_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    out0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay3 (k0_pay16 x0 x1 xs0) (k0_pay15 x0 x1 xs0 xs0 xs1) (k0_pay1 (k0_pay13 x0 x1) (k0_pay17 i) xs4 xs2) xs5 xs5 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_C
  dsimp only
  sl_unfold_words
  rw [View.canon_unit_zero hz3]
  simp only [View.readAt_eq_ld, harg2.read_unread, harg3.read_unread, harg7.read_unread, harg8.read_unread, harg9.read_unread, harg11.read_unread, harg12.read_unread, View.readCov_unit_zero (S := S512x1) _ hz2, View.ld_unit_zero (S := S1x512x4096) hz3, View.ld_unit_zero (S := S1280x4096) hz2, View.ld_unit_zero (S := S512x1) hz2]

/-- At the last block the second output's block is the finalisation of the updated plain-sum column. -/
theorem out0_C_4_eq (c : Dev nD) (i : grid0.Coords) (arg2 : Memref sig .tc .vmem S1x512x4096 .bf16) (harg2 : arg2.IsWhole) (arg3 : Memref sig .tc .vmem S1280x4096 .bf16) (harg3 : arg3.IsWhole) (arg4 : Memref sig .tc .vmem S1x1x512 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .i32) (harg11 : arg11.IsWhole) (arg12 : Memref sig .tc .vmem S512x1 .f32) (harg12 : arg12.IsWhole) (hc0 : ¬cond0_0 i) (hc1 : cond0_1 i)
    (x0 : Vec F S1x512x4096 .bf16) (x1 : Vec F S1280x4096 .bf16) (x2 : Vec F S1x1x512 .i32) (xs0 : Vec F S512x1 .f32) (xs1 : Vec F S512x1 .f32) (xs2 : Vec F S512x1 .f32) (xs3 : Vec F S512x1 .f32) (xs4 : Vec F S512x1 .i32) (xs5 : Vec F S512x1 .f32) :
    out0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5 = k0_pay4 (k0_pay2 (k0_pay13 x0 x1) xs3) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 xs4 xs5)]
  unfold kernelRun0_C
  dsimp only
  sl_unfold_words
  rw [View.canon_unit_zero hz3]
  simp only [View.readAt_eq_ld, harg2.read_unread, harg3.read_unread, harg10.read_unread, View.readCov_unit_zero (S := S512x1) _ hz2, View.ld_unit_zero (S := S1x512x4096) hz3, View.ld_unit_zero (S := S1280x4096) hz2, View.ld_unit_zero (S := S512x1) hz2]

end Cert.KPieces

end
-- ==== Proof.Spec.lean ====
/-
  The function of the three arguments that both programs compute, stated once over the reals.

  With `x : [8, 512, 4096]`, `w : [32000, 4096]` real and `tg : [8, 512]` 32-bit words:
    logit b s v = Σ_h x[b,s,h] · w[v,h]                         (the linear head)
    lse b s     = log Σ_v exp (logit b s v)                      (the log-partition of a token's row)
    tok b s     = logit b s (clip tg[b,s]) − lse b s   where tg[b,s] ≠ −100, else 0
    seq b       = (Σ_s tok b s) / #{s | tg[b,s] ≠ −100}          (the mean log-probability of a sequence)
    rowsum b    = Σ_s Σ_v logit b s v
  The results are: the preference loss of (seq[0:4], seq[4:8]) — a fixed chain of host operations, `lossOut` —,
  seq[0:4], seq[4:8], (Σ_{b<4} rowsum b) / 65536000, (Σ_{4≤b} rowsum b) / 65536000, and the constant 0.
  The division by the count is the extended reals' (`Ideal.div`): a sequence whose every target is −100 has 0 / 0,
  the same value on both sides.
-/
import Idealize.ShloMosaic.PureOps.Ideal.Laws
import Idealize.ShloMosaic.Lib.ValueIdx
import Mathlib.Analysis.SpecialFunctions.Log.Basic

noncomputable section

namespace Cert.Spec

open Idealize.ShloMosaic Idealize.ShloMosaic.ValueIdx

abbrev SX : Shape := ⟨3, ![8, 512, 4096]⟩
abbrev SW : Shape := ⟨2, ![32000, 4096]⟩
abbrev ST : Shape := ⟨2, ![8, 512]⟩
abbrev S8 : Shape := ⟨1, ![8]⟩
abbrev S4 : Shape := ⟨1, ![4]⟩
abbrev S0 : Shape := ⟨0, ![]⟩

/-! ## One token's row -/

/-- The mask bit of a target word: 1 unless the word is −100. -/
def keep (t : BitVec 32) : BitVec 1 := IntOp.cmpi .ne t 4294967196#32

/-- The target word clipped (as a signed number) into [0, 31999]. -/
def clipW (t : BitVec 32) : BitVec 32 := IntOp.minsi 31999#32 (IntOp.maxsi 0#32 t)

/-- The clipped word is a signed number in [0, 31999]. -/
theorem clipW_range (t : BitVec 32) : 0 ≤ (clipW t).toInt ∧ (clipW t).toInt < 32000 := by
  have e0 : (0#32 : BitVec 32).toInt = 0 := by decide
  have e1 : (31999#32 : BitVec 32).toInt = 31999 := by decide
  unfold clipW IntOp.minsi IntOp.maxsi
  by_cases h1 : t.slt 0#32 = true
  · rw [if_pos h1]
    have h3 : ¬ ((31999#32 : BitVec 32).slt 0#32 = true) := by decide
    rw [if_neg h3]
    exact ⟨by decide, by decide⟩
  · rw [if_neg h1]
    have h1' : 0 ≤ t.toInt := by
      have := h1; simp only [BitVec.slt, e0, decide_eq_true_eq, not_lt] at this; exact this
    by_cases h2 : (31999#32 : BitVec 32).slt t = true
    · rw [if_pos h2]; exact ⟨by decide, by decide⟩
    · rw [if_neg h2]
      have h2' : t.toInt ≤ 31999 := by
        have := h2; simp only [BitVec.slt, e1, decide_eq_true_eq, not_lt] at this; exact this
      exact ⟨h1', by omega⟩

/-- The clipped word as a column of the vocabulary. -/
def clipIx (t : BitVec 32) : Fin 32000 :=
  ⟨(clipW t).toInt.toNat, by have := clipW_range t; omega⟩

/-- The log-partition of a row of logits. -/
def lseR (L : Fin 32000 → ℝ) : ℝ := Real.log (∑ v : Fin 32000, Real.exp (L v))

/-- A token's log-probability of its (clipped) target, or 0 where the target is −100. -/
def tokR (L : Fin 32000 → ℝ) (t : BitVec 32) : ℝ := if keep t = 1#1 then L (clipIx t) - lseR L else 0

/-- The mask as a real number: 1 or 0. -/
def keepR (t : BitVec 32) : ℝ := if keep t = 1#1 then 1 else 0

/-! ## The arrays -/

section
variable (xr : SX.Idx → ℝ) (wr : SW.Idx → ℝ) (tg : ST.Idx → BitVec 32)

/-- The linear head's logit of token (b, s) at column v. -/
def logitR (b : Fin 8) (s : Fin 512) (v : Fin 32000) : ℝ := ∑ h : Fin 4096, xr (ix3 b s h) * wr (ix2 v h)

/-- The sum of a sequence's masked token log-probabilities. -/
def numR (b : Fin 8) : ℝ := ∑ s : Fin 512, tokR (logitR xr wr b s) (tg (ix2 b s))

/-- The number of a sequence's tokens whose target is not −100. -/
def cntR (b : Fin 8) : ℝ := ∑ s : Fin 512, keepR (tg (ix2 b s))

/-- A sequence's mean log-probability, the quotient being the extended reals'. -/
def seqE (b : Fin 8) : EReal := Ideal.div ((numR xr wr tg b : ℝ) : EReal) ((cntR tg b : ℝ) : EReal)

/-- The sum of all of a sequence's logits. -/
def rowsumR (b : Fin 8) : ℝ := ∑ s : Fin 512, ∑ v : Fin 32000, logitR xr wr b s v

/-- The eight sequences' mean log-probabilities as an array. -/
def seqVec : FVec Ideal S8 .f32 := fun i => seqE xr wr tg (i 0)

/-- The mean of the logits of sequences 4·k … 4·k+3 (k = 0: the chosen half, k = 1: the rejected half), as a scalar
    array: the sum over the 4·512·32000 logits divided by the word of 65536000. -/
def meanOut (k : Fin 2) : FVec Ideal S0 .f32 := fun _ =>
  Ideal.div (((∑ b : Fin 4, rowsumR xr wr ⟨4 * k.val + b.val, by omega⟩ : ℝ)) : EReal) (Ideal.ofBits .f32 0x4C7A0000#32)

end

/-! ## The shared chain after the sequence means -/

/-- The preference loss of the two halves of the sequence means: β·((c − 0) − (r − 0)) through `log_sigmoid` (itself
    `−softplus(−·)`, with jax's guard on an undefined difference), summed, negated, divided by 4, plus 1·0 — the host
    operations both programs end with, in their printed order. -/
def lossOut (hb : S0.BroadcastsInDim S4 (![] : Fin 0 → Fin S4.rank)) (hr : S4.ReducesTo [0] S0) (h0 : 0 < S0.numel)
    (ch rj : FVec Ideal S4 .f32) : FVec Ideal S0 .f32 :=
  let z4 : FVec Ideal S4 .f32 := broadcastInDim S4 ![] hb (constant S0 .f32 0x00000000#32)
  let d : FVec Ideal S4 .f32 := subf (subf ch z4) (subf rj z4)
  let a : FVec Ideal S4 .f32 := mulf (broadcastInDim S4 ![] hb (constant S0 .f32 0x3DCCCCCD#32)) d
  let n : FVec Ideal S4 .f32 := Host.negf a
  let p1 : FVec Ideal S4 .f32 := maximumf n z4
  let p3 : FVec Ideal S4 .f32 := subf n z4
  let p4 : IVec S4 1 := cmpf .une p3 p3
  let p6 : FVec Ideal S4 .f32 := addf n z4
  let p10 : FVec Ideal S4 .f32 := Host.log1p (Host.exp (Host.negf (Host.absf p3)))
  let p12 : FVec Ideal S4 .f32 := select p4 p6 (addf p1 p10)
  let ls : FVec Ideal S4 .f32 := Host.negf p12
  let sm : FVec Ideal S0 .f32 := Host.reduceAdd ls (constant S0 .f32 0x00000000#32) hr h0
  let q : FVec Ideal S0 .f32 := Host.divf (Host.negf sm) (constant S0 .f32 0x40800000#32)
  addf (mulf (constant S0 .f32 0x3F800000#32) (constant S0 .f32 0x00000000#32)) q

end Cert.Spec

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.LibLayoutIx.lean ====
/-
  LAYOUT OPERATIONS OF A HOST PROGRAM READ AT AN INDEX BUILT FROM COORDINATES — general lemmas, about no particular
  program.

  Each lemma rewrites ONE layout operation of StableHLO — `broadcastInDim`, `extractStridedSlice`, `shapeCast`,
  `transpose`, `concatenate` — applied at an index written by its coordinates (`ValueIdx.ix0` … `ix3`) to its operand
  at the index it reads, again written by coordinates. The equations are oriented left to right for `simp only`: a
  chain of layout operations applied at `ix2 n c` is pushed down to the operand's element, one rewrite per operation.
  Shapes are LITERAL (`⟨rank, ![…]⟩`), their extents variables wherever no unit axis is involved, so one lemma serves
  every program whose shapes are reducible abbreviations of such literals; the operation's side condition
  (`Shape.Slices`, `ShapeCasts`, `BroadcastsInDim`, `Transposes`, `Concatenates`) is ANY proof `h`, bound as a variable.

  What is proved:
  * a rank-0 operand broadcast to any shape reads its one element (`broadcastInDim_scalar`);
  * a rank-1 operand broadcast into a column `[N, 1]` or a row `[1, N]` reads its coordinate (`broadcastInDim_col`,
    `broadcastInDim_row`); a row `[1, N]` stretched to `[R, N]` and a column `[N, 1]` stretched to `[N, C]` read the
    unit axis at 0 (`broadcastInDim_rows`, `broadcastInDim_cols`);
  * column `k` of an `[N, C]` array and row `k` of an `[R, N]` array, sliced out as `[N, 1]` / `[1, N]`
    (`extractStridedSlice_col`, `extractStridedSlice_row`);
  * a column or a row reshaped to rank 1 (`shapeCast_col`, `shapeCast_row`), and a `[U, V, L]` table flattened to
    `[U * V, L]`, read at row `f` as `(f / V, f % V)` (`shapeCast_table`, and `shapeCast_table_2048` at the literal 4194304);
  * the transposes `[1, 0]` of rank 2 and `[2, 0, 1]` of rank 3 (`transpose_10`, `transpose_201`);
  * two columns joined along axis 1 (`concatenate_cols_zero`, `concatenate_cols_one`) and twelve rows joined along axis 0:
    row `r` is piece `r`, for the index `ix2 ⟨r, hr⟩ n` (`concatenate_rows12_0` … `_11`), for `r` a numeral of `Fin 12`
    (`concatenate_rows12_num_0` … `_11`) and for any `r` (`concatenate_rows12`, the piece picked out of `![u0, …, u11]`);
  * pointwise host operations read at an index, all by `rfl`: the host's quotient, floor, absolute value and
    round-half-even at the ideal instance, the float-to-integer conversion there, and the integer splat, sum, product,
    signed minimum and comparison.
-/
import Idealize.ShloMosaic.Lib.ValueIdx
import Idealize.ShloMosaic.Lib.Pipeline.Value

namespace Cert.LibLayoutIx

open Idealize.ShloMosaic Idealize.ShloMosaic.ValueIdx

variable {α : Type}

/-! ## Broadcasts -/

/-- A rank-0 operand broadcast to ANY shape reads its one element at every index (`dims` is the empty map). -/
theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A rank-1 operand laid down as the COLUMN `[N, 1]` reads its coordinate `n` at `(n, k)`. (When `N = 1` the
    operand's axis counts as a unit axis and is read at 0, which is then `n`.) The axis map is written at the literal
    ranks, `Fin 1 → Fin 2`, the form under which the simplifier finds the equation from a shape given by name. -/
theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with
    | ⟨0, _⟩ => by
      have hn := n.isLt
      show n.val = if N = 1 then 0 else n.val
      split
      · omega
      · rfl)

/-- A rank-1 operand laid down as the ROW `[1, N]` reads its coordinate `n` at `(k, n)`. -/
theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

/-- A ROW `[1, N]` stretched to `[R, N]` reads the row at `(0, n)`, whatever the row `r` asked for. -/
theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

/-- A COLUMN `[N, 1]` stretched to `[N, C]` reads the column at `(n, 0)`, whatever the column `c` asked for. -/
theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => by
      have hn := n.isLt
      show n.val = if N = 1 then 0 else n.val
      split
      · omega
      · rfl
    | ⟨1, _⟩ => by
      show (0 : Nat) = if (1 : Nat) = 1 then 0 else c.val
      rfl)

/-! ## Slices -/

/-- The column a slice `[N, 1]` at offsets `(0, k)` of an `[N, C]` array takes is inside the array. -/
theorem slice_col_lt {N C k : Nat} (h : (⟨2, ![N, C]⟩ : Shape).Slices ![0, k] ⟨2, ![N, 1]⟩) : k < C := by
  have h1 := h.2 ⟨1, Nat.one_lt_two⟩
  change k + 1 ≤ C at h1
  omega

/-- COLUMN `k` of an `[N, C]` array, sliced out as `[N, 1]`, reads the array at `(n, k)`. -/
theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  extractStridedSlice_apply _ x h _ _ (fun a => match a with
    | ⟨0, _⟩ => by show n.val = 0 + n.val; omega
    | ⟨1, _⟩ => by have hz := z.isLt; show k = k + z.val; omega)

/-- The row a slice `[1, N]` at offsets `(k, 0)` of an `[R, N]` array takes is inside the array. -/
theorem slice_row_lt {R N k : Nat} (h : (⟨2, ![R, N]⟩ : Shape).Slices ![k, 0] ⟨2, ![1, N]⟩) : k < R := by
  have h0 := h.2 ⟨0, Nat.two_pos⟩
  change k + 1 ≤ R at h0
  omega

/-- ROW `k` of an `[R, N]` array, sliced out as `[1, N]`, reads the array at `(k, n)`. -/
theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

/-! ## Reshapes -/

/-- A column `[N, 1]` reshaped to rank 1 reads `(n, 0)` at `n`. -/
theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    show n.val * 1 + 0 = n.val
    omega)

/-- A row `[1, N]` reshaped to rank 1 reads `(0, n)` at `n`. -/
theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_apply x h _ (ix2 0 n) (by
    rw [Shape.rowMajor_val_two, Shape.rowMajor_val_one]
    show 0 * N + n.val = n.val
    omega)

/-- A row `m` of the flattened table lies in block `m / V`, which is one of the `U` blocks. -/
theorem table_div_lt {U V m : Nat} (hm : m < U * V) : m / V < U :=
  Nat.div_lt_of_lt_mul (Nat.mul_comm U V ▸ hm)

/-- A row `m` of the flattened table is row `m % V` of its block (a nonempty table has `0 < V`). -/
theorem table_mod_lt {U V m : Nat} (hm : m < U * V) : m % V < V := by
  rcases Nat.eq_zero_or_pos V with h0 | hV
  · rw [h0, Nat.mul_zero] at hm; exact absurd hm (Nat.not_lt_zero _)
  · exact Nat.mod_lt _ hV

/-- A `[U, V, L]` table FLATTENED to `[U * V, L]`: row `f` of the result is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, table_div_lt f.isLt⟩ ⟨f.val % V, table_mod_lt f.isLt⟩ l) :=
  shapeCast_apply x h _ _ (by
    rw [Shape.rowMajor_val_three, Shape.rowMajor_val_two]
    show (f.val / V * V + f.val % V) * L + l.val = f.val * L + l.val
    rw [Nat.div_add_mod'])

/-- The same with the row count written out, `2048 * 2048 = 4194304`, and two lanes: the form that matches a target
    shape given as the literal `[4194304, 2]`. -/
theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_apply x h _ _ (by
    rw [Shape.rowMajor_val_three, Shape.rowMajor_val_two]
    show (f.val / 2048 * 2048 + f.val % 2048) * 2 + l.val = f.val * 2 + l.val
    omega)

/-! ## Transposes -/

/-- The rank-2 transpose: `(c, n)` of the result is `(n, c)` of the operand (either direction is this equation). -/
theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- The rank-3 transpose that brings the last axis to the front: `(l, u, v)` of the result is `(u, v, l)` of the operand. -/
theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) (fun b => match b with
    | ⟨0, _⟩ => rfl
    | ⟨1, _⟩ => rfl
    | ⟨2, _⟩ => rfl)

/-! ## Concatenations -/

/-- Two columns joined along axis 1, read in column 0: the FIRST column. -/
theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- Two columns joined along axis 1, read in column 1: the SECOND column (at its own column 0). -/
theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun c hc => match c, hc with
      | ⟨0, _⟩, _ => rfl
      | ⟨1, _⟩, hc => absurd rfl hc)
    (by show 0 + 1 = 1; rfl)

section Rows12
variable {N : Nat} (u0 u1 u2 u3 u4 u5 u6 u7 u8 u9 u10 u11 : (⟨2, ![1, N]⟩ : Shape).Idx → α)

set_option quotPrecheck false in
/-- The twelve rows, each with its shape, in the order the concatenation lists them. -/
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- TWELVE ROWS joined along axis 0, read in row `R`: the piece that sits at position `R` of the list (`hx`), once the
    extents of the pieces before it are known to add up to `R` (`hp`: each piece is one row). -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun c hc => match c, hc with
      | ⟨0, _⟩, hc => absurd rfl hc
      | ⟨1, _⟩, _ => rfl)
    (by show R + 0 = R; rfl)

/-! Row `r` at the index `ix2 ⟨r, hr⟩ n`, `hr` any proof of the bound. -/

/-- Row 0 of the twelve joined rows is the first piece. -/
theorem concatenate_rows12_0 (hr : 0 < 12) (n : Fin N) :
    concatenate ⟨2, ![12, N]⟩ 0 rows12 h (ix2 ⟨0, hr⟩ n) = u0 (ix2 0 n) :=
  concatenate_rows12_at u0 u1 u2 u3 u4 u5 u6 u7 u8 u9 u10 u11 h 0 hr u0 rfl rfl n

/-- Row 1 of the twelve joined rows is the second piece. -/
theorem concatenate_rows12_1 (hr : 1 < 12) (n : Fin N) :
    concatenate ⟨2, ![12, N]⟩ 0 rows12 h (ix2 ⟨1, hr⟩ n) = u1 (ix2 0 n) :=
  concatenate_rows12_at u0 u1 u2 u3 u4 u5 u6 u7 u8 u9 u10 u11 h 1 hr u1 rfl rfl n

/-- Row 2 of the twelve joined rows is the third piece. -/
theorem concatenate_rows12_2 (hr : 2 < 12) (n : Fin N) :
    concatenate ⟨2, ![12, N]⟩ 0 rows12 h (ix2 ⟨2, hr⟩ n) = u2 (ix2 0 n) :=
  concatenate_rows12_at u0 u1 u2 u3 u4 u5 u6 u7 u8 u9 u10 u11 h 2 hr u2 rfl rfl n

/-- Row 3 of the twelve joined rows is the fourth piece. -/
theorem concatenate_rows12_3 (hr : 3 < 12) (n : Fin N) :
    concatenate ⟨2, ![12, N]⟩ 0 rows12 h (ix2 ⟨3, hr⟩ n) = u3 (ix2 0 n) :=
  concatenate_rows12_at u0 u1 u2 u3 u4 u5 u6 u7 u8 u9 u10 u11 h 3 hr u3 rfl rfl n

/-- Row 4 of the twelve joined rows is the fifth piece. -/
theorem concatenate_rows12_4 (hr : 4 < 12) (n : Fin N) :
    concatenate ⟨2, ![12, N]⟩ 0 rows12 h (ix2 ⟨4, hr⟩ n) = u4 (ix2 0 n) :=
  concatenate_rows12_at u0 u1 u2 u3 u4 u5 u6 u7 u8 u9 u10 u11 h 4 hr u4 rfl rfl n

/-- Row 5 of the twelve joined rows is the sixth piece. -/
theorem concatenate_rows12_5 (hr : 5 < 12) (n : Fin N) :
    concatenate ⟨2, ![12, N]⟩ 0 rows12 h (ix2 ⟨5, hr⟩ n) = u5 (ix2 0 n) :=
  concatenate_rows12_at u0 u1 u2 u3 u4 u5 u6 u7 u8 u9 u10 u11 h 5 hr u5 rfl rfl n

/-- Row 6 of the twelve joined rows is the seventh piece. -/
theorem concatenate_rows12_6 (hr : 6 < 12) (n : Fin N) :
    concatenate ⟨2, ![12, N]⟩ 0 rows12 h (ix2 ⟨6, hr⟩ n) = u6 (ix2 0 n) :=
  concatenate_rows12_at u0 u1 u2 u3 u4 u5 u6 u7 u8 u9 u10 u11 h 6 hr u6 rfl rfl n

/-- Row 7 of the twelve joined rows is the eighth piece. -/
theorem concatenate_rows12_7 (hr : 7 < 12) (n : Fin N) :
    concatenate ⟨2, ![12, N]⟩ 0 rows12 h (ix2 ⟨7, hr⟩ n) = u7 (ix2 0 n) :=
  concatenate_rows12_at u0 u1 u2 u3 u4 u5 u6 u7 u8 u9 u10 u11 h 7 hr u7 rfl rfl n

/-- Row 8 of the twelve joined rows is the ninth piece. -/
theorem concatenate_rows12_8 (hr : 8 < 12) (n : Fin N) :
    concatenate ⟨2, ![12, N]⟩ 0 rows12 h (ix2 ⟨8, hr⟩ n) = u8 (ix2 0 n) :=
  concatenate_rows12_at u0 u1 u2 u3 u4 u5 u6 u7 u8 u9 u10 u11 h 8 hr u8 rfl rfl n

/-- Row 9 of the twelve joined rows is the tenth piece. -/
theorem concatenate_rows12_9 (hr : 9 < 12) (n : Fin N) :
    concatenate ⟨2, ![12, N]⟩ 0 rows12 h (ix2 ⟨9, hr⟩ n) = u9 (ix2 0 n) :=
  concatenate_rows12_at u0 u1 u2 u3 u4 u5 u6 u7 u8 u9 u10 u11 h 9 hr u9 rfl rfl n

/-- Row 10 of the twelve joined rows is the eleventh piece. -/
theorem concatenate_rows12_10 (hr : 10 < 12) (n : Fin N) :
    concatenate ⟨2, ![12, N]⟩ 0 rows12 h (ix2 ⟨10, hr⟩ n) = u10 (ix2 0 n) :=
  concatenate_rows12_at u0 u1 u2 u3 u4 u5 u6 u7 u8 u9 u10 u11 h 10 hr u10 rfl rfl n

/-- Row 11 of the twelve joined rows is the twelfth piece. -/
theorem concatenate_rows12_11 (hr : 11 < 12) (n : Fin N) :
    concatenate ⟨2, ![12, N]⟩ 0 rows12 h (ix2 ⟨11, hr⟩ n) = u11 (ix2 0 n) :=
  concatenate_rows12_at u0 u1 u2 u3 u4 u5 u6 u7 u8 u9 u10 u11 h 11 hr u11 rfl rfl n

/-- ANY row `r` of the twelve joined rows is the piece at position `r`. -/
theorem concatenate_rows12 (r : Fin 12) (n : Fin N) :
    concatenate ⟨2, ![12, N]⟩ 0 rows12 h (ix2 r n)
      = (![u0, u1, u2, u3, u4, u5, u6, u7, u8, u9, u10, u11] r) (ix2 0 n) :=
  match r with
  | ⟨0, hr⟩ => concatenate_rows12_0 u0 u1 u2 u3 u4 u5 u6 u7 u8 u9 u10 u11 h hr n
  | ⟨1, hr⟩ => concatenate_rows12_1 u0 u1 u2 u3 u4 u5 u6 u7 u8 u9 u10 u11 h hr n
  | ⟨2, hr⟩ => concatenate_rows12_2 u0 u1 u2 u3 u4 u5 u6 u7 u8 u9 u10 u11 h hr n
  | ⟨3, hr⟩ => concatenate_rows12_3 u0 u1 u2 u3 u4 u5 u6 u7 u8 u9 u10 u11 h hr n
  | ⟨4, hr⟩ => concatenate_rows12_4 u0 u1 u2 u3 u4 u5 u6 u7 u8 u9 u10 u11 h hr n
  | ⟨5, hr⟩ => concatenate_rows12_5 u0 u1 u2 u3 u4 u5 u6 u7 u8 u9 u10 u11 h hr n
  | ⟨6, hr⟩ => concatenate_rows12_6 u0 u1 u2 u3 u4 u5 u6 u7 u8 u9 u10 u11 h hr n
  | ⟨7, hr⟩ => concatenate_rows12_7 u0 u1 u2 u3 u4 u5 u6 u7 u8 u9 u10 u11 h hr n
  | ⟨8, hr⟩ => concatenate_rows12_8 u0 u1 u2 u3 u4 u5 u6 u7 u8 u9 u10 u11 h hr n
  | ⟨9, hr⟩ => concatenate_rows12_9 u0 u1 u2 u3 u4 u5 u6 u7 u8 u9 u10 u11 h hr n
  | ⟨10, hr⟩ => concatenate_rows12_10 u0 u1 u2 u3 u4 u5 u6 u7 u8 u9 u10 u11 h hr n
  | ⟨11, hr⟩ => concatenate_rows12_11 u0 u1 u2 u3 u4 u5 u6 u7 u8 u9 u10 u11 h hr n

/-! Row `r` at the index `ix2 r n` with `r` a numeral of `Fin 12`. -/

/-- Row 0, the index's row written as a numeral. -/
theorem concatenate_rows12_num_0 (n : Fin N) :
    concatenate ⟨2, ![12, N]⟩ 0 rows12 h (ix2 (0 : Fin 12) n) = u0 (ix2 0 n) :=
  concatenate_rows12 u0 u1 u2 u3 u4 u5 u6 u7 u8 u9 u10 u11 h 0 n

/-- Row 1, the index's row written as a numeral. -/
theorem concatenate_rows12_num_1 (n : Fin N) :
    concatenate ⟨2, ![12, N]⟩ 0 rows12 h (ix2 (1 : Fin 12) n) = u1 (ix2 0 n) :=
  concatenate_rows12 u0 u1 u2 u3 u4 u5 u6 u7 u8 u9 u10 u11 h 1 n

/-- Row 2, the index's row written as a numeral. -/
theorem concatenate_rows12_num_2 (n : Fin N) :
    concatenate ⟨2, ![12, N]⟩ 0 rows12 h (ix2 (2 : Fin 12) n) = u2 (ix2 0 n) :=
  concatenate_rows12 u0 u1 u2 u3 u4 u5 u6 u7 u8 u9 u10 u11 h 2 n

/-- Row 3, the index's row written as a numeral. -/
theorem concatenate_rows12_num_3 (n : Fin N) :
    concatenate ⟨2, ![12, N]⟩ 0 rows12 h (ix2 (3 : Fin 12) n) = u3 (ix2 0 n) :=
  concatenate_rows12 u0 u1 u2 u3 u4 u5 u6 u7 u8 u9 u10 u11 h 3 n

/-- Row 4, the index's row written as a numeral. -/
theorem concatenate_rows12_num_4 (n : Fin N) :
    concatenate ⟨2, ![12, N]⟩ 0 rows12 h (ix2 (4 : Fin 12) n) = u4 (ix2 0 n) :=
  concatenate_rows12 u0 u1 u2 u3 u4 u5 u6 u7 u8 u9 u10 u11 h 4 n

/-- Row 5, the index's row written as a numeral. -/
theorem concatenate_rows12_num_5 (n : Fin N) :
    concatenate ⟨2, ![12, N]⟩ 0 rows12 h (ix2 (5 : Fin 12) n) = u5 (ix2 0 n) :=
  concatenate_rows12 u0 u1 u2 u3 u4 u5 u6 u7 u8 u9 u10 u11 h 5 n

/-- Row 6, the index's row written as a numeral. -/
theorem concatenate_rows12_num_6 (n : Fin N) :
    concatenate ⟨2, ![12, N]⟩ 0 rows12 h (ix2 (6 : Fin 12) n) = u6 (ix2 0 n) :=
  concatenate_rows12 u0 u1 u2 u3 u4 u5 u6 u7 u8 u9 u10 u11 h 6 n

/-- Row 7, the index's row written as a numeral. -/
theorem concatenate_rows12_num_7 (n : Fin N) :
    concatenate ⟨2, ![12, N]⟩ 0 rows12 h (ix2 (7 : Fin 12) n) = u7 (ix2 0 n) :=
  concatenate_rows12 u0 u1 u2 u3 u4 u5 u6 u7 u8 u9 u10 u11 h 7 n

/-- Row 8, the index's row written as a numeral. -/
theorem concatenate_rows12_num_8 (n : Fin N) :
    concatenate ⟨2, ![12, N]⟩ 0 rows12 h (ix2 (8 : Fin 12) n) = u8 (ix2 0 n) :=
  concatenate_rows12 u0 u1 u2 u3 u4 u5 u6 u7 u8 u9 u10 u11 h 8 n

/-- Row 9, the index's row written as a numeral. -/
theorem concatenate_rows12_num_9 (n : Fin N) :
    concatenate ⟨2, ![12, N]⟩ 0 rows12 h (ix2 (9 : Fin 12) n) = u9 (ix2 0 n) :=
  concatenate_rows12 u0 u1 u2 u3 u4 u5 u6 u7 u8 u9 u10 u11 h 9 n

/-- Row 10, the index's row written as a numeral. -/
theorem concatenate_rows12_num_10 (n : Fin N) :
    concatenate ⟨2, ![12, N]⟩ 0 rows12 h (ix2 (10 : Fin 12) n) = u10 (ix2 0 n) :=
  concatenate_rows12 u0 u1 u2 u3 u4 u5 u6 u7 u8 u9 u10 u11 h 10 n

/-- Row 11, the index's row written as a numeral. -/
theorem concatenate_rows12_num_11 (n : Fin N) :
    concatenate ⟨2, ![12, N]⟩ 0 rows12 h (ix2 (11 : Fin 12) n) = u11 (ix2 0 n) :=
  concatenate_rows12 u0 u1 u2 u3 u4 u5 u6 u7 u8 u9 u10 u11 h 11 n

end Rows12

/-! ## Pointwise host operations at an index -/

section Pointwise
variable {s : Shape} {φ : FTy} {w : Nat}

/-- The host's float quotient at an index is the ideal instance's division of the elements. -/
theorem host_divf_apply (a b : FVec Ideal s φ) (i : s.Idx) : Host.divf a b i = Ideal.div (a i) (b i) := rfl
/-- The host's floor at an index rounds the element down to an integer (infinities stay). -/
theorem host_floor_apply (a : FVec Ideal s φ) (i : s.Idx) : Host.floor a i = Ideal.liftRound Int.floor (a i) := rfl
/-- The host's round-to-nearest-even at an index rounds the element, ties to the even integer. -/
theorem host_roundeven_apply (a : FVec Ideal s φ) (i : s.Idx) :
    Host.roundeven a i = Ideal.liftRound Ideal.roundHalfEven (a i) := rfl
/-- The host's absolute value at an index is the larger of the element and its negation. -/
theorem host_absf_apply (a : FVec Ideal s φ) (i : s.Idx) : Host.absf a i = max (a i) (-(a i)) := rfl
/-- A float-to-signed-integer conversion at an index truncates and clamps the element. -/
theorem fptosi_apply (v : Nat) (a : FVec Ideal s φ) (i : s.Idx) : fptosi v a i = Ideal.fptosi v (a i) := rfl
/-- An integer splat reads its word everywhere. -/
theorem constantI_apply (b : BitVec w) (i : s.Idx) : constantI s w b i = b := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A signed minimum at an index is the signed minimum of the elements. -/
theorem minsi_apply (x y : IVec s w) (i : s.Idx) : minsi x y i = IntOp.minsi (x i) (y i) := rfl
/-- An integer comparison at an index compares the elements. -/
theorem cmpi_apply (p : CmpIPredicate) (x y : IVec s w) (i : s.Idx) : cmpi p x y i = IntOp.cmpi p (x i) (y i) := rfl
/-- The word-level sum is the bit-vector sum … -/
theorem intOp_addi (x y : BitVec w) : IntOp.addi x y = x + y := rfl
/-- … the word-level product the bit-vector product … -/
theorem intOp_muli (x y : BitVec w) : IntOp.muli x y = x * y := rfl
/-- … and the word-level signed minimum the `if` on the signed comparison. -/
theorem intOp_minsi (x y : BitVec w) : IntOp.minsi x y = if x.slt y then x else y := rfl

end Pointwise

end Cert.LibLayoutIx
-- ==== Proof.KRow.lean ====
/-
  The kernel body's pure values read at one index on the extended reals. The body computes, for one sequence's 512 token rows
  and one block of 1280 vocabulary columns: the block of logits (a 512×4096 by 1280×4096ᵀ product), and from it and the four
  running columns (maximum, rescaled sum of exponentials, picked logit, plain sum) their updates; at the last block the
  sequence's mean log-probability and the sum of its logits, spread over 128 lanes. Each lemma says what one entry is.
-/
import proofs.«418210_j44899588112976_3_alg».proof.Proof.Gen.KernelIdeal.Skeleton
import proofs.«418210_j44899588112976_3_alg».proof.Proof.Spec
import proofs.«418210_j44899588112976_3_alg».proof.Proof.LibDots
import proofs.«418210_j44899588112976_3_alg».proof.Proof.LibLayoutIx
import Idealize.ShloMosaic.Lib.ValueLayout
import Idealize.ShloMosaic.Lib.Pipeline.Value

noncomputable section

namespace Cert.KRow

open Idealize.ShloMosaic Idealize.ShloMosaic.ValueIdx Cert.KernelIdeal Cert.KernelIdeal.Gen

/-! ## Small index facts -/

/-- The f32 word of −∞ is the bottom element. -/
theorem ofBits_ninf_f32 : Ideal.ofBits .f32 0xFF800000#32 = ⊥ := by simp [Ideal.ofBits, Ideal.ieee]

/-- A rank-1 array cast to a column reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Inserting lane k into the row index s of an [a, b] array gives (s, k). -/
theorem lift_lane {a b : ℕ} (h : (⟨2, ![a, b]⟩ : Shape).Reduces [1] ⟨1, ![a]⟩) (s : Fin a) (k : Fin b) :
    h.lift (ix1 s) k = ix2 s k := by
  funext c; apply Fin.ext
  match c with
  | ⟨0, _⟩ => rfl
  | ⟨1, _⟩ => rfl

/-- Inserting row k into the one index of the column sums of an [a, 1] array gives (k, u). -/
theorem lift_sublane {a : ℕ} (h : (⟨2, ![a, 1]⟩ : Shape).Reduces [0] ⟨1, ![1]⟩) (u : Fin 1) (k : Fin a) :
    h.lift (ix1 u) k = ix2 k u := by
  funext c; apply Fin.ext
  match c with
  | ⟨0, _⟩ => rfl
  | ⟨1, _⟩ => rfl

/-- A column stretched over b lanes reads, at (i, c), the column's entry (i, 0). -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The equality comparison of two words is the bit 1 exactly when they are equal. -/
theorem cmpi_eq_one {w : ℕ} (x y : BitVec w) : IntOp.cmpi .eq x y = 1#1 ↔ x = y := by
  show BitVec.ofBool (x == y) = 1#1 ↔ x = y
  by_cases h : x = y
  · subst h; simp
  · have hb : (x == y) = false := beq_eq_false_iff_ne.2 h
    rw [hb]
    exact ⟨fun h' => absurd h' (by decide), fun h' => absurd h' h⟩

/-- The "greater than" comparison of two extended reals is the bit 1 exactly when the second is below the first. -/
theorem cmp_ogt_one (x y : EReal) : Ideal.cmp .ogt x y = 1#1 ↔ y < x := by
  show BitVec.ofBool (decide (y < x)) = 1#1 ↔ y < x
  by_cases h : y < x
  · rw [decide_eq_true h]; exact ⟨fun _ => h, fun _ => rfl⟩
  · rw [decide_eq_false h]; exact ⟨fun h' => absurd h' (by decide), fun h' => absurd h' h⟩

/-- The block of logits: entry (s, j) is Σ_h x[0,s,h] · w[j,h]. -/
theorem pay13_apply (v3 : Vec Ideal S1x512x4096 .bf16) (v5 : Vec Ideal S1280x4096 .bf16) (s : Fin 512) (j : Fin 1280) :
    k0_pay13 (F := Ideal) v3 v5 (ix2 s j) = ∑ h : Fin 4096, v3 (ix3 0 s h) * v5 (ix2 j h) := by
  unfold k0_pay13
  -- the product into the zero accumulator is the sum over the contracted coordinate
  refine (Cert.Lib.Dots.matmul_zero_rowsT_apply dot_S512x4096_S1280x4096_S512x1280_1_1_0_0_n_n_wf none _ _ s j).trans ?_
  refine Finset.sum_congr rfl fun h _ => ?_
  -- the first operand drops its leading unit axis, the second is cast to its own shape
  rw [shapeCast_1ab_ab_apply, shapeCast_self]

/-- The new running maximum of row s: the old one against the block's maximum (folded from −∞). -/
theorem pay14_apply (v3 : Vec Ideal S1x512x4096 .bf16) (v5 : Vec Ideal S1280x4096 .bf16) (v10 : Vec Ideal S512x1 .f32) (s : Fin 512) :
    k0_pay14 (F := Ideal) v3 v5 v10 (ix2 s 0)
      = max (v10 (ix2 s 0)) ((Finset.univ : Finset (Fin 1280)).fold max ⊥ (fun j => k0_pay13 (F := Ideal) v3 v5 (ix2 s j))) := by
  unfold k0_pay14
  refine congrArg (max (v10 (ix2 s 0))) ?_
  -- the column entry (s, 0) is entry s of the lane maxima
  refine (shapeCast_a_a1_apply _ _ s 0).trans ?_
  -- the lane maximum is the fold of max over the 1280 lanes, from the word of −∞
  refine (Ideal.multiReduction_maximumf_single _ _ _ _ _ _).trans ?_
  show (Finset.univ : Finset (Fin 1280)).fold max (Ideal.ofBits .f32 0xFF800000#32) _ = _
  rw [ofBits_ninf_f32]
  refine congrArg (fun f => (Finset.univ : Finset (Fin 1280)).fold max ⊥ f) ?_
  funext k
  exact congrArg (k0_pay13 (F := Ideal) v3 v5) (lift_lane _ s k)

/-- The stored maximum is the new running maximum. -/
theorem pay16_apply (v3 : Vec Ideal S1x512x4096 .bf16) (v5 : Vec Ideal S1280x4096 .bf16) (v10 : Vec Ideal S512x1 .f32) (s : Fin 512) :
    k0_pay16 (F := Ideal) v3 v5 v10 (ix2 s 0) = k0_pay14 (F := Ideal) v3 v5 v10 (ix2 s 0) := by
  unfold k0_pay16
  rw [shapeCast_self]

/-- The new rescaled sum of row s: the old sum times exp (old maximum − new maximum), plus the block's exponentials against
    the new maximum. -/
theorem pay15_apply (v3 : Vec Ideal S1x512x4096 .bf16) (v5 : Vec Ideal S1280x4096 .bf16)
    (v10 v12 v20 : Vec Ideal S512x1 .f32) (s : Fin 512) :
    k0_pay15 (F := Ideal) v3 v5 v10 v12 v20 (ix2 s 0)
      = v20 (ix2 s 0) * Ideal.exp (v12 (ix2 s 0) - k0_pay14 (F := Ideal) v3 v5 v10 (ix2 s 0))
        + ∑ j : Fin 1280, Ideal.exp (k0_pay13 (F := Ideal) v3 v5 (ix2 s j) - k0_pay14 (F := Ideal) v3 v5 v10 (ix2 s 0)) := by
  unfold k0_pay15
  rw [shapeCast_self]
  show v20 (ix2 s 0) * Ideal.exp (v12 (ix2 s 0) - k0_pay14 (F := Ideal) v3 v5 v10 (ix2 s 0)) + _ = _
  refine congrArg (fun z => v20 (ix2 s 0) * Ideal.exp (v12 (ix2 s 0) - k0_pay14 (F := Ideal) v3 v5 v10 (ix2 s 0)) + z) ?_
  -- the column entry (s, 0) is entry s of the lane sums of the exponentials
  refine (shapeCast_a_a1_apply _ _ s 0).trans ?_
  refine (Ideal.multiReduction_add_single _ _ _ _ _ _).trans ?_
  show ∑ k : Fin 1280, _ = _
  refine Finset.sum_congr rfl fun k _ => ?_
  rw [lift_lane _ s k]
  -- the new maximum, stretched over the lanes, is read at (s, 0)
  show Ideal.exp (k0_pay13 (F := Ideal) v3 v5 (ix2 s k) - broadcastTo S512x1280 (k0_pay14 (F := Ideal) v3 v5 v10) broadcasts_S512x1_S512x1280 (ix2 s k)) = _
  rw [broadcastTo_a1_ab_apply]

/-- The block's column numbers: lane j of grid point i holds the word of 1280 · i₁ + j. -/
theorem pay17_apply (i : grid0.Coords) (j : Fin 1280) :
    k0_pay17 i (ix2 0 j) = BitVec.ofNat 32 (1280 * (i 1).val + j.val) := by
  unfold k0_pay17
  -- the lane number of a one-axis iota is its word; the splat of 1280 · i₁ is added to it
  show IntOp.addi (Scalar.muli (BitVec.ofNat 32 (i 1).val) 1280#32) (iota .tc S1x1280 32 [1] iota_S1x1280_d1_w32 (ix2 0 j)) = _
  rw [iota_single_apply]
  show BitVec.ofNat 32 (i 1).val * BitVec.ofNat 32 1280 + BitVec.ofNat 32 j.val = _
  rw [BitVec.ofNat_add, BitVec.ofNat_mul, BitVec.mul_comm]

/-- The new picked logit of row s: the old one plus the block's entries at the lanes whose column number is the row's
    clipped target word (0 elsewhere). -/
theorem pay1_apply (v7 : FVec Ideal S512x1280 .f32) (v32 : IVec S1x1280 32) (v33 : Vec Ideal S512x1 .i32)
    (v41 : Vec Ideal S512x1 .f32) (s : Fin 512) :
    k0_pay1 (F := Ideal) v7 v32 v33 v41 (ix2 s 0)
      = v41 (ix2 s 0) + ∑ j : Fin 1280, (if v33 (ix2 s 0) = v32 (ix2 0 j) then v7 (ix2 s j) else 0) := by
  unfold k0_pay1
  rw [shapeCast_self]
  refine congrArg (fun z => v41 (ix2 s 0) + z) ?_
  -- the column entry (s, 0) is entry s of the lane sums of the selected entries
  refine (shapeCast_a_a1_apply _ _ s 0).trans ?_
  refine (Ideal.multiReduction_add_single _ _ _ _ _ _).trans ?_
  show ∑ k : Fin 1280, _ = _
  refine Finset.sum_congr rfl fun k _ => ?_
  -- at (s, k) the selection compares the row's word (stretched over the lanes) with lane k's word (stretched over the rows)
  rw [lift_lane _ s k, select_apply, Cert.LibLayoutIx.cmpi_apply, broadcastTo_a1_ab_apply, broadcastTo_1b_ab_apply, broadcast_apply]
  show Scalar.select _ _ (Ideal.ofBits .f32 0x00000000#32) = _
  rw [Ideal.ofBits_zero_f32]
  by_cases h : v33 (ix2 s 0) = v32 (ix2 0 k)
  · rw [if_pos h, (cmpi_eq_one _ _).2 h, select_one]
  · rw [if_neg h, eq_zero_of_ne_one (fun h' => h ((cmpi_eq_one _ _).1 h')), select_zero]

/-- The new plain sum of row s: the old one plus the block's row sum. -/
theorem pay2_apply (v7 : FVec Ideal S512x1280 .f32) (v48 : Vec Ideal S512x1 .f32) (s : Fin 512) :
    k0_pay2 (F := Ideal) v7 v48 (ix2 s 0) = v48 (ix2 s 0) + ∑ j : Fin 1280, v7 (ix2 s j) := by
  unfold k0_pay2
  rw [shapeCast_self]
  refine congrArg (fun z => v48 (ix2 s 0) + z) ?_
  -- the column entry (s, 0) is entry s of the lane sums, a sum over the 1280 lanes of row s
  refine (shapeCast_a_a1_apply _ _ s 0).trans ?_
  refine (Ideal.multiReduction_add_single _ _ _ _ _ _).trans ?_
  show ∑ k : Fin 1280, _ = _
  refine Finset.sum_congr rfl fun k _ => ?_
  exact congrArg v7 (lift_lane _ s k)

/-- The first output's block at the last vocabulary block: every lane holds (Σ_s [mask_s > 0] (pick_s − (max_s + log sum_s)))
    divided by Σ_s mask_s. -/
theorem pay3_apply (v56 v57 v60 v62 v69 : Vec Ideal S512x1 .f32) (l : Fin 128) :
    k0_pay3 (F := Ideal) v56 v57 v60 v62 v69 (ix3 0 0 l)
      = Ideal.div (∑ s : Fin 512, (if (0 : EReal) < v62 (ix2 s 0) then v60 (ix2 s 0) - (v56 (ix2 s 0) + Ideal.log (v57 (ix2 s 0))) else 0))
          (∑ s : Fin 512, v69 (ix2 s 0)) := by
  unfold k0_pay3
  rw [shapeCast_self]
  -- lane l of the [1, 1, 128] block is the one entry of the [1, 1] quotient of the two column sums
  refine (shapeCast_ab_1ab_apply _ _ 0 0 l).trans ?_
  refine (broadcastTo_a1_ab_apply _ _ 0 l).trans ?_
  rw [divf_apply, shapeCast_a_a1_apply, shapeCast_a_a1_apply]
  -- one row's selected term: the comparison with the zero word decides between the difference and the zero word
  have e1 : ∀ k : Fin 512,
      Scalar.select (Ideal.cmp .ogt (v62 (ix2 k 0)) (Ideal.ofBits .f32 0x00000000#32))
          (v60 (ix2 k 0) - (v56 (ix2 k 0) + Ideal.log (v57 (ix2 k 0)))) (Ideal.ofBits .f32 0x00000000#32)
        = if (0 : EReal) < v62 (ix2 k 0) then v60 (ix2 k 0) - (v56 (ix2 k 0) + Ideal.log (v57 (ix2 k 0))) else 0 := by
    intro k
    rw [Ideal.ofBits_zero_f32]
    by_cases h : (0 : EReal) < v62 (ix2 k 0)
    · rw [if_pos h, (cmp_ogt_one _ _).2 h, select_one]
    · rw [if_neg h, eq_zero_of_ne_one (fun h' => h ((cmp_ogt_one _ _).1 h')), select_zero]
  refine congrArg₂ Ideal.div ?_ ?_
  · refine (Ideal.multiReduction_add_single _ _ _ _ _ _).trans ?_
    show ∑ k : Fin 512, _ = _
    refine Finset.sum_congr rfl fun k _ => ?_
    rw [lift_sublane _ 0 k]
    exact e1 k
  · refine (Ideal.multiReduction_add_single _ _ _ _ _ _).trans ?_
    show ∑ k : Fin 512, _ = _
    refine Finset.sum_congr rfl fun k _ => ?_
    exact congrArg v69 (lift_sublane _ 0 k)

/-- The second output's block at the last vocabulary block: every lane holds Σ_s (plain sum)_s. -/
theorem pay4_apply (v73 : Vec Ideal S512x1 .f32) (l : Fin 128) :
    k0_pay4 (F := Ideal) v73 (ix3 0 0 l) = ∑ s : Fin 512, v73 (ix2 s 0) := by
  unfold k0_pay4
  rw [shapeCast_self]
  -- lane l of the [1, 1, 128] block is the one entry of the [1, 1] array, itself the one column sum
  refine (shapeCast_ab_1ab_apply _ _ 0 0 l).trans ?_
  refine (broadcastTo_a1_ab_apply _ _ 0 l).trans ?_
  refine (shapeCast_a_a1_apply _ _ 0 0).trans ?_
  refine (Ideal.multiReduction_add_single _ _ _ _ _ _).trans ?_
  show ∑ k : Fin 512, _ = _
  refine Finset.sum_congr rfl fun k _ => ?_
  exact congrArg v73 (lift_sublane _ 0 k)

/-- The reset values: −∞ for the maximum, 0 for the three sums. -/
theorem pay5_apply (i : S512x1.Idx) : k0_pay5 (F := Ideal) i = ⊥ := by
  unfold k0_pay5
  rw [shapeCast_self]
  exact ofBits_ninf_f32
theorem pay6_apply (i : S512x1.Idx) : k0_pay6 (F := Ideal) i = 0 := by
  unfold k0_pay6
  rw [shapeCast_self]
  exact Ideal.ofBits_zero_f32
theorem pay7_apply (i : S512x1.Idx) : k0_pay7 (F := Ideal) i = 0 := by
  unfold k0_pay7
  rw [shapeCast_self]
  exact Ideal.ofBits_zero_f32
theorem pay8_apply (i : S512x1.Idx) : k0_pay8 (F := Ideal) i = 0 := by
  unfold k0_pay8
  rw [shapeCast_self]
  exact Ideal.ofBits_zero_f32

/-- The target words as a rank-1 array: entry s is the block's word (0, 0, s). -/
theorem pay9_apply (v72 : Vec Ideal S1x1x512 .i32) (s : Fin 512) :
    k0_pay9 (F := Ideal) v72 (ix1 s) = v72 (ix3 0 0 s) := by
  unfold k0_pay9
  rw [shapeCast_1a_a_apply, shapeCast_1ab_ab_apply]

/-- The clipped target column of row s. -/
theorem pay10_apply (v72 : Vec Ideal S1x1x512 .i32) (s : Fin 512) :
    k0_pay10 (F := Ideal) v72 (ix2 s 0) = Cert.Spec.clipW (v72 (ix3 0 0 s)) := by
  unfold k0_pay10
  rw [shapeCast_self]
  refine (shapeCast_a_a1_apply _ _ s 0).trans ?_
  -- entry s is the signed minimum of 31999 and the signed maximum of 0 and the target word
  show IntOp.minsi 31999#32 (IntOp.maxsi 0#32 (k0_pay9 (F := Ideal) v72 (ix1 s))) = _
  rw [pay9_apply]
  rfl

/-- The mask of row s as an extended real: 1 unless the target word is −100, then 0. -/
theorem pay12_apply (v72 : Vec Ideal S1x1x512 .i32) (s : Fin 512) :
    k0_pay12 (F := Ideal) (k0_pay11 (F := Ideal) v72) (ix2 s 0) = ((Cert.Spec.keepR (v72 (ix3 0 0 s)) : ℝ) : EReal) := by
  unfold k0_pay12 k0_pay11
  rw [shapeCast_self]
  refine (shapeCast_a_a1_apply _ _ s 0).trans ?_
  -- entry s is the mask bit, widened to 32 bits and read as a signed number
  show (((((IntOp.cmpi .ne (k0_pay9 (F := Ideal) v72 (ix1 s)) 4294967196#32).setWidth 32).toInt : ℤ) : ℝ) : EReal) = _
  rw [pay9_apply]
  show (((((Cert.Spec.keep (v72 (ix3 0 0 s))).setWidth 32).toInt : ℤ) : ℝ) : EReal) = _
  unfold Cert.Spec.keepR
  by_cases h : Cert.Spec.keep (v72 (ix3 0 0 s)) = 1#1
  · have e : ((1#1 : BitVec 1).setWidth 32).toInt = 1 := by decide
    rw [if_pos h, h, e, Int.cast_one]
  · have e : ((0#1 : BitVec 1).setWidth 32).toInt = 0 := by decide
    rw [if_neg h, eq_zero_of_ne_one h, e, Int.cast_zero]

end Cert.KRow

end
-- ==== Proof.KBlocks.lean ====
/-
  The kernel's three input windows read off the argument arrays, at the ideal instance. Grid point t = 25·g + v (g the
  sequence, v the vocabulary block) stages: block g of the activations cast to bf16 — at the ideal instance the cast is the
  identity, so its entry (0, s, h) is x[g, s, h] —, block v of the weight likewise — entry (j, h) is w[1280·v + j, h] —, and
  block g of the targets laid out [8, 1, 512] — entry (0, 0, s) is target[g, s].
-/
import proofs.«418210_j44899588112976_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KBlocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The activations' block at a grid point, at its literal type. -/
abbrev xblk (c : Dev nD) (t : Fin cfg0.N) : Vec Ideal S1x512x4096 .bf16 := iblk (F := Ideal) m c 0 t
/-- The weight's block at a grid point, at its literal type. -/
abbrev wblk (c : Dev nD) (t : Fin cfg0.N) : Vec Ideal S1280x4096 .bf16 := iblk (F := Ideal) m c 1 t
/-- The targets' block at a grid point, at its literal type. -/
abbrev tblk (c : Dev nD) (t : Fin cfg0.N) : Vec Ideal S1x1x512 .i32 := iblk (F := Ideal) m c 2 t

/-- The grid has 8 · 25 = 200 points. -/
theorem N_eq : cfg0.N = 200 := N_0

/-- The sequence a grid point works on. -/
def seqOf (t : Fin cfg0.N) : Fin 8 := ⟨t.val / 25, by have := t.isLt; have := N_eq; omega⟩

/-- A grid point's second coordinate is its vocabulary block. -/
theorem coords_one (t : Fin cfg0.N) : ((grid0.coords t) 1).val = t.val % 25 :=
  (by decide +kernel : ∀ t : Fin grid0.N, ((grid0.coords t) 1).val = t.val % 25) t

/-- A grid point's first coordinate is its sequence. -/
theorem coords_zero (t : Fin cfg0.N) : ((grid0.coords t) 0).val = t.val / 25 :=
  (by decide +kernel : ∀ t : Fin grid0.N, ((grid0.coords t) 0).val = t.val / 25) t

/-- Entry (0, s, h) of the activations' block at point t is x[g, s, h]. -/
theorem xblk_apply (c : Dev nD) (t : Fin cfg0.N) (s : Fin 512) (h : Fin 4096) :
    xblk m c t (ix3 0 s h) = m ((c.tc : Thread nD τ).loc main_arg0) (ix3 (seqOf t) s h) := by
  -- the block index of point t is (t / 25, 0, 0): checked at each of the 200 points
  have idx : ∀ t : Fin cfg0.N, win0_0.index t (0 : Fin 3) = t.val / 25 ∧ win0_0.index t 1 = 0 ∧ win0_0.index t 2 = 0 :=
    (by decide +kernel : ∀ t : Fin grid0.N, _)
  -- the array the window reads is the bf16 cast of x, and over the extended reals that cast changes no entry
  have e : @Eq (FVec Ideal S8x512x4096 .bf16) (V m c main_v0)
      (truncf (F := Ideal) .bf16 (m ((c.tc : Thread nD τ).loc main_arg0) : FVec Ideal S8x512x4096 .f32) bitsLt_bf16_f32) := by
    show StableHlo.after hostOps0 (fun b => m (c, b)) (Proc.devRef .tc main_v0) = _
    after_results
  show iblk (F := Ideal) m c 0 t (ix3 0 s h) = _
  unfold iblk
  rw [View.read_apply]
  show V m c main_v0 _ = _
  rw [e, truncf_apply]
  -- per axis, the array coordinate is block index × block extent + the coordinate inside the block
  congr 1
  funext a
  apply Fin.ext
  match a with
  | ⟨0, _⟩ => show win0_0.index t 0 * 1 + 1 * 0 = t.val / 25; rw [(idx t).1]; omega
  | ⟨1, _⟩ => show win0_0.index t 1 * 512 + 1 * s.val = s.val; rw [(idx t).2.1]; omega
  | ⟨2, _⟩ => show win0_0.index t 2 * 4096 + 1 * h.val = h.val; rw [(idx t).2.2]; omega

/-- Entry (j, h) of the weight's block at point t is w[1280·v + j, h]. -/
theorem wblk_apply (c : Dev nD) (t : Fin cfg0.N) (j : Fin 1280) (h : Fin 4096) :
    wblk m c t (ix2 j h)
      = m ((c.tc : Thread nD τ).loc main_arg1) (ix2 ⟨1280 * (t.val % 25) + j.val, by have := j.isLt; omega⟩ h) := by
  -- the block index of point t is (t % 25, 0): checked at each of the 200 points
  have idx : ∀ t : Fin cfg0.N, win0_1.index t (0 : Fin 2) = t.val % 25 ∧ win0_1.index t 1 = 0 :=
    (by decide +kernel : ∀ t : Fin grid0.N, _)
  -- the array the window reads is the bf16 cast of w, entrywise w itself over the extended reals
  have e : @Eq (FVec Ideal S32000x4096 .bf16) (V m c main_v1)
      (truncf (F := Ideal) .bf16 (m ((c.tc : Thread nD τ).loc main_arg1) : FVec Ideal S32000x4096 .f32) bitsLt_bf16_f32) := by
    show StableHlo.after hostOps0 (fun b => m (c, b)) (Proc.devRef .tc main_v1) = _
    after_results
  show iblk (F := Ideal) m c 1 t (ix2 j h) = _
  unfold iblk
  rw [View.read_apply]
  show V m c main_v1 _ = _
  rw [e, truncf_apply]
  -- row 1280 · (t % 25) + j of w, column h
  congr 1
  funext a
  apply Fin.ext
  match a with
  | ⟨0, _⟩ => show win0_1.index t 0 * 1280 + 1 * j.val = 1280 * (t.val % 25) + j.val; rw [(idx t).1]; omega
  | ⟨1, _⟩ => show win0_1.index t 1 * 4096 + 1 * h.val = h.val; rw [(idx t).2]; omega

/-- Entry (0, 0, s) of the targets' block at point t is target[g, s]. -/
theorem tblk_apply (c : Dev nD) (t : Fin cfg0.N) (s : Fin 512) :
    tblk m c t (ix3 0 0 s) = m ((c.tc : Thread nD τ).loc main_arg2) (ix2 (seqOf t) s) := by
  -- the block index of point t is (t / 25, 0, 0): checked at each of the 200 points
  have idx : ∀ t : Fin cfg0.N, win0_2.index t (0 : Fin 3) = t.val / 25 ∧ win0_2.index t 1 = 0 ∧ win0_2.index t 2 = 0 :=
    (by decide +kernel : ∀ t : Fin grid0.N, _)
  -- the array the window reads is the targets laid out [8, 1, 512]: axes 0 and 2 are the targets' two axes
  have e : @Eq (IVec S8x1x512 32) (V m c main_v2)
      (broadcastInDim S8x1x512 ![0, 2] bcast_S8x512_S8x1x512_0_2 (m ((c.tc : Thread nD τ).loc main_arg2) : IVec S8x512 32)) := by
    show StableHlo.after hostOps0 (fun b => m (c, b)) (Proc.devRef .tc main_v2) = _
    after_results
  show iblk (F := Ideal) m c 2 t (ix3 0 0 s) = _
  unfold iblk
  rw [View.read_apply]
  show V m c main_v2 _ = _
  rw [e]
  -- so entry (g, 0, s) of it is target[g, s]; neither of the targets' axes has extent 1
  refine broadcastInDim_apply _ _ _ _ (ix2 (seqOf t) s) (fun a => ?_)
  match a with
  | ⟨0, _⟩ =>
    show t.val / 25 = if (8 : Nat) = 1 then 0 else win0_2.index t 0 * 1 + 1 * 0
    rw [(idx t).1, if_neg (by decide)]; omega
  | ⟨1, _⟩ =>
    show s.val = if (512 : Nat) = 1 then 0 else win0_2.index t 2 * 512 + 1 * s.val
    rw [(idx t).2.2, if_neg (by decide)]; omega

end Cert.KBlocks

end
-- ==== Proof.RowMath.lean ====
/-
  One token's row of 32000 logits, read 1280 columns at a time: the running maximum, the running sum of exponentials
  rescaled to the running maximum, the running pick of one column and the running plain sum, as the online recurrences
  leave them after k blocks — and that after all 25 blocks they are the whole row's log-partition, the picked logit and the
  row sum. Everything is on the extended reals with the ideal exponential and logarithm; the logits are real.
-/
import proofs.«418210_j44899588112976_3_alg».proof.Proof.Spec

noncomputable section

namespace Cert.RowMath

open Idealize.ShloMosaic Cert.Spec

/-- Column j of block v (blocks of 1280 columns; reduced mod 32000 so that it is total: for v < 25 it is 1280·v + j). -/
def colOf (v : ℕ) (j : Fin 1280) : Fin 32000 := ⟨(1280 * v + j.val) % 32000, Nat.mod_lt _ (by decide)⟩

theorem colOf_val (v : ℕ) (hv : v < 25) (j : Fin 1280) : (colOf v j).val = 1280 * v + j.val := by
  have := j.isLt
  show (1280 * v + j.val) % 32000 = _
  exact Nat.mod_eq_of_lt (by omega)

variable (L : Fin 32000 → ℝ)

/-- The largest logit of block v: the maximum folded from −∞ over the block. -/
def chunkMax (v : ℕ) : EReal :=
  (Finset.univ : Finset (Fin 1280)).fold max ⊥ (fun j => ((L (colOf v j) : ℝ) : EReal))

/-- The running maximum after k blocks (−∞ before the first). -/
def runMax : ℕ → EReal
  | 0 => ⊥
  | k + 1 => max (runMax k) (chunkMax L k)

/-- The running sum of exponentials after k blocks, every term rescaled to the running maximum after k blocks. -/
def runL (k : ℕ) : EReal :=
  ∑ v ∈ Finset.range k, ∑ j : Fin 1280, Ideal.exp (((L (colOf v j) : ℝ) : EReal) - runMax L k)

/-- The running pick of column t after k blocks: the logit at t once t's block has passed, 0 before. -/
def runT (t : Fin 32000) (k : ℕ) : EReal :=
  ∑ v ∈ Finset.range k, ∑ j : Fin 1280, if t = colOf v j then ((L (colOf v j) : ℝ) : EReal) else 0

/-- The running plain sum after k blocks. -/
def runS (k : ℕ) : EReal :=
  ∑ v ∈ Finset.range k, ∑ j : Fin 1280, ((L (colOf v j) : ℝ) : EReal)

/-- A finite sum of real numbers read on the extended reals is the real sum (the form used below). -/
theorem coe_sum_aux {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The larger of two real numbers, read on the extended reals, is the larger of their readings. -/
theorem coe_max_aux (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A maximum folded from −∞ over a finite family of real numbers is −∞ (only for the empty family) or a real number. -/
theorem fold_max_cases {ι : Type*} (s : Finset ι) (f : ι → ℝ) :
    (s = ∅ ∧ s.fold max ⊥ (fun i => ((f i : ℝ) : EReal)) = ⊥)
      ∨ ∃ r : ℝ, s.fold max ⊥ (fun i => ((f i : ℝ) : EReal)) = (r : EReal) := by
  classical
  induction s using Finset.induction_on with
  | empty => left; exact ⟨rfl, Finset.fold_empty⟩
  | insert a s ha ih =>
    right
    rw [Finset.fold_insert ha]
    rcases ih with ⟨_, h⟩ | ⟨r, h⟩
    · rw [h]; exact ⟨f a, max_bot_right _⟩
    · rw [h]; exact ⟨max (f a) r, coe_max_aux _ _⟩

/-- Over a nonempty finite family of real numbers the folded maximum is a real number. -/
theorem fold_max_real {ι : Type*} (s : Finset ι) (hs : s.Nonempty) (f : ι → ℝ) :
    ∃ r : ℝ, s.fold max ⊥ (fun i => ((f i : ℝ) : EReal)) = (r : EReal) := by
  rcases fold_max_cases s f with ⟨h, _⟩ | h
  · exact absurd h hs.ne_empty
  · exact h

/-- The ideal exponential of a difference of two real numbers is the real exponential of the difference. -/
theorem exp_coe_sub (a r : ℝ) : Ideal.exp (((a : ℝ) : EReal) - ((r : ℝ) : EReal)) = ((Real.exp (a - r) : ℝ) : EReal) := by
  rw [← EReal.coe_sub, Ideal.exp_coe]

/-- A block's maximum of real logits is a real number. -/
theorem chunkMax_real (v : ℕ) : ∃ r : ℝ, chunkMax L v = (r : EReal) := by
  unfold chunkMax
  exact fold_max_real _ ⟨⟨0, by decide⟩, Finset.mem_univ _⟩ (fun j => L (colOf v j))

/-- After at least one block the running maximum is a real number. -/
theorem runMax_real (k : ℕ) : ∃ r : ℝ, runMax L (k + 1) = (r : EReal) := by
  induction k with
  | zero =>
    obtain ⟨c, hc⟩ := chunkMax_real L 0
    exact ⟨c, by show max (runMax L 0) (chunkMax L 0) = _; rw [hc]; exact max_bot_left _⟩
  | succ k ih =>
    obtain ⟨r, hr⟩ := ih
    obtain ⟨c, hc⟩ := chunkMax_real L (k + 1)
    exact ⟨max r c, by show max (runMax L (k + 1)) (chunkMax L (k + 1)) = _; rw [hr, hc]; exact coe_max_aux _ _⟩

/-- With a real running maximum r after k blocks, the running sum is the real sum of the real exponentials against r. -/
theorem runL_of_real (k : ℕ) (r : ℝ) (h : runMax L k = (r : EReal)) :
    runL L k = ((∑ v ∈ Finset.range k, ∑ j : Fin 1280, Real.exp (L (colOf v j) - r) : ℝ) : EReal) := by
  unfold runL
  rw [h, coe_sum_aux]
  refine Finset.sum_congr rfl fun v _ => ?_
  rw [coe_sum_aux]
  exact Finset.sum_congr rfl fun j _ => exp_coe_sub _ _

/-- THE ONLINE STEP: rescaling the old sum from the old maximum to the new one and adding the new block's exponentials
    (taken against the new maximum) gives the sum over all blocks so far against the new maximum. At k = 0 the old sum
    is 0 and the old maximum −∞ (exp (−∞ − m) = 0); afterwards everything is real and
    exp (a − m) · exp (m − m') = exp (a − m'). -/
theorem runL_succ (k : ℕ) :
    runL L k * Ideal.exp (runMax L k - runMax L (k + 1))
        + ∑ j : Fin 1280, Ideal.exp (((L (colOf k j) : ℝ) : EReal) - runMax L (k + 1))
      = runL L (k + 1) := by
  obtain ⟨r', hr'⟩ := runMax_real L k
  have hnew : ∑ j : Fin 1280, Ideal.exp (((L (colOf k j) : ℝ) : EReal) - runMax L (k + 1))
      = ((∑ j : Fin 1280, Real.exp (L (colOf k j) - r') : ℝ) : EReal) := by
    rw [hr', coe_sum_aux]
    exact Finset.sum_congr rfl fun j _ => exp_coe_sub _ _
  rw [hnew, runL_of_real L (k + 1) r' hr']
  cases k with
  | zero =>
    -- no block yet: the old sum is empty
    have h0 : runL L 0 = 0 := by unfold runL; rw [Finset.range_zero, Finset.sum_empty]
    rw [h0, zero_mul, zero_add, Finset.sum_range_succ, Finset.range_zero, Finset.sum_empty, zero_add]
  | succ k =>
    -- both maxima are real: exp (a − r) · exp (r − r') = exp (a − r')
    obtain ⟨r, hr⟩ := runMax_real L k
    rw [runL_of_real L (k + 1) r hr, hr, hr', exp_coe_sub, ← EReal.coe_mul, ← EReal.coe_add]
    congr 1
    rw [Finset.sum_range_succ _ (k + 1), Finset.sum_mul]
    congr 1
    refine Finset.sum_congr rfl fun v _ => ?_
    rw [Finset.sum_mul]
    refine Finset.sum_congr rfl fun j _ => ?_
    rw [← Real.exp_add]
    congr 1
    ring

theorem runT_succ (t : Fin 32000) (k : ℕ) :
    runT L t k + ∑ j : Fin 1280, (if t = colOf k j then ((L (colOf k j) : ℝ) : EReal) else 0) = runT L t (k + 1) := by
  unfold runT; rw [Finset.sum_range_succ]

theorem runS_succ (k : ℕ) :
    runS L k + ∑ j : Fin 1280, ((L (colOf k j) : ℝ) : EReal) = runS L (k + 1) := by
  unfold runS; rw [Finset.sum_range_succ]

/-- The 25 blocks of 1280 columns are the 32000 columns, each once. -/
theorem sum_blocks {M : Type*} [AddCommMonoid M] (f : Fin 32000 → M) :
    ∑ v ∈ Finset.range 25, ∑ j : Fin 1280, f (colOf v j) = ∑ u : Fin 32000, f u := by
  calc ∑ v ∈ Finset.range 25, ∑ j : Fin 1280, f (colOf v j)
      = ∑ v : Fin 25, ∑ j : Fin 1280, f (colOf v.val j) :=
        (Fin.sum_univ_eq_sum_range (fun v => ∑ j : Fin 1280, f (colOf v j)) 25).symm
    _ = ∑ p : Fin 25 × Fin 1280, f (colOf p.1.val p.2) :=
        (Fintype.sum_prod_type' (fun (v : Fin 25) (j : Fin 1280) => f (colOf v.val j))).symm
    _ = ∑ u : Fin 32000, f u := by
        -- (v, j) ↦ 1280·v + j is a bijection of the pairs onto the columns
        refine Fintype.sum_equiv (finProdFinEquiv : Fin 25 × Fin 1280 ≃ Fin 32000) _ _ ?_
        rintro ⟨v, j⟩
        congr 1
        apply Fin.ext
        rw [colOf_val v.val v.isLt j]
        show 1280 * v.val + j.val = j.val + 1280 * v.val
        omega

/-- The sum of the exponentials of a row of real numbers is positive. -/
theorem sum_exp_pos (g : Fin 32000 → ℝ) : 0 < ∑ v : Fin 32000, Real.exp (g v) :=
  Finset.sum_pos (fun _ _ => Real.exp_pos _) ⟨⟨0, by decide⟩, Finset.mem_univ _⟩

/-- Shifting every logit by M shifts the log-partition by M: log Σ exp (a_v − M) = log Σ exp a_v − M. -/
theorem log_sum_shift (M : ℝ) : Real.log (∑ v : Fin 32000, Real.exp (L v - M)) = lseR L - M := by
  have h1 : ∑ v : Fin 32000, Real.exp (L v - M) = (∑ v : Fin 32000, Real.exp (L v)) / Real.exp M := by
    rw [Finset.sum_div]
    exact Finset.sum_congr rfl fun v _ => Real.exp_sub _ _
  rw [h1, Real.log_div (ne_of_gt (sum_exp_pos L)) (ne_of_gt (Real.exp_pos M)), Real.log_exp]
  rfl

/-- After the last block: maximum plus the logarithm of the rescaled sum is the row's log-partition, whatever the maximum was
    (m + log Σ exp (a − m) = log Σ exp a for real m; the sum is positive). -/
theorem lse_final : runMax L 25 + Ideal.log (runL L 25) = ((lseR L : ℝ) : EReal) := by
  obtain ⟨r, hr⟩ := runMax_real L 24
  have hpos : 0 < ∑ u : Fin 32000, Real.exp (L u - r) := sum_exp_pos (fun u => L u - r)
  rw [runL_of_real L 25 r hr, hr, sum_blocks (fun u => Real.exp (L u - r)), Ideal.log_coe,
    if_neg (not_le.mpr hpos), log_sum_shift, ← EReal.coe_add]
  congr 1
  ring

/-- After the last block the pick is the logit at the picked column. -/
theorem runT_final (t : Fin 32000) : runT L t 25 = ((L t : ℝ) : EReal) := by
  unfold runT
  rw [sum_blocks (fun u => if t = u then ((L u : ℝ) : EReal) else 0), Finset.sum_ite_eq]
  simp

/-- After the last block the plain sum is the row's sum. -/
theorem runS_final : runS L 25 = (((∑ u : Fin 32000, L u : ℝ)) : EReal) := by
  unfold runS
  rw [sum_blocks (fun u => ((L u : ℝ) : EReal)), coe_sum_aux]

/-- The clipped target word equals the word of column 1280·k + j exactly when the clipped column is that column. -/
theorem clipW_eq_ofNat_iff (t : BitVec 32) (k : ℕ) (hk : k < 25) (j : Fin 1280) :
    clipW t = BitVec.ofNat 32 (1280 * k + j.val) ↔ clipIx t = colOf k j := by
  have hj := j.isLt
  have hr := clipW_range t
  -- the word of a column below 32000 is that column as a signed number
  have hN : (BitVec.ofNat 32 (1280 * k + j.val)).toInt = ((1280 * k + j.val : ℕ) : ℤ) := by
    rw [BitVec.toInt_eq_toNat_cond, BitVec.toNat_ofNat]
    have hm : (1280 * k + j.val) % 2 ^ 32 = 1280 * k + j.val := Nat.mod_eq_of_lt (by omega)
    rw [hm, if_pos (by omega)]
  constructor
  · intro h
    apply Fin.ext
    rw [colOf_val k hk j]
    show (clipW t).toInt.toNat = _
    rw [h, hN]
    omega
  · intro h
    have hv : (clipW t).toInt.toNat = 1280 * k + j.val := by
      have := congrArg Fin.val h
      rw [colOf_val k hk j] at this
      exact this
    apply BitVec.eq_of_toInt_eq
    rw [hN]
    omega

/-- The mask as an extended real is positive exactly when the target is kept. -/
theorem keepR_pos_iff (t : BitVec 32) : (0 : EReal) < ((keepR t : ℝ) : EReal) ↔ keep t = 1#1 := by
  rw [EReal.coe_pos]
  unfold keepR
  by_cases h : keep t = 1#1
  · rw [if_pos h]; exact ⟨fun _ => h, fun _ => one_pos⟩
  · rw [if_neg h]; exact ⟨fun h0 => absurd h0 (lt_irrefl _), fun h1 => absurd h1 h⟩

/-- The reference's form of the same log-partition: for ANY real shift M, (a − M) − log Σ exp (a_v − M) = a − lse. -/
theorem shifted_logp (M : ℝ) (t : Fin 32000) :
    (L t - M) - Real.log (∑ v : Fin 32000, Real.exp (L v - M)) = L t - lseR L := by
  rw [log_sum_shift]
  ring

/-- The maximum of a whole row of real logits, folded from −∞, is a real number. -/
theorem rowMax_real : ∃ r : ℝ, (Finset.univ : Finset (Fin 32000)).fold max ⊥ (fun v => ((L v : ℝ) : EReal)) = (r : EReal) := by
  exact fold_max_real _ ⟨⟨0, by decide⟩, Finset.mem_univ _⟩ L

/-- A finite sum of real numbers read on the extended reals is the real sum. -/
theorem coe_sum {ι : Type*} (s : Finset ι) (f : ι → ℝ) : ((∑ i ∈ s, f i : ℝ) : EReal) = ∑ i ∈ s, ((f i : ℝ) : EReal) := by
  exact coe_sum_aux s f

end Cert.RowMath

end
-- ==== Proof.KInv.lean ====
/-
  What the six carried columns and the two output blocks hold after every grid point, in closed form. Grid point t = 25·g + v
  handles block v of sequence g. By induction on t: after it, row s of the columns holds the running maximum, the rescaled
  running sum of exponentials, the running picked logit and the running plain sum of the first v + 1 blocks of the real
  logits of token (g, s), the clipped target word and the mask of that token; at v = 0 the columns are reset first, so the
  induction restarts there from −∞ and 0. At v = 24 the first output block holds the sequence's mean log-probability and the
  second the sum of its logits, in every lane.
-/
import proofs.«418210_j44899588112976_3_alg».proof.Proof.KPieces
import proofs.«418210_j44899588112976_3_alg».proof.Proof.KRow
import proofs.«418210_j44899588112976_3_alg».proof.Proof.KBlocks
import proofs.«418210_j44899588112976_3_alg».proof.Proof.RowMath

set_option maxRecDepth 16384

noncomputable section

namespace Cert.KInv

open Idealize.ShloMosaic Idealize.ShloMosaic.TcCoe Idealize.ShloMosaic.ValueIdx Idealize.SL.Sem
open Cert.KernelIdeal Cert.KernelIdeal.Gen Cert.Spec Cert.RowMath Cert.KBlocks Cert.KPieces Cert.KRow

variable (m : (ℓ : Loc nD τ sig) → Buf (Elt Ideal) ℓ) (c : Dev nD)
variable (xr : SX.Idx → ℝ) (wr : SW.Idx → ℝ)

/-- The targets as the program finds them. -/
abbrev tgt : ST.Idx → BitVec 32 := m ((c.tc : Thread nD τ).loc main_arg2)

/-! ## What each case leaves, as the body's pure values -/

/-- At a sequence's first block: the reset columns updated by the block. -/
theorem outs_A (n : ℕ) (h : n < cfg0.N) (h0 : n % 25 = 0) (h1 : ¬n % 25 = 24) :
    (outsAt0 (F := Ideal) m c n h).2.2.1 = k0_pay16 (xblk m c (⟨n, h⟩ : Fin cfg0.N)) (wblk m c (⟨n, h⟩ : Fin cfg0.N)) (k0_pay5 (F := Ideal))
    ∧ (outsAt0 (F := Ideal) m c n h).2.2.2.1 = k0_pay15 (xblk m c (⟨n, h⟩ : Fin cfg0.N)) (wblk m c (⟨n, h⟩ : Fin cfg0.N)) (k0_pay5 (F := Ideal)) (k0_pay5 (F := Ideal)) (k0_pay6 (F := Ideal))
    ∧ (outsAt0 (F := Ideal) m c n h).2.2.2.2.1 = k0_pay1 (k0_pay13 (xblk m c (⟨n, h⟩ : Fin cfg0.N)) (wblk m c (⟨n, h⟩ : Fin cfg0.N))) (k0_pay17 (grid0.coords (⟨n, h⟩ : Fin cfg0.N))) (k0_pay10 (tblk m c (⟨n, h⟩ : Fin cfg0.N))) (k0_pay7 (F := Ideal))
    ∧ (outsAt0 (F := Ideal) m c n h).2.2.2.2.2.1 = k0_pay2 (k0_pay13 (xblk m c (⟨n, h⟩ : Fin cfg0.N)) (wblk m c (⟨n, h⟩ : Fin cfg0.N))) (k0_pay8 (F := Ideal))
    ∧ (outsAt0 (F := Ideal) m c n h).2.2.2.2.2.2.1 = k0_pay10 (tblk m c (⟨n, h⟩ : Fin cfg0.N))
    ∧ (outsAt0 (F := Ideal) m c n h).2.2.2.2.2.2.2 = k0_pay12 (k0_pay11 (tblk m c (⟨n, h⟩ : Fin cfg0.N))) := by
  refine ⟨?_, ?_, ?_, ?_, ?_, ?_⟩
  · show (outsAt0 (F := Ideal) m c n h).2.2.1 = _
    rw [outsAt0_A m c (⟨n, h⟩ : Fin cfg0.N) h0 h1]; dsimp only
    exact sout0_A_0_eq (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, h⟩ : Fin cfg0.N)).mpr h0) (fun hc => h1 ((hcond0_1 (⟨n, h⟩ : Fin cfg0.N)).mp hc)) (iblk (F := Ideal) m c 0 (⟨n, h⟩ : Fin cfg0.N)) (iblk (F := Ideal) m c 1 (⟨n, h⟩ : Fin cfg0.N)) (iblk (F := Ideal) m c 2 (⟨n, h⟩ : Fin cfg0.N))
  · show (outsAt0 (F := Ideal) m c n h).2.2.2.1 = _
    rw [outsAt0_A m c (⟨n, h⟩ : Fin cfg0.N) h0 h1]; dsimp only
    exact sout0_A_1_eq (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, h⟩ : Fin cfg0.N)).mpr h0) (fun hc => h1 ((hcond0_1 (⟨n, h⟩ : Fin cfg0.N)).mp hc)) (iblk (F := Ideal) m c 0 (⟨n, h⟩ : Fin cfg0.N)) (iblk (F := Ideal) m c 1 (⟨n, h⟩ : Fin cfg0.N)) (iblk (F := Ideal) m c 2 (⟨n, h⟩ : Fin cfg0.N))
  · show (outsAt0 (F := Ideal) m c n h).2.2.2.2.1 = _
    rw [outsAt0_A m c (⟨n, h⟩ : Fin cfg0.N) h0 h1]; dsimp only
    exact sout0_A_2_eq (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, h⟩ : Fin cfg0.N)).mpr h0) (fun hc => h1 ((hcond0_1 (⟨n, h⟩ : Fin cfg0.N)).mp hc)) (iblk (F := Ideal) m c 0 (⟨n, h⟩ : Fin cfg0.N)) (iblk (F := Ideal) m c 1 (⟨n, h⟩ : Fin cfg0.N)) (iblk (F := Ideal) m c 2 (⟨n, h⟩ : Fin cfg0.N))
  · show (outsAt0 (F := Ideal) m c n h).2.2.2.2.2.1 = _
    rw [outsAt0_A m c (⟨n, h⟩ : Fin cfg0.N) h0 h1]; dsimp only
    exact sout0_A_3_eq (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, h⟩ : Fin cfg0.N)).mpr h0) (fun hc => h1 ((hcond0_1 (⟨n, h⟩ : Fin cfg0.N)).mp hc)) (iblk (F := Ideal) m c 0 (⟨n, h⟩ : Fin cfg0.N)) (iblk (F := Ideal) m c 1 (⟨n, h⟩ : Fin cfg0.N)) (iblk (F := Ideal) m c 2 (⟨n, h⟩ : Fin cfg0.N))
  · show (outsAt0 (F := Ideal) m c n h).2.2.2.2.2.2.1 = _
    rw [outsAt0_A m c (⟨n, h⟩ : Fin cfg0.N) h0 h1]; dsimp only
    exact sout0_A_4_eq (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, h⟩ : Fin cfg0.N)).mpr h0) (fun hc => h1 ((hcond0_1 (⟨n, h⟩ : Fin cfg0.N)).mp hc)) (iblk (F := Ideal) m c 0 (⟨n, h⟩ : Fin cfg0.N)) (iblk (F := Ideal) m c 1 (⟨n, h⟩ : Fin cfg0.N)) (iblk (F := Ideal) m c 2 (⟨n, h⟩ : Fin cfg0.N))
  · show (outsAt0 (F := Ideal) m c n h).2.2.2.2.2.2.2 = _
    rw [outsAt0_A m c (⟨n, h⟩ : Fin cfg0.N) h0 h1]; dsimp only
    exact sout0_A_5_eq (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, h⟩ : Fin cfg0.N)).mpr h0) (fun hc => h1 ((hcond0_1 (⟨n, h⟩ : Fin cfg0.N)).mp hc)) (iblk (F := Ideal) m c 0 (⟨n, h⟩ : Fin cfg0.N)) (iblk (F := Ideal) m c 1 (⟨n, h⟩ : Fin cfg0.N)) (iblk (F := Ideal) m c 2 (⟨n, h⟩ : Fin cfg0.N))

/-- At a middle block: the columns the point before left, updated by the block; the target and mask columns kept. -/
theorem outs_B (n : ℕ) (h : n + 1 < cfg0.N) (h0 : ¬(n + 1) % 25 = 0) (h1 : ¬(n + 1) % 25 = 24) :
    (outsAt0 (F := Ideal) m c (n + 1) h).2.2.1 = k0_pay16 (xblk m c (⟨n + 1, h⟩ : Fin cfg0.N)) (wblk m c (⟨n + 1, h⟩ : Fin cfg0.N)) (outsAt0 (F := Ideal) m c n (Nat.lt_of_succ_lt h)).2.2.1
    ∧ (outsAt0 (F := Ideal) m c (n + 1) h).2.2.2.1 = k0_pay15 (xblk m c (⟨n + 1, h⟩ : Fin cfg0.N)) (wblk m c (⟨n + 1, h⟩ : Fin cfg0.N)) (outsAt0 (F := Ideal) m c n (Nat.lt_of_succ_lt h)).2.2.1 (outsAt0 (F := Ideal) m c n (Nat.lt_of_succ_lt h)).2.2.1 (outsAt0 (F := Ideal) m c n (Nat.lt_of_succ_lt h)).2.2.2.1
    ∧ (outsAt0 (F := Ideal) m c (n + 1) h).2.2.2.2.1 = k0_pay1 (k0_pay13 (xblk m c (⟨n + 1, h⟩ : Fin cfg0.N)) (wblk m c (⟨n + 1, h⟩ : Fin cfg0.N))) (k0_pay17 (grid0.coords (⟨n + 1, h⟩ : Fin cfg0.N))) (outsAt0 (F := Ideal) m c n (Nat.lt_of_succ_lt h)).2.2.2.2.2.2.1 (outsAt0 (F := Ideal) m c n (Nat.lt_of_succ_lt h)).2.2.2.2.1
    ∧ (outsAt0 (F := Ideal) m c (n + 1) h).2.2.2.2.2.1 = k0_pay2 (k0_pay13 (xblk m c (⟨n + 1, h⟩ : Fin cfg0.N)) (wblk m c (⟨n + 1, h⟩ : Fin cfg0.N))) (outsAt0 (F := Ideal) m c n (Nat.lt_of_succ_lt h)).2.2.2.2.2.1
    ∧ (outsAt0 (F := Ideal) m c (n + 1) h).2.2.2.2.2.2.1 = (outsAt0 (F := Ideal) m c n (Nat.lt_of_succ_lt h)).2.2.2.2.2.2.1
    ∧ (outsAt0 (F := Ideal) m c (n + 1) h).2.2.2.2.2.2.2 = (outsAt0 (F := Ideal) m c n (Nat.lt_of_succ_lt h)).2.2.2.2.2.2.2 := by
  refine ⟨?_, ?_, ?_, ?_, ?_, ?_⟩
  · show (outsAt0 (F := Ideal) m c (n + 1) h).2.2.1 = _
    rw [outsAt0_B m c (⟨n + 1, h⟩ : Fin cfg0.N) h0 h1]; dsimp only
    exact sout0_B_0_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) (fun hc => h1 ((hcond0_1 (⟨n + 1, h⟩ : Fin cfg0.N)).mp hc)) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.1 = _
    rw [outsAt0_B m c (⟨n + 1, h⟩ : Fin cfg0.N) h0 h1]; dsimp only
    exact sout0_B_1_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) (fun hc => h1 ((hcond0_1 (⟨n + 1, h⟩ : Fin cfg0.N)).mp hc)) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.2.1 = _
    rw [outsAt0_B m c (⟨n + 1, h⟩ : Fin cfg0.N) h0 h1]; dsimp only
    exact sout0_B_2_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) (fun hc => h1 ((hcond0_1 (⟨n + 1, h⟩ : Fin cfg0.N)).mp hc)) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.2.2.1 = _
    rw [outsAt0_B m c (⟨n + 1, h⟩ : Fin cfg0.N) h0 h1]; dsimp only
    exact sout0_B_3_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) (fun hc => h1 ((hcond0_1 (⟨n + 1, h⟩ : Fin cfg0.N)).mp hc)) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.2.2.2.1 = _
    rw [outsAt0_B m c (⟨n + 1, h⟩ : Fin cfg0.N) h0 h1]; dsimp only
    rfl
  · show (outsAt0 (F := Ideal) m c (n + 1) h).2.2.2.2.2.2.2 = _
    rw [outsAt0_B m c (⟨n + 1, h⟩ : Fin cfg0.N) h0 h1]; dsimp only
    rfl

/-- At the last block: the columns as at a middle block, and the two output blocks finalised from them. -/
theorem outs_C (n : ℕ) (h : n + 1 < cfg0.N) (h0 : ¬(n + 1) % 25 = 0) (h1 : (n + 1) % 25 = 24) :
    (outsAt0 (F := Ideal) m c (n + 1) h).2.2.1 = k0_pay16 (xblk m c (⟨n + 1, h⟩ : Fin cfg0.N)) (wblk m c (⟨n + 1, h⟩ : Fin cfg0.N)) (outsAt0 (F := Ideal) m c n (Nat.lt_of_succ_lt h)).2.2.1
    ∧ (outsAt0 (F := Ideal) m c (n + 1) h).2.2.2.1 = k0_pay15 (xblk m c (⟨n + 1, h⟩ : Fin cfg0.N)) (wblk m c (⟨n + 1, h⟩ : Fin cfg0.N)) (outsAt0 (F := Ideal) m c n (Nat.lt_of_succ_lt h)).2.2.1 (outsAt0 (F := Ideal) m c n (Nat.lt_of_succ_lt h)).2.2.1 (outsAt0 (F := Ideal) m c n (Nat.lt_of_succ_lt h)).2.2.2.1
    ∧ (outsAt0 (F := Ideal) m c (n + 1) h).2.2.2.2.1 = k0_pay1 (k0_pay13 (xblk m c (⟨n + 1, h⟩ : Fin cfg0.N)) (wblk m c (⟨n + 1, h⟩ : Fin cfg0.N))) (k0_pay17 (grid0.coords (⟨n + 1, h⟩ : Fin cfg0.N))) (outsAt0 (F := Ideal) m c n (Nat.lt_of_succ_lt h)).2.2.2.2.2.2.1 (outsAt0 (F := Ideal) m c n (Nat.lt_of_succ_lt h)).2.2.2.2.1
    ∧ (outsAt0 (F := Ideal) m c (n + 1) h).2.2.2.2.2.1 = k0_pay2 (k0_pay13 (xblk m c (⟨n + 1, h⟩ : Fin cfg0.N)) (wblk m c (⟨n + 1, h⟩ : Fin cfg0.N))) (outsAt0 (F := Ideal) m c n (Nat.lt_of_succ_lt h)).2.2.2.2.2.1
    ∧ (outsAt0 (F := Ideal) m c (n + 1) h).2.2.2.2.2.2.1 = (outsAt0 (F := Ideal) m c n (Nat.lt_of_succ_lt h)).2.2.2.2.2.2.1
    ∧ (outsAt0 (F := Ideal) m c (n + 1) h).2.2.2.2.2.2.2 = (outsAt0 (F := Ideal) m c n (Nat.lt_of_succ_lt h)).2.2.2.2.2.2.2
    ∧ (outsAt0 (F := Ideal) m c (n + 1) h).1 = k0_pay3 (k0_pay16 (xblk m c (⟨n + 1, h⟩ : Fin cfg0.N)) (wblk m c (⟨n + 1, h⟩ : Fin cfg0.N)) (outsAt0 (F := Ideal) m c n (Nat.lt_of_succ_lt h)).2.2.1) (k0_pay15 (xblk m c (⟨n + 1, h⟩ : Fin cfg0.N)) (wblk m c (⟨n + 1, h⟩ : Fin cfg0.N)) (outsAt0 (F := Ideal) m c n (Nat.lt_of_succ_lt h)).2.2.1 (outsAt0 (F := Ideal) m c n (Nat.lt_of_succ_lt h)).2.2.1 (outsAt0 (F := Ideal) m c n (Nat.lt_of_succ_lt h)).2.2.2.1)
        (k0_pay1 (k0_pay13 (xblk m c (⟨n + 1, h⟩ : Fin cfg0.N)) (wblk m c (⟨n + 1, h⟩ : Fin cfg0.N))) (k0_pay17 (grid0.coords (⟨n + 1, h⟩ : Fin cfg0.N))) (outsAt0 (F := Ideal) m c n (Nat.lt_of_succ_lt h)).2.2.2.2.2.2.1 (outsAt0 (F := Ideal) m c n (Nat.lt_of_succ_lt h)).2.2.2.2.1) (outsAt0 (F := Ideal) m c n (Nat.lt_of_succ_lt h)).2.2.2.2.2.2.2 (outsAt0 (F := Ideal) m c n (Nat.lt_of_succ_lt h)).2.2.2.2.2.2.2
    ∧ (outsAt0 (F := Ideal) m c (n + 1) h).2.1 = k0_pay4 (k0_pay2 (k0_pay13 (xblk m c (⟨n + 1, h⟩ : Fin cfg0.N)) (wblk m c (⟨n + 1, h⟩ : Fin cfg0.N))) (outsAt0 (F := Ideal) m c n (Nat.lt_of_succ_lt h)).2.2.2.2.2.1) := by
  refine ⟨?_, ?_, ?_, ?_, ?_, ?_, ?_, ?_⟩
  · show (outsAt0 (F := Ideal) m c (n + 1) h).2.2.1 = _
    rw [outsAt0_C m c (⟨n + 1, h⟩ : Fin cfg0.N) h0 h1]; dsimp only
    exact sout0_C_0_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) ((hcond0_1 (⟨n + 1, h⟩ : Fin cfg0.N)).mpr h1) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.1 = _
    rw [outsAt0_C m c (⟨n + 1, h⟩ : Fin cfg0.N) h0 h1]; dsimp only
    exact sout0_C_1_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) ((hcond0_1 (⟨n + 1, h⟩ : Fin cfg0.N)).mpr h1) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.2.1 = _
    rw [outsAt0_C m c (⟨n + 1, h⟩ : Fin cfg0.N) h0 h1]; dsimp only
    exact sout0_C_2_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) ((hcond0_1 (⟨n + 1, h⟩ : Fin cfg0.N)).mpr h1) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.2.2.1 = _
    rw [outsAt0_C m c (⟨n + 1, h⟩ : Fin cfg0.N) h0 h1]; dsimp only
    exact sout0_C_3_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) ((hcond0_1 (⟨n + 1, h⟩ : Fin cfg0.N)).mpr h1) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.2.2.2.2.2.1 = _
    rw [outsAt0_C m c (⟨n + 1, h⟩ : Fin cfg0.N) h0 h1]; dsimp only
    rfl
  · show (outsAt0 (F := Ideal) m c (n + 1) h).2.2.2.2.2.2.2 = _
    rw [outsAt0_C m c (⟨n + 1, h⟩ : Fin cfg0.N) h0 h1]; dsimp only
    rfl
  · show (outsAt0 (F := Ideal) m c (n + 1) h).1 = _
    rw [outsAt0_C m c (⟨n + 1, h⟩ : Fin cfg0.N) h0 h1]; dsimp only
    exact out0_C_3_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) ((hcond0_1 (⟨n + 1, h⟩ : Fin cfg0.N)).mpr h1) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2
  · show (outsAt0 (F := Ideal) m c (n + 1) h).2.1 = _
    rw [outsAt0_C m c (⟨n + 1, h⟩ : Fin cfg0.N) h0 h1]; dsimp only
    exact out0_C_4_eq (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hc => h0 ((hcond0_0 (⟨n + 1, h⟩ : Fin cfg0.N)).mp hc)) ((hcond0_1 (⟨n + 1, h⟩ : Fin cfg0.N)).mpr h1) (iblk (F := Ideal) m c 0 (⟨n + 1, h⟩ : Fin cfg0.N)) (iblk (F := Ideal) m c 1 (⟨n + 1, h⟩ : Fin cfg0.N)) (iblk (F := Ideal) m c 2 (⟨n + 1, h⟩ : Fin cfg0.N)) (outsAt0 (F := Ideal) m c ((⟨n + 1, h⟩ : Fin cfg0.N).val - 1) (Nat.lt_of_le_of_lt (Nat.sub_le _ _) (⟨n + 1, h⟩ : Fin cfg0.N).isLt)).2.2.1 (outsAt0 (F := Ideal) m c ((⟨n + 1, h⟩ : Fin cfg0.N).val - 1) (Nat.lt_of_le_of_lt (Nat.sub_le _ _) (⟨n + 1, h⟩ : Fin cfg0.N).isLt)).2.2.2.1 (outsAt0 (F := Ideal) m c ((⟨n + 1, h⟩ : Fin cfg0.N).val - 1) (Nat.lt_of_le_of_lt (Nat.sub_le _ _) (⟨n + 1, h⟩ : Fin cfg0.N).isLt)).2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.1 (outsAt0 (F := Ideal) m c ((⟨n + 1, h⟩ : Fin cfg0.N).val - 1) (Nat.lt_of_le_of_lt (Nat.sub_le _ _) (⟨n + 1, h⟩ : Fin cfg0.N).isLt)).2.2.2.2.2.2.2

/-! ## One block's update of a row, in closed form -/

section Step
variable (hx : m ((c.tc : Thread nD τ).loc main_arg0) = fun i => ((xr i : ℝ) : EReal))
variable (hw : m ((c.tc : Thread nD τ).loc main_arg1) = fun i => ((wr i : ℝ) : EReal))
include hx hw

/-- The block of logits at point t: entry (s, j) is the real logit of token (g, s) at column 1280·v + j. -/
theorem chunk_logit (t : Fin cfg0.N) (s : Fin 512) (j : Fin 1280) :
    k0_pay13 (F := Ideal) (xblk m c t) (wblk m c t) (ix2 s j)
      = ((logitR xr wr (seqOf t) s (colOf (t.val % 25) j) : ℝ) : EReal) := by
  rw [pay13_apply]
  unfold logitR
  rw [coe_sum]
  refine Finset.sum_congr rfl fun h _ => ?_
  rw [xblk_apply, wblk_apply, hx, hw, EReal.coe_mul]
  have hv : t.val % 25 < 25 := Nat.mod_lt _ (by decide)
  have e : (⟨1280 * (t.val % 25) + j.val, by have := j.isLt; omega⟩ : Fin 32000) = colOf (t.val % 25) j :=
    Fin.ext (colOf_val _ hv j).symm
  rw [e]

/-- ONE BLOCK'S UPDATE. If before block k of sequence g the four running columns hold the running maximum, rescaled sum,
    pick and plain sum of the first k blocks of each row (k = 0: −∞, 0, 0, 0) and the target column the clipped targets,
    then the body's updates hold those of the first k + 1 blocks. -/
theorem step (t : Fin cfg0.N) (k : ℕ) (hk : t.val % 25 = k)
    (xs0 xs1 xs2 xs3 : Vec Ideal S512x1 .f32) (xs4 : Vec Ideal S512x1 .i32)
    (h0 : ∀ s : Fin 512, xs0 (ix2 s 0) = runMax (logitR xr wr (seqOf t) s) k)
    (h1 : ∀ s : Fin 512, xs1 (ix2 s 0) = runL (logitR xr wr (seqOf t) s) k)
    (h2 : ∀ s : Fin 512, xs2 (ix2 s 0) = runT (logitR xr wr (seqOf t) s) (clipIx (tgt m c (ix2 (seqOf t) s))) k)
    (h3 : ∀ s : Fin 512, xs3 (ix2 s 0) = runS (logitR xr wr (seqOf t) s) k)
    (h4 : ∀ s : Fin 512, xs4 (ix2 s 0) = clipW (tgt m c (ix2 (seqOf t) s))) :
    (∀ s : Fin 512, k0_pay16 (F := Ideal) (xblk m c t) (wblk m c t) xs0 (ix2 s 0) = runMax (logitR xr wr (seqOf t) s) (k + 1))
    ∧ (∀ s : Fin 512, k0_pay15 (F := Ideal) (xblk m c t) (wblk m c t) xs0 xs0 xs1 (ix2 s 0) = runL (logitR xr wr (seqOf t) s) (k + 1))
    ∧ (∀ s : Fin 512, k0_pay1 (F := Ideal) (k0_pay13 (F := Ideal) (xblk m c t) (wblk m c t)) (k0_pay17 (grid0.coords t)) xs4 xs2 (ix2 s 0)
          = runT (logitR xr wr (seqOf t) s) (clipIx (tgt m c (ix2 (seqOf t) s))) (k + 1))
    ∧ (∀ s : Fin 512, k0_pay2 (F := Ideal) (k0_pay13 (F := Ideal) (xblk m c t) (wblk m c t)) xs3 (ix2 s 0) = runS (logitR xr wr (seqOf t) s) (k + 1)) := by
  subst hk
  have hk25 : t.val % 25 < 25 := Nat.mod_lt _ (by decide)
  -- the new running maximum of a row: the old one against the block's maximum
  have hmax : ∀ s : Fin 512, k0_pay14 (F := Ideal) (xblk m c t) (wblk m c t) xs0 (ix2 s 0) = runMax (logitR xr wr (seqOf t) s) (t.val % 25 + 1) := by
    intro s
    rw [pay14_apply, h0 s]
    simp only [chunk_logit m c xr wr hx hw t s]
    rfl
  refine ⟨fun s => ?_, fun s => ?_, fun s => ?_, fun s => ?_⟩
  · rw [pay16_apply]; exact hmax s
  · rw [pay15_apply, hmax s, h0 s, h1 s]
    simp only [chunk_logit m c xr wr hx hw t s]
    exact runL_succ (logitR xr wr (seqOf t) s) (t.val % 25)
  · rw [pay1_apply, h2 s, h4 s, ← runT_succ]
    simp only [chunk_logit m c xr wr hx hw t s, pay17_apply, coords_one]
    congr 1
    refine Finset.sum_congr rfl fun j _ => ?_
    by_cases e : clipIx (tgt m c (ix2 (seqOf t) s)) = colOf (t.val % 25) j
    · rw [if_pos ((clipW_eq_ofNat_iff _ _ hk25 j).mpr e), if_pos e]
    · rw [if_neg (fun hc => e ((clipW_eq_ofNat_iff _ _ hk25 j).mp hc)), if_neg e]
  · rw [pay2_apply, h3 s]
    simp only [chunk_logit m c xr wr hx hw t s]
    exact runS_succ (logitR xr wr (seqOf t) s) (t.val % 25)

/-! ## The induction over the grid points -/

/-- What the six columns hold after point n: the running quantities of the first v + 1 blocks of sequence g's rows. -/
abbrev Inv (n : ℕ) (h : n < cfg0.N) : Prop :=
  (∀ s : Fin 512, (outsAt0 (F := Ideal) m c n h).2.2.1 (ix2 s 0) = runMax (logitR xr wr (seqOf (⟨n, h⟩ : Fin cfg0.N)) s) (n % 25 + 1))
  ∧ (∀ s : Fin 512, (outsAt0 (F := Ideal) m c n h).2.2.2.1 (ix2 s 0) = runL (logitR xr wr (seqOf (⟨n, h⟩ : Fin cfg0.N)) s) (n % 25 + 1))
  ∧ (∀ s : Fin 512, (outsAt0 (F := Ideal) m c n h).2.2.2.2.1 (ix2 s 0) = runT (logitR xr wr (seqOf (⟨n, h⟩ : Fin cfg0.N)) s) (clipIx (tgt m c (ix2 (seqOf (⟨n, h⟩ : Fin cfg0.N)) s))) (n % 25 + 1))
  ∧ (∀ s : Fin 512, (outsAt0 (F := Ideal) m c n h).2.2.2.2.2.1 (ix2 s 0) = runS (logitR xr wr (seqOf (⟨n, h⟩ : Fin cfg0.N)) s) (n % 25 + 1))
  ∧ (∀ s : Fin 512, (outsAt0 (F := Ideal) m c n h).2.2.2.2.2.2.1 (ix2 s 0) = clipW (tgt m c (ix2 (seqOf (⟨n, h⟩ : Fin cfg0.N)) s)))
  ∧ (∀ s : Fin 512, (outsAt0 (F := Ideal) m c n h).2.2.2.2.2.2.2 (ix2 s 0) = ((keepR (tgt m c (ix2 (seqOf (⟨n, h⟩ : Fin cfg0.N)) s)) : ℝ) : EReal))

/-- The columns at a sequence's first block: the reset values updated once. -/
theorem inv_first (n : ℕ) (h : n < cfg0.N) (h0 : n % 25 = 0) : Inv m c xr wr n h := by
  have h1 : ¬n % 25 = 24 := by omega
  obtain ⟨e0, e1, e2, e3, e4, e5⟩ := outs_A m c n h h0 h1
  have ht : ∀ s : Fin 512, k0_pay10 (F := Ideal) (tblk m c (⟨n, h⟩ : Fin cfg0.N)) (ix2 s 0) = clipW (tgt m c (ix2 (seqOf (⟨n, h⟩ : Fin cfg0.N)) s)) := fun s => by
    rw [pay10_apply, tblk_apply]
  obtain ⟨s0, s1, s2, s3⟩ := step m c xr wr hx hw (⟨n, h⟩ : Fin cfg0.N) 0 h0 (k0_pay5 (F := Ideal)) (k0_pay6 (F := Ideal)) (k0_pay7 (F := Ideal)) (k0_pay8 (F := Ideal)) (k0_pay10 (F := Ideal) (tblk m c (⟨n, h⟩ : Fin cfg0.N)))
    (fun s => by rw [pay5_apply]; rfl) (fun s => by rw [pay6_apply]; simp [runL])
    (fun s => by rw [pay7_apply]; simp [runT]) (fun s => by rw [pay8_apply]; simp [runS]) ht
  refine ⟨fun s => ?_, fun s => ?_, fun s => ?_, fun s => ?_, fun s => ?_, fun s => ?_⟩
  · rw [e0, h0]; exact s0 s
  · rw [e1, h0]; exact s1 s
  · rw [e2, h0]; exact s2 s
  · rw [e3, h0]; exact s3 s
  · rw [e4]; exact ht s
  · rw [e5, pay12_apply, tblk_apply]

/-- A point that is not a sequence's first: the columns the point before left (of the same sequence, one block earlier),
    updated by the block. -/
theorem step_next (n : ℕ) (h : n + 1 < cfg0.N) (h0 : ¬(n + 1) % 25 = 0) (ih : Inv m c xr wr n (Nat.lt_of_succ_lt h)) :
    (∀ s : Fin 512, k0_pay16 (F := Ideal) (xblk m c (⟨n + 1, h⟩ : Fin cfg0.N)) (wblk m c (⟨n + 1, h⟩ : Fin cfg0.N)) (outsAt0 (F := Ideal) m c n (Nat.lt_of_succ_lt h)).2.2.1 (ix2 s 0) = runMax (logitR xr wr (seqOf (⟨n + 1, h⟩ : Fin cfg0.N)) s) ((n + 1) % 25 + 1))
    ∧ (∀ s : Fin 512, k0_pay15 (F := Ideal) (xblk m c (⟨n + 1, h⟩ : Fin cfg0.N)) (wblk m c (⟨n + 1, h⟩ : Fin cfg0.N)) (outsAt0 (F := Ideal) m c n (Nat.lt_of_succ_lt h)).2.2.1 (outsAt0 (F := Ideal) m c n (Nat.lt_of_succ_lt h)).2.2.1 (outsAt0 (F := Ideal) m c n (Nat.lt_of_succ_lt h)).2.2.2.1 (ix2 s 0) = runL (logitR xr wr (seqOf (⟨n + 1, h⟩ : Fin cfg0.N)) s) ((n + 1) % 25 + 1))
    ∧ (∀ s : Fin 512, k0_pay1 (F := Ideal) (k0_pay13 (F := Ideal) (xblk m c (⟨n + 1, h⟩ : Fin cfg0.N)) (wblk m c (⟨n + 1, h⟩ : Fin cfg0.N))) (k0_pay17 (grid0.coords (⟨n + 1, h⟩ : Fin cfg0.N))) (outsAt0 (F := Ideal) m c n (Nat.lt_of_succ_lt h)).2.2.2.2.2.2.1 (outsAt0 (F := Ideal) m c n (Nat.lt_of_succ_lt h)).2.2.2.2.1 (ix2 s 0)
          = runT (logitR xr wr (seqOf (⟨n + 1, h⟩ : Fin cfg0.N)) s) (clipIx (tgt m c (ix2 (seqOf (⟨n + 1, h⟩ : Fin cfg0.N)) s))) ((n + 1) % 25 + 1))
    ∧ (∀ s : Fin 512, k0_pay2 (F := Ideal) (k0_pay13 (F := Ideal) (xblk m c (⟨n + 1, h⟩ : Fin cfg0.N)) (wblk m c (⟨n + 1, h⟩ : Fin cfg0.N))) (outsAt0 (F := Ideal) m c n (Nat.lt_of_succ_lt h)).2.2.2.2.2.1 (ix2 s 0) = runS (logitR xr wr (seqOf (⟨n + 1, h⟩ : Fin cfg0.N)) s) ((n + 1) % 25 + 1))
    ∧ (∀ s : Fin 512, (outsAt0 (F := Ideal) m c n (Nat.lt_of_succ_lt h)).2.2.2.2.2.2.1 (ix2 s 0) = clipW (tgt m c (ix2 (seqOf (⟨n + 1, h⟩ : Fin cfg0.N)) s)))
    ∧ (∀ s : Fin 512, (outsAt0 (F := Ideal) m c n (Nat.lt_of_succ_lt h)).2.2.2.2.2.2.2 (ix2 s 0) = ((keepR (tgt m c (ix2 (seqOf (⟨n + 1, h⟩ : Fin cfg0.N)) s)) : ℝ) : EReal)) := by
  have hg : seqOf (⟨n, Nat.lt_of_succ_lt h⟩ : Fin cfg0.N) = seqOf (⟨n + 1, h⟩ : Fin cfg0.N) := by
    apply Fin.ext; show n / 25 = (n + 1) / 25; omega
  have hv : n % 25 + 1 = (n + 1) % 25 := by omega
  obtain ⟨i0, i1, i2, i3, i4, i5⟩ := ih
  rw [hg, hv] at i0 i1 i2 i3
  rw [hg] at i4 i5
  obtain ⟨s0, s1, s2, s3⟩ := step m c xr wr hx hw (⟨n + 1, h⟩ : Fin cfg0.N) ((n + 1) % 25) rfl
    (outsAt0 (F := Ideal) m c n (Nat.lt_of_succ_lt h)).2.2.1 (outsAt0 (F := Ideal) m c n (Nat.lt_of_succ_lt h)).2.2.2.1 (outsAt0 (F := Ideal) m c n (Nat.lt_of_succ_lt h)).2.2.2.2.1 (outsAt0 (F := Ideal) m c n (Nat.lt_of_succ_lt h)).2.2.2.2.2.1 (outsAt0 (F := Ideal) m c n (Nat.lt_of_succ_lt h)).2.2.2.2.2.2.1 i0 i1 i2 i3 i4
  exact ⟨s0, s1, s2, s3, i4, i5⟩

/-- Every grid point: by induction, restarting at each sequence's first block. -/
theorem inv_all : ∀ (n : ℕ) (h : n < cfg0.N), Inv m c xr wr n h
  | 0, h => inv_first m c xr wr hx hw 0 h rfl
  | n + 1, h => by
    by_cases h0 : (n + 1) % 25 = 0
    · exact inv_first m c xr wr hx hw (n + 1) h h0
    · obtain ⟨s0, s1, s2, s3, i4, i5⟩ := step_next m c xr wr hx hw n h h0 (inv_all n (Nat.lt_of_succ_lt h))
      by_cases h1 : (n + 1) % 25 = 24
      · obtain ⟨e0, e1, e2, e3, e4, e5, _, _⟩ := outs_C m c n h h0 h1
        exact ⟨fun s => (congrFun e0 _).trans (s0 s), fun s => (congrFun e1 _).trans (s1 s), fun s => (congrFun e2 _).trans (s2 s),
          fun s => (congrFun e3 _).trans (s3 s), fun s => (congrFun e4 _).trans (i4 s), fun s => (congrFun e5 _).trans (i5 s)⟩
      · obtain ⟨e0, e1, e2, e3, e4, e5⟩ := outs_B m c n h h0 h1
        exact ⟨fun s => (congrFun e0 _).trans (s0 s), fun s => (congrFun e1 _).trans (s1 s), fun s => (congrFun e2 _).trans (s2 s),
          fun s => (congrFun e3 _).trans (s3 s), fun s => (congrFun e4 _).trans (i4 s), fun s => (congrFun e5 _).trans (i5 s)⟩

/-! ## The two output blocks at a sequence's last block -/

/-- At the last block of sequence g every lane of the first output block holds the sequence's mean log-probability. -/
theorem out3_last (t : Fin cfg0.N) (h1 : t.val % 25 = 24) (l : Fin 128) :
    (outsAt0 (F := Ideal) m c t.val t.isLt).1 (ix3 0 0 l) = seqE xr wr (tgt m c) (seqOf t) := by
  obtain ⟨n', hn'⟩ := t
  have hn0 : n' ≠ 0 := by rintro rfl; simp at h1
  obtain ⟨n, rfl⟩ := Nat.exists_eq_succ_of_ne_zero hn0
  have h : n + 1 < cfg0.N := hn'
  have h1' : (n + 1) % 25 = 24 := h1
  have h0 : ¬(n + 1) % 25 = 0 := by omega
  have e25 : (n + 1) % 25 + 1 = 25 := by omega
  obtain ⟨s0, s1, s2, s3, i4, i5⟩ := step_next m c xr wr hx hw n h h0 (inv_all m c xr wr hx hw n (Nat.lt_of_succ_lt h))
  obtain ⟨_, _, _, _, _, _, e3, _⟩ := outs_C m c n h h0 h1'
  show (outsAt0 (F := Ideal) m c (n + 1) h).1 (ix3 0 0 l) = seqE xr wr (tgt m c) (seqOf (⟨n + 1, h⟩ : Fin cfg0.N))
  refine (congrFun e3 _).trans ?_
  rw [pay3_apply]
  unfold seqE numR cntR
  rw [coe_sum, coe_sum]
  congr 1
  · refine Finset.sum_congr rfl fun s _ => ?_
    rw [i5 s, s0 s, s1 s, s2 s, e25, lse_final, runT_final, ← EReal.coe_sub]
    unfold tokR
    by_cases hkp : keep (tgt m c (ix2 (seqOf (⟨n + 1, h⟩ : Fin cfg0.N)) s)) = 1#1
    · rw [if_pos ((keepR_pos_iff _).mpr hkp), if_pos hkp]
    · rw [if_neg (fun hh => hkp ((keepR_pos_iff _).mp hh)), if_neg hkp, EReal.coe_zero]
  · refine Finset.sum_congr rfl fun s _ => ?_
    exact i5 s

/-- At the last block of sequence g every lane of the second output block holds the sum of the sequence's logits. -/
theorem out4_last (t : Fin cfg0.N) (h1 : t.val % 25 = 24) (l : Fin 128) :
    (outsAt0 (F := Ideal) m c t.val t.isLt).2.1 (ix3 0 0 l) = ((rowsumR xr wr (seqOf t) : ℝ) : EReal) := by
  obtain ⟨n', hn'⟩ := t
  have hn0 : n' ≠ 0 := by rintro rfl; simp at h1
  obtain ⟨n, rfl⟩ := Nat.exists_eq_succ_of_ne_zero hn0
  have h : n + 1 < cfg0.N := hn'
  have h1' : (n + 1) % 25 = 24 := h1
  have h0 : ¬(n + 1) % 25 = 0 := by omega
  have e25 : (n + 1) % 25 + 1 = 25 := by omega
  obtain ⟨s0, s1, s2, s3, i4, i5⟩ := step_next m c xr wr hx hw n h h0 (inv_all m c xr wr hx hw n (Nat.lt_of_succ_lt h))
  obtain ⟨_, _, _, _, _, _, _, e4⟩ := outs_C m c n h h0 h1'
  show (outsAt0 (F := Ideal) m c (n + 1) h).2.1 (ix3 0 0 l) = ((rowsumR xr wr (seqOf (⟨n + 1, h⟩ : Fin cfg0.N)) : ℝ) : EReal)
  refine (congrFun e4 _).trans ?_
  rw [pay4_apply]
  unfold rowsumR
  rw [coe_sum]
  refine Finset.sum_congr rfl fun s _ => ?_
  rw [s3 s, e25, runS_final]

end Step

end Cert.KInv

end
-- ==== Proof.KTail.lean ====
/-
  The host operations after the kernel's region, read back: from ANY contents of the program's buffers they leave the six
  results at fixed functions of the region's two output arrays — lane 0 of each sequence's block of the first array gives the
  eight sequence means (results: their two halves, and the preference loss of the two halves, the shared chain
  `Spec.lossOut`); lane 0 of the second gives the eight logit sums (results: each half's sum over 65536000); and the constant 0.
-/
import proofs.«418210_j44899588112976_3_alg».proof.Proof.Gen.KernelIdeal.Launch
import proofs.«418210_j44899588112976_3_alg».proof.Proof.Spec
import Idealize.ShloMosaic.Lib.StableHlo.Run
import Idealize.ShloMosaic.Lib.Tactic

noncomputable section

namespace Cert.KTail

open Idealize.ShloMosaic Idealize.ShloMosaic.TcCoe Idealize.SL.Sem Idealize.ShloMosaic.StableHlo
open Cert.KernelIdeal Cert.KernelIdeal.Gen

/-- The three stretches of host operations after the region, as one list. -/
abbrev tailOps : List (HloOp τ sig (Elt Ideal)) := List.flatten [hostOps1 (F := Ideal), hostOps1_1 (F := Ideal), hostOps1_2 (F := Ideal)]

/-- Lane 0 of each sequence's block of an output array: the slice [0:8, 0:1, 0:1] reshaped to [8]. -/
def lane0 (A : FVec Ideal S8x1x128 .f32) : FVec Ideal S8 .f32 :=
  shapeCast S8 (extractStridedSlice S8x1x1 ![0, 0, 0] A slices_S8x1x128_S8x1x1_0_0_0) shapeCasts_S8x1x1_S8

/-- The first / last four of eight values. -/
abbrev lo4 (s : FVec Ideal S8 .f32) : FVec Ideal S4 .f32 := extractStridedSlice S4 ![0] s slices_S8_S4_0
abbrev hi4 (s : FVec Ideal S8 .f32) : FVec Ideal S4 .f32 := extractStridedSlice S4 ![4] s slices_S8_S4_4

/-- The sum of four values from 0, over the word of 65536000. -/
def mean4 (s : FVec Ideal S4 .f32) : FVec Ideal S_ .f32 :=
  Host.divf (Host.reduceAdd s (constant S_ .f32 0x00000000#32) reducesTo_S4_S_d0 h_S_) (constant S_ .f32 0x4C7A0000#32)

variable (W : Valuation τ sig (Elt Ideal))

theorem tail_v8 : after tailOps W (Proc.devRef .tc main_v8) = lo4 (lane0 (W (Proc.devRef .tc main_v3_0))) := by
  simp only [tailOps, hostOps1, hostOps1_1, hostOps1_2, List.flatten_cons, List.flatten_nil, List.append_nil, List.cons_append, List.nil_append]
  after_results_simp
  rfl

theorem tail_v9 : after tailOps W (Proc.devRef .tc main_v9) = hi4 (lane0 (W (Proc.devRef .tc main_v3_0))) := by
  simp only [tailOps, hostOps1, hostOps1_1, hostOps1_2, List.flatten_cons, List.flatten_nil, List.append_nil, List.cons_append, List.nil_append]
  after_results_simp
  rfl

theorem tail_v12 : after tailOps W (Proc.devRef .tc main_v12) = mean4 (lo4 (lane0 (W (Proc.devRef .tc main_v3_1)))) := by
  simp only [tailOps, hostOps1, hostOps1_1, hostOps1_2, List.flatten_cons, List.flatten_nil, List.append_nil, List.cons_append, List.nil_append]
  after_results_simp
  rfl

theorem tail_v15 : after tailOps W (Proc.devRef .tc main_v15) = mean4 (hi4 (lane0 (W (Proc.devRef .tc main_v3_1)))) := by
  simp only [tailOps, hostOps1, hostOps1_1, hostOps1_2, List.flatten_cons, List.flatten_nil, List.append_nil, List.cons_append, List.nil_append]
  after_results_simp
  rfl

theorem tail_v28 : after tailOps W (Proc.devRef .tc main_v28)
    = Cert.Spec.lossOut bcast_S_S4 reducesTo_S4_S_d0 h_S_ (lo4 (lane0 (W (Proc.devRef .tc main_v3_0)))) (hi4 (lane0 (W (Proc.devRef .tc main_v3_0)))) := by
  simp only [tailOps, hostOps1, hostOps1_1, hostOps1_2, List.flatten_cons, List.flatten_nil, List.append_nil, List.cons_append, List.nil_append]
  after_results_simp
  rfl

theorem tail_cst_10 : after tailOps W (Proc.devRef .tc main_cst_10) = constant (F := Ideal) S_ .f32 0x00000000#32 := by
  simp only [tailOps, hostOps1, hostOps1_1, hostOps1_2, List.flatten_cons, List.flatten_nil, List.append_nil, List.cons_append, List.nil_append]
  after_results_simp

end Cert.KTail

end
-- ==== Proof.KMean.lean ====
/-
  The host tail's mean of four of eight real values: the sum from 0 of the chosen (first four) or rejected (last four) values,
  over the word of 65536000, is the extended-real quotient of their real sum.
-/
import proofs.«418210_j44899588112976_3_alg».proof.Proof.KTail
import proofs.«418210_j44899588112976_3_alg».proof.Proof.RowMath
import Idealize.ShloMosaic.Lib.Pipeline.Value

noncomputable section

namespace Cert.KMean

open Idealize.ShloMosaic Idealize.ShloMosaic.ValueIdx Cert.KernelIdeal Cert.KernelIdeal.Gen Cert.KTail

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The sum of four values from 0 over the word of 65536000, read at the scalar's index: the quotient of the plain sum. -/
theorem mean4_apply (s : FVec Ideal S4 .f32) (i : S_.Idx) :
    mean4 s i = Ideal.div (∑ b : Fin 4, s (ix1 b)) (Ideal.ofBits .f32 0x4C7A0000#32) := by
  unfold mean4 Host.divf Host.reduceAdd constant
  simp only [Ideal.hostDivf_def, Ideal.hostReduceAdd_def, Ideal.ofBits_def]
  -- the reduction to a scalar is the initial value, zero, plus the sum over every index
  rw [Ideal.hostReduceAdd_total _ (fun b => b.elim0), Ideal.ofBits_zero_f32, zero_add, sum_idx1]

/-- Four consecutive values of eight starting at 4·k, read at b: the value at 4·k + b. -/
theorem slice4_apply {α : Type} (x : S8.Idx → α) (k : Nat) (hk : 4 * k + 4 ≤ 8) (off : Fin 1 → Nat) (hoff : off = ![4 * k])
    (h : S8.Slices off S4) (b : Fin 4) :
    extractStridedSlice S4 off x h (ix1 b) = x (ix1 ⟨4 * k + b.val, by omega⟩) := by
  subst hoff
  exact extractStridedSlice_apply _ x h (ix1 b) (ix1 ⟨4 * k + b.val, by omega⟩) fun a => by
    match a with
    | ⟨0, _⟩ => rfl

/-- The mean of four of eight real values starting at 4·k. -/
theorem mean4_slice (v : FVec Ideal S8 .f32) (R : Fin 8 → ℝ) (hv : ∀ g : Fin 8, v (ix1 g) = ((R g : ℝ) : EReal))
    (k : Nat) (hk : 4 * k + 4 ≤ 8) (off : Fin 1 → Nat) (hoff : off = ![4 * k]) (h : S8.Slices off S4) (i : S_.Idx) :
    mean4 (extractStridedSlice S4 off v h) i
      = Ideal.div (((∑ b : Fin 4, R ⟨4 * k + b.val, by omega⟩ : ℝ)) : EReal) (Ideal.ofBits .f32 0x4C7A0000#32) := by
  rw [mean4_apply, Cert.RowMath.coe_sum]
  refine congrArg (fun t => Ideal.div t (Ideal.ofBits .f32 0x4C7A0000#32)) ?_
  refine Finset.sum_congr rfl fun b _ => ?_
  rw [slice4_apply v k hk off hoff h b, hv]

/-- The mean of the first four of eight real values. -/
theorem mean4_lo (v : FVec Ideal S8 .f32) (R : Fin 8 → ℝ) (hv : ∀ g : Fin 8, v (ix1 g) = ((R g : ℝ) : EReal)) :
    mean4 (lo4 v) = fun _ => Ideal.div (((∑ b : Fin 4, R ⟨4 * 0 + b.val, by omega⟩ : ℝ)) : EReal) (Ideal.ofBits .f32 0x4C7A0000#32) := by
  funext i
  exact mean4_slice v R hv 0 (by omega) _ rfl _ i

/-- The mean of the last four of eight real values. -/
theorem mean4_hi (v : FVec Ideal S8 .f32) (R : Fin 8 → ℝ) (hv : ∀ g : Fin 8, v (ix1 g) = ((R g : ℝ) : EReal)) :
    mean4 (hi4 v) = fun _ => Ideal.div (((∑ b : Fin 4, R ⟨4 * 1 + b.val, by omega⟩ : ℝ)) : EReal) (Ideal.ofBits .f32 0x4C7A0000#32) := by
  funext i
  exact mean4_slice v R hv 1 (by omega) _ rfl _ i

/-- Lane 0 of row g of an [8, 1, 128] array. -/
theorem lane0_apply (A : FVec Ideal S8x1x128 .f32) (g : Fin 8) : lane0 A (ix1 g) = A (ix3 g 0 0) := by
  unfold lane0
  -- the reshape keeps the row-major position: (g, 0, 0) of [8, 1, 1] and g of [8] are both at position g
  rw [shapeCast_apply _ _ (ix1 g) (ix3 g 0 0) (by
    rw [Shape.rowMajor_val_three, Shape.rowMajor_val_one]
    show (g.val * 1 + 0) * 1 + 0 = g.val
    omega)]
  -- the slice starts at the origin, so it reads the same coordinates
  exact extractStridedSlice_apply _ A _ (ix3 g 0 0) (ix3 g 0 0) fun a => by
    match a with
    | ⟨0, _⟩ => show g.val = 0 + g.val; omega
    | ⟨1, _⟩ => rfl
    | ⟨2, _⟩ => rfl

end Cert.KMean

end
-- ==== Proof.KFinal.lean ====
/-
  From the blocks to the program's results. Sequence g's last grid point (t = 25·g + 24) is the only one that writes the two
  output blocks back, to block (g, 0, 0) of each output array; those eight blocks tile the [8, 1, 128] arrays, so after the
  region the first array holds, in every lane of row g, sequence g's mean log-probability, and the second the sum of its
  logits. The host operations after the region read lane 0 of each row: the six results are the specification's.
-/
import proofs.«418210_j44899588112976_3_alg».proof.Proof.KInv
import proofs.«418210_j44899588112976_3_alg».proof.Proof.KTail
import proofs.«418210_j44899588112976_3_alg».proof.Proof.KMean
import Idealize.ShloMosaic.Lib.Pipeline.Value

set_option maxRecDepth 16384

noncomputable section

namespace Cert.KFinal

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.KBlocks Cert.KInv Cert.KTail Cert.KMean

variable (m : (ℓ : Loc nD τ sig) → Buf (Elt Ideal) ℓ) (ρ : Dev nD → PrngReg) (c : Dev nD)
variable (xr : SX.Idx → ℝ) (wr : SW.Idx → ℝ)

/-- The first output array after the region: every lane of row g holds sequence g's mean log-probability. -/
def A3 : FVec Ideal S8x1x128 .f32 := fun i => seqE xr wr (tgt m c) (i 0)

/-- The second output array after the region: every lane of row g holds the sum of sequence g's logits. -/
def A4 : FVec Ideal S8x1x128 .f32 := fun i => ((rowsumR xr wr (i 0) : ℝ) : EReal)

/-- An index of a [1, 1, 128] block is (0, 0, lane). -/
theorem blk_idx (y : S1x1x128.Idx) : y = ix3 0 0 (y 2) := by
  funext a
  match a with
  | ⟨0, _⟩ => apply Fin.ext; have h : (y 0).val < 1 := (y 0).isLt; show (y 0).val = 0; omega
  | ⟨1, _⟩ => apply Fin.ext; have h : (y 1).val < 1 := (y 1).isLt; show (y 1).val = 0; omega
  | ⟨2, _⟩ => rfl

/-- The output windows' block index at point t is (t / 25, 0, 0). -/
theorem idx3 : ∀ t : Fin cfg0.N, win0_3.index t (0 : Fin 3) = t.val / 25 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 25 ∧ win0_4.index t (1 : Fin 3) = 0 ∧ win0_4.index t (2 : Fin 3) = 0 :=
  (by decide +kernel : ∀ t : Fin grid0.N, _)

section Values
variable (hx : m ((c.tc : Thread nD τ).loc main_arg0) = fun i => ((xr i : ℝ) : EReal))
variable (hw : m ((c.tc : Thread nD τ).loc main_arg1) = fun i => ((wr i : ℝ) : EReal))
include hx hw

/-- What sequence g's last point writes back to the first output array is block (g, 0, 0) of `A3`. -/
theorem flushed3_eq (t : Fin cfg0.N) (hf : (cfg0.win 3).flush t = true) :
    (dats (F := Ideal) m 0 c).flushed 3 t = ((cfg0.win 3).blk t).view.read (Elt Ideal) (A3 m c xr wr) := by
  have h24 : t.val % 25 = 24 := (flush0_3 t).mp hf
  show (cfg0.win 3).cut (grid0.coords t) ((dats (F := Ideal) m 0 c).after 3 t) = _
  rw [after0_3]
  funext y
  show (outsAt0 (F := Ideal) m c t.val t.isLt).1 y = A3 m c xr wr (((cfg0.win 3).blk t).view.emb y)
  have hy : (y : S1x1x128.Idx) = ix3 0 0 (y 2) := blk_idx y
  refine (congrArg (outsAt0 (F := Ideal) m c t.val t.isLt).1 hy).trans ?_
  refine (out3_last m c xr wr hx hw t h24 (y 2)).trans ?_
  unfold A3
  congr 1
  apply Fin.ext
  show t.val / 25 = win0_3.index t (0 : Fin 3) * 1 + 1 * (y 0).val
  have e := (idx3 t).1
  have h0 : (y 0).val < 1 := (y 0).isLt
  omega

theorem flushed4_eq (t : Fin cfg0.N) (hf : (cfg0.win 4).flush t = true) :
    (dats (F := Ideal) m 0 c).flushed 4 t = ((cfg0.win 4).blk t).view.read (Elt Ideal) (A4 xr wr) := by
  have h24 : t.val % 25 = 24 := (flush0_4 t).mp hf
  show (cfg0.win 4).cut (grid0.coords t) ((dats (F := Ideal) m 0 c).after 4 t) = _
  rw [after0_4]
  funext y
  show (outsAt0 (F := Ideal) m c t.val t.isLt).2.1 y = A4 xr wr (((cfg0.win 4).blk t).view.emb y)
  have hy : (y : S1x1x128.Idx) = ix3 0 0 (y 2) := blk_idx y
  refine (congrArg (outsAt0 (F := Ideal) m c t.val t.isLt).2.1 hy).trans ?_
  refine (out4_last m c xr wr hx hw t h24 (y 2)).trans ?_
  unfold A4
  congr 3
  apply Fin.ext
  show t.val / 25 = win0_4.index t (0 : Fin 3) * 1 + 1 * (y 0).val
  have e := (idx4 t).1
  have h0 : (y 0).val < 1 := (y 0).isLt
  omega

end Values

/-- An index of an output array is in point t's block iff each coordinate is in the block's range. -/
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v3_0).slice (win0_3.rect t)).set ↔ _
  rw [View.set_slice_whole, Rect.mem_set_unit]
  exact Iff.rfl
theorem mem_blk4 (t : Fin cfg0.N) (i : S8x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v3_1).slice (win0_4.rect t)).set ↔ _
  rw [View.set_slice_whole, Rect.mem_set_unit]
  exact Iff.rfl

/-- Row g of an output array is written back by sequence g's last point. -/
theorem cover3 (i : S8x1x128.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 128 := (i 2).isLt
  have hN : cfg0.N = 200 := N_eq
  refine ⟨⟨25 * (i 0).val + 24, by omega⟩, (flush0_3 _).mpr (by show (25 * (i 0).val + 24) % 25 = 24; omega), ?_⟩
  rw [mem_blk3]
  obtain ⟨e0, e1, e2⟩ := idx3 ⟨25 * (i 0).val + 24, by omega⟩
  simp only at e0
  intro a
  match a with
  | ⟨0, _⟩ => show win0_3.index ⟨25 * (i 0).val + 24, _⟩ (0 : Fin 3) * 1 ≤ (i 0).val ∧ (i 0).val < win0_3.index ⟨25 * (i 0).val + 24, _⟩ (0 : Fin 3) * 1 + 1; omega
  | ⟨1, _⟩ => show win0_3.index ⟨25 * (i 0).val + 24, _⟩ (1 : Fin 3) * 1 ≤ (i 1).val ∧ (i 1).val < win0_3.index ⟨25 * (i 0).val + 24, _⟩ (1 : Fin 3) * 1 + 1; omega
  | ⟨2, _⟩ => show win0_3.index ⟨25 * (i 0).val + 24, _⟩ (2 : Fin 3) * 128 ≤ (i 2).val ∧ (i 2).val < win0_3.index ⟨25 * (i 0).val + 24, _⟩ (2 : Fin 3) * 128 + 128; omega
theorem cover4 (i : S8x1x128.Idx) : ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 128 := (i 2).isLt
  have hN : cfg0.N = 200 := N_eq
  refine ⟨⟨25 * (i 0).val + 24, by omega⟩, (flush0_4 _).mpr (by show (25 * (i 0).val + 24) % 25 = 24; omega), ?_⟩
  rw [mem_blk4]
  obtain ⟨e0, e1, e2⟩ := idx4 ⟨25 * (i 0).val + 24, by omega⟩
  simp only at e0
  intro a
  match a with
  | ⟨0, _⟩ => show win0_4.index ⟨25 * (i 0).val + 24, _⟩ (0 : Fin 3) * 1 ≤ (i 0).val ∧ (i 0).val < win0_4.index ⟨25 * (i 0).val + 24, _⟩ (0 : Fin 3) * 1 + 1; omega
  | ⟨1, _⟩ => show win0_4.index ⟨25 * (i 0).val + 24, _⟩ (1 : Fin 3) * 1 ≤ (i 1).val ∧ (i 1).val < win0_4.index ⟨25 * (i 0).val + 24, _⟩ (1 : Fin 3) * 1 + 1; omega
  | ⟨2, _⟩ => show win0_4.index ⟨25 * (i 0).val + 24, _⟩ (2 : Fin 3) * 128 ≤ (i 2).val ∧ (i 2).val < win0_4.index ⟨25 * (i 0).val + 24, _⟩ (2 : Fin 3) * 128 + 128; omega

section Arrays
variable (hx : m ((c.tc : Thread nD τ).loc main_arg0) = fun i => ((xr i : ℝ) : EReal))
variable (hw : m ((c.tc : Thread nD τ).loc main_arg1) = fun i => ((wr i : ℝ) : EReal))
include hx hw

/-- The first output array after the region. -/
theorem final3 : (dats (F := Ideal) m 0 c).arrAt 3 cfg0.N = A3 m c xr wr :=
  (dats (F := Ideal) m 0 c).arrAt_eq_of_cover 3 (A3 m c xr wr) (flushed3_eq m c xr wr hx hw) cover3

/-- The second output array after the region. -/
theorem final4 : (dats (F := Ideal) m 0 c).arrAt 4 cfg0.N = A4 xr wr :=
  (dats (F := Ideal) m 0 c).arrAt_eq_of_cover 4 (A4 xr wr) (flushed4_eq m c xr wr hx hw) cover4

end Arrays

/-- Lane 0 of the first output array's rows: the eight sequence means. -/
theorem lane0_A3 : lane0 (A3 m c xr wr) = seqVec xr wr (tgt m c) := by
  funext i
  obtain ⟨g, rfl⟩ : ∃ g : Fin 8, i = ix1 g := ⟨i 0, eq_ix1 i⟩
  rw [lane0_apply]
  rfl

/-- Lane 0 of the second output array's rows: the eight logit sums. -/
theorem lane0_A4 (g : Fin 8) : lane0 (A4 xr wr) (ix1 g) = ((rowsumR xr wr g : ℝ) : EReal) := by
  rw [lane0_apply]
  rfl

/-! ## The run, read -/

section Run
variable (xrs : Dev nD → SX.Idx → ℝ) (wrs : Dev nD → SW.Idx → ℝ)
variable (hxs : ∀ c : Dev nD, m ((c.tc : Thread nD τ).loc main_arg0) = fun i => ((xrs c i : ℝ) : EReal))
variable (hws : ∀ c : Dev nD, m ((c.tc : Thread nD τ).loc main_arg1) = fun i => ((wrs c i : ℝ) : EReal))
include hxs hws

/-- Over real inputs: every weakly fair execution of the kernel's @main terminates with its six results at the
    specification's functions of the arguments, the arguments unchanged. -/
theorem run :
    θ_run (Cert.KernelIdeal.defs (F := Ideal)) (onTc (τ := τ) (main (F := Ideal))) ⟨m, fun _ => 0, ρ⟩ (fun r => ∀ c : Dev nD,
      r.2.mem ((c.tc : Thread nD τ).loc main_v28)
          = lossOut bcast_S_S4 reducesTo_S4_S_d0 h_S_ (lo4 (seqVec (xrs c) (wrs c) (tgt m c))) (hi4 (seqVec (xrs c) (wrs c) (tgt m c)))
      ∧ r.2.mem ((c.tc : Thread nD τ).loc main_v8) = lo4 (seqVec (xrs c) (wrs c) (tgt m c))
      ∧ r.2.mem ((c.tc : Thread nD τ).loc main_v9) = hi4 (seqVec (xrs c) (wrs c) (tgt m c))
      ∧ r.2.mem ((c.tc : Thread nD τ).loc main_v12) = meanOut (xrs c) (wrs c) 0
      ∧ r.2.mem ((c.tc : Thread nD τ).loc main_v15) = meanOut (xrs c) (wrs c) 1
      ∧ r.2.mem ((c.tc : Thread nD τ).loc main_cst_10) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (Cert.KernelIdeal.defs (F := Ideal)) _ _).mono (fun r h c => ?_) (run_main (F := Ideal) m ρ)
  -- what the lines after the region start from: the two output arrays at their closed forms
  have e3 : Pipeline.withArrays spec0 c (V0 (F := Ideal) m c) (fun w => (dats (F := Ideal) m 0 c).arrAt w cfg0.N) (Proc.devRef .tc main_v3_0)
      = A3 m c (xrs c) (wrs c) :=
    (Pipeline.withArrays_arr spec0 launch0.win.arr_inj c _ _ 3).trans (final3 m c (xrs c) (wrs c) (hxs c) (hws c))
  have e4 : Pipeline.withArrays spec0 c (V0 (F := Ideal) m c) (fun w => (dats (F := Ideal) m 0 c).arrAt w cfg0.N) (Proc.devRef .tc main_v3_1)
      = A4 (xrs c) (wrs c) :=
    (Pipeline.withArrays_arr spec0 launch0.win.arr_inj c _ _ 4).trans (final4 m c (xrs c) (wrs c) (hxs c) (hws c))
  have hl3 := lane0_A3 m c (xrs c) (wrs c)
  refine ⟨?_, ?_, ?_, ?_, ?_, ?_, ?_, ?_, ?_⟩
  · refine ((h c).2 main_v28 (Pipeline.mem_restRefs_of main_v28 (by decide) (by decide))).trans ?_
    show StableHlo.after tailOps _ (Proc.devRef .tc main_v28) = _
    rw [tail_v28, e3, hl3]
  · refine ((h c).2 main_v8 (Pipeline.mem_restRefs_of main_v8 (by decide) (by decide))).trans ?_
    show StableHlo.after tailOps _ (Proc.devRef .tc main_v8) = _
    rw [tail_v8, e3, hl3]
  · refine ((h c).2 main_v9 (Pipeline.mem_restRefs_of main_v9 (by decide) (by decide))).trans ?_
    show StableHlo.after tailOps _ (Proc.devRef .tc main_v9) = _
    rw [tail_v9, e3, hl3]
  · refine ((h c).2 main_v12 (Pipeline.mem_restRefs_of main_v12 (by decide) (by decide))).trans ?_
    show StableHlo.after tailOps _ (Proc.devRef .tc main_v12) = _
    rw [tail_v12, e4, mean4_lo _ (rowsumR (xrs c) (wrs c)) (lane0_A4 (xrs c) (wrs c))]
    rfl
  · refine ((h c).2 main_v15 (Pipeline.mem_restRefs_of main_v15 (by decide) (by decide))).trans ?_
    show StableHlo.after tailOps _ (Proc.devRef .tc main_v15) = _
    rw [tail_v15, e4, mean4_hi _ (rowsumR (xrs c) (wrs c)) (lane0_A4 (xrs c) (wrs c))]
    rfl
  · refine ((h c).2 main_cst_10 (Pipeline.mem_restRefs_of main_cst_10 (by decide) (by decide))).trans ?_
    show StableHlo.after tailOps _ (Proc.devRef .tc main_cst_10) = _
    rw [tail_cst_10]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Run

end Cert.KFinal

end
-- ==== Proof.RefTerms.lean ====
/-
  The reference's results as plain functions of its three argument arrays: its host operations composed in their printed
  order — the linear head, the log-softmax (row maximum, shifted exponentials, their sum, its logarithm), the clipped
  target, the gather of one column per token with its out-of-range guard, the mask, the per-sequence sums and their
  quotient; and the mean of the logits of each half. Stated at any float instance; read at the ideal one.
-/
import proofs.«418210_j44899588112976_3_alg».proof.ReferenceIdeal

noncomputable section

namespace Cert.RefTerms

open Idealize.ShloMosaic Cert.ReferenceIdeal Cert.ReferenceIdeal.Facts₀

variable {F : FTy → Type} [FloatOps F] [Cert.ReferenceIdeal.Facts]

/-- The linear head: x[b,s,:] · w[v,:]. -/
def logits (x : FVec F S8x512x4096 .f32) (w : FVec F S32000x4096 .f32) : FVec F S8x512x32000 .f32 :=
  Host.dotGeneral dot_S8x512x4096_S32000x4096_S8x512x32000_2_1_01_0_n_n none x w

/-- log-softmax along the last axis: (a − max) − log Σ exp (a − max). -/
def logSoftmax (a : FVec F S8x512x32000 .f32) : FVec F S8x512x32000 .f32 :=
  let v0 : FVec F S8x512 .f32 := Host.reduce FloatOps.maximumf a (constant S_ .f32 0xFF800000#32) reducesTo_S8x512x32000_S8x512_d2 h_S_
  let v1 : FVec F S8x512 .f32 := broadcastInDim S8x512 ![] bcast_S_S8x512 (constant S_ .f32 0xFF800000#32)
  let v2 : FVec F S8x512 .f32 := maximumf v1 v0
  let v3 : FVec F S8x512x1 .f32 := broadcastInDim S8x512x1 ![0, 1] bcast_S8x512_S8x512x1_0_1 v2
  let v4 : FVec F S8x512x32000 .f32 := broadcastInDim S8x512x32000 ![0, 1, 2] bcast_S8x512x1_S8x512x32000_0_1_2 v3
  let v5 : FVec F S8x512x32000 .f32 := subf a v4
  let v6 : FVec F S8x512x32000 .f32 := Host.exp v5
  let v7 : FVec F S8x512 .f32 := Host.reduceAdd v6 (constant S_ .f32 0x00000000#32) reducesTo_S8x512x32000_S8x512_d2 h_S_
  let v8 : FVec F S8x512x1 .f32 := broadcastInDim S8x512x1 ![0, 1] bcast_S8x512_S8x512x1_0_1 v7
  let v9 : FVec F S8x512x1 .f32 := Host.log v8
  let v10 : FVec F S8x512x32000 .f32 := broadcastInDim S8x512x32000 ![0, 1, 2] bcast_S8x512x1_S8x512x32000_0_1_2 v9
  subf v5 v10

/-- The targets clipped into [0, 31999]. -/
def clipT (tg : IVec S8x512 32) : IVec S8x512 32 :=
  let v1 : IVec S8x512 32 := broadcastInDim S8x512 ![] bcast_S_S8x512 (id (constantI S_ 32 0#32))
  let v2 : IVec S8x512 32 := maxsi v1 tg
  let v4 : IVec S8x512 32 := broadcastInDim S8x512 ![] bcast_S_S8x512 (id (constantI S_ 32 31999#32))
  minsi v4 v2

/-- One column per token: negative indices wrapped by 32000, the column gathered, and the not-a-number word where the
    index is outside [0, 31999]. -/
def takeAlong (a : FVec F S8x512x32000 .f32) (ix : IVec S8x512x1 32) : FVec F S8x512x1 .f32 :=
  let v0 : IVec S8x512x1 32 := broadcastInDim S8x512x1 ![] bcast_S_S8x512x1 (constantI S_ 32 0#32)
  let v1 : IVec S8x512x1 1 := cmpi .slt ix v0
  let v2 : IVec S8x512x1 32 := broadcastInDim S8x512x1 ![] bcast_S_S8x512x1 (constantI S_ 32 32000#32)
  let v3 : IVec S8x512x1 32 := addi ix v2
  let v4 : IVec S8x512x1 32 := select v1 v3 ix
  let v5 : IVec S8x512x1x1 32 := shapeCast S8x512x1x1 v4 shapeCasts_S8x512x1_S8x512x1x1
  let v6 : IVec S8x512x1x1 32 := broadcastInDim S8x512x1x1 ![] bcast_S_S8x512x1x1 (constantI S_ 32 0#32)
  let v7 : IVec S8x512x1x1 1 := cmpi .sge v5 v6
  let v8 : IVec S1x1x1x1 32 := broadcastInDim S1x1x1x1 ![3] bcast_S1_S1x1x1x1_3 (constantI S1 32 31999#32)
  let v9 : IVec S8x512x1x1 32 := broadcastInDim S8x512x1x1 ![0, 1, 2, 3] bcast_S1x1x1x1_S8x512x1x1_0_1_2_3 v8
  let v10 : IVec S8x512x1x1 1 := cmpi .sle v5 v9
  let v11 : IVec S8x512x1x1 1 := andi v7 v10
  let v12 : IVec S8x512x1 1 := Host.reduce IntOp.andi v11 (constantI S_ 1 1#1) reducesTo_S8x512x1x1_S8x512x1_d3 h_S_
  let v13 : FVec F S8x512x1 .f32 := Host.gather gather_S8x512x32000_S8x512x1x1_S8x512x1_n_2_01_01_2_3_111 a v5
  let v14 : FVec F S8x512x1 .f32 := broadcastInDim S8x512x1 ![] bcast_S_S8x512x1 (constant S_ .f32 0x7FC00000#32)
  select v12 v13 v14

/-- The mask: 1 where the target is not −100. -/
def maskT (tg : IVec S8x512 32) : IVec S8x512 1 :=
  cmpi .ne tg (broadcastInDim S8x512 ![] bcast_S_S8x512 (constantI S_ 32 4294967196#32))

/-- The eight sequences' mean log-probabilities. -/
def seqT (x : FVec F S8x512x4096 .f32) (w : FVec F S32000x4096 .f32) (tg : IVec S8x512 32) : FVec F S8 .f32 :=
  let lp : FVec F S8x512x32000 .f32 := logSoftmax (logits x w)
  let v3 : IVec S8x512x1 32 := broadcastInDim S8x512x1 ![0, 1] bcast_S8x512_S8x512x1_0_1 (clipT tg)
  let v5 : FVec F S8x512 .f32 := shapeCast S8x512 (takeAlong lp v3) shapeCasts_S8x512x1_S8x512
  let v8 : FVec F S8x512 .f32 := select (maskT tg) v5 (broadcastInDim S8x512 ![] bcast_S_S8x512 (id (constant S_ .f32 0x00000000#32)))
  let v9 : FVec F S8 .f32 := Host.reduceAdd v8 (constant S_ .f32 0x00000000#32) reducesTo_S8x512_S8_d1 h_S_
  let v10 : IVec S8x512 32 := extui 32 (maskT tg) natLt_1_32
  let v11 : IVec S8 32 := Host.reduce IntOp.addi v10 (constantI S_ 32 0#32) reducesTo_S8x512_S8_d1 h_S_
  let v12 : FVec F S8 .f32 := sitofp .f32 v11
  Host.divf v9 v12

/-- The mean of the chosen half's logits (sequences 0…3). -/
def meanC (x : FVec F S8x512x4096 .f32) (w : FVec F S32000x4096 .f32) : FVec F S_ .f32 :=
  let v16 : FVec F S4x512x32000 .f32 := extractStridedSlice S4x512x32000 ![0, 0, 0] (logits x w) slices_S8x512x32000_S4x512x32000_0_0_0
  let v17 : FVec F S_ .f32 := Host.reduceAdd v16 (constant S_ .f32 0x00000000#32) reducesTo_S4x512x32000_S_d0_1_2 h_S_
  Host.divf v17 (constant S_ .f32 0x4C7A0000#32)

/-- The mean of the rejected half's logits (sequences 4…7). -/
def meanR (x : FVec F S8x512x4096 .f32) (w : FVec F S32000x4096 .f32) : FVec F S_ .f32 :=
  let v19 : FVec F S4x512x32000 .f32 := extractStridedSlice S4x512x32000 ![4, 0, 0] (logits x w) slices_S8x512x32000_S4x512x32000_4_0_0
  let v20 : FVec F S_ .f32 := Host.reduceAdd v19 (constant S_ .f32 0x00000000#32) reducesTo_S4x512x32000_S_d0_1_2 h_S_
  Host.divf v20 (constant S_ .f32 0x4C7A0000#32)

end Cert.RefTerms

end
-- ==== Proof.RRunLine.lean ====
/-
  The reference's @main as one straight line: its host operations in order, each outlined function's operations listed at
  its call over that call's buffers (the linear head; the log-softmax; the clip; the gather with its guard; the mask and the
  per-sequence sums and quotient; the two logit means; the chain after the sequence means). Every weakly fair execution of it
  terminates, and each buffer ends at the operations' fold over the launch contents.
-/
import proofs.«418210_j44899588112976_3_alg».proof.Proof.Gen.ReferenceIdeal
import proofs.«418210_j44899588112976_3_alg».proof.Proof.RefTerms
import proofs.«418210_j44899588112976_3_alg».proof.Proof.Spec
import Idealize.ShloMosaic.Lib.StableHlo.Run
import Idealize.ShloMosaic.Lib.Tactic

noncomputable section

namespace Cert.RefRun

open Idealize.ShloMosaic Idealize.ShloMosaic.TcCoe Idealize.SL.Sem Idealize.ShloMosaic.StableHlo
open Cert.ReferenceIdeal Cert.ReferenceIdeal.Gen

section Line

variable {F : FTy → Type} [FloatOps F]

/-- The first stretch of @main, its calls unfolded: the linear head and the log-softmax's fifteen operations. -/
abbrev ops1a : List (HloOp τ sig (Elt F)) :=
  [ binary main_arg0 main_arg1 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    TRef.nullary main_call0.cst (constant S_ .f32 0xFF800000#32),
    TRef.binary (.of main_v0 : TRef sig ⟨S8x512x32000, .f32⟩) main_call0.cst main_call0.v0 (fun x v => Host.reduce FloatOps.maximumf x v reducesTo_S8x512x32000_S8x512_d2 h_S_),
    TRef.nullary main_call0.cst_0 (constant S_ .f32 0xFF800000#32),
    TRef.unary main_call0.cst_0 main_call0.v1 (broadcastInDim S8x512 ![] bcast_S_S8x512),
    TRef.binary main_call0.v1 main_call0.v0 main_call0.v2 maximumf,
    TRef.unary main_call0.v2 main_call0.v3 (broadcastInDim S8x512x1 ![0, 1] bcast_S8x512_S8x512x1_0_1),
    TRef.unary main_call0.v3 main_call0.v4 (broadcastInDim S8x512x32000 ![0, 1, 2] bcast_S8x512x1_S8x512x32000_0_1_2),
    TRef.binary (.of main_v0 : TRef sig ⟨S8x512x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x512x32000_S8x512_d2 h_S_),
    TRef.unary main_call0.v7 main_call0.v8 (broadcastInDim S8x512x1 ![0, 1] bcast_S8x512_S8x512x1_0_1),
    TRef.unary main_call0.v8 main_call0.v9 Host.log,
    TRef.unary main_call0.v9 main_call0.v10 (broadcastInDim S8x512x32000 ![0, 1, 2] bcast_S8x512x1_S8x512x32000_0_1_2),
    TRef.binary main_call0.v5 main_call0.v10 main_call0.v11 subf ]

/-- The second stretch: the two clip bounds, the clip's six operations and the clipped target's broadcast to a column index. -/
abbrev ops1b : List (HloOp τ sig (Elt F)) :=
  [ nullary main_c (constantI S_ 32 0#32),
    nullary main_c_0 (constantI S_ 32 31999#32),
    TRef.unary (.of main_c : TRef sig ⟨S_, .i32⟩) main_call1.v0 id,
    TRef.unary main_call1.v0 main_call1.v1 (broadcastInDim S8x512 ![] bcast_S_S8x512),
    TRef.binary main_call1.v1 (.of main_arg2 : TRef sig ⟨S8x512, .i32⟩) main_call1.v2 maxsi,
    TRef.unary (.of main_c_0 : TRef sig ⟨S_, .i32⟩) main_call1.v3 id,
    TRef.unary main_call1.v3 main_call1.v4 (broadcastInDim S8x512 ![] bcast_S_S8x512),
    TRef.binary main_call1.v4 main_call1.v2 main_call1.v5 minsi,
    unary main_v2 main_v3 (broadcastInDim S8x512x1 ![0, 1] bcast_S8x512_S8x512x1_0_1 : (⟨S8x512, .i32⟩ : BufTy).Contents (Elt F) → (⟨S8x512x1, .i32⟩ : BufTy).Contents (Elt F)) ]

/-- The third stretch: the gather-with-guard's twenty-two operations. -/
abbrev ops1c : List (HloOp τ sig (Elt F)) :=
  [ TRef.nullary main_call2.c (constantI S_ 32 0#32),
    TRef.unary main_call2.c main_call2.v0 (broadcastInDim S8x512x1 ![] bcast_S_S8x512x1),
    TRef.binary (.of main_v3 : TRef sig ⟨S8x512x1, .i32⟩) main_call2.v0 main_call2.v1 (cmpi .slt),
    TRef.nullary main_call2.c_0 (constantI S_ 32 32000#32),
    TRef.unary main_call2.c_0 main_call2.v2 (broadcastInDim S8x512x1 ![] bcast_S_S8x512x1),
    TRef.binary (.of main_v3 : TRef sig ⟨S8x512x1, .i32⟩) main_call2.v2 main_call2.v3 addi,
    TRef.ternary main_call2.v1 main_call2.v3 (.of main_v3 : TRef sig ⟨S8x512x1, .i32⟩) main_call2.v4 select,
    TRef.reshape main_call2.v4 main_call2.v5 rfl shapeCasts_S8x512x1_S8x512x1x1,
    TRef.nullary main_call2.c_1 (constantI S1 32 31999#32),
    TRef.nullary main_call2.c_2 (constantI S_ 32 0#32),
    TRef.unary main_call2.c_2 main_call2.v6 (broadcastInDim S8x512x1x1 ![] bcast_S_S8x512x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x512x1x1 ![0, 1, 2, 3] bcast_S1x1x1x1_S8x512x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x512x1x1_S8x512x1_d3 h_S_),
    TRef.binary (.of main_v1 : TRef sig ⟨S8x512x32000, .f32⟩) main_call2.v5 main_call2.v13 (fun x i => Host.gather gather_S8x512x32000_S8x512x1x1_S8x512x1_n_2_01_01_2_3_111 x i),
    TRef.nullary main_call2.cst (constant S_ .f32 0x7FC00000#32),
    TRef.unary main_call2.cst main_call2.v14 (broadcastInDim S8x512x1 ![] bcast_S_S8x512x1),
    TRef.ternary main_call2.v12 main_call2.v13 main_call2.v14 main_call2.v15 select ]

/-- The fourth stretch: the gathered column reshaped, the mask, the masked select's three, the per-sequence sums and count, their quotient and its two halves; then the two halves of the logits summed and divided. -/
abbrev ops2 : List (HloOp τ sig (Elt F)) :=
  [ reshape main_v4 main_v5 rfl shapeCasts_S8x512x1_S8x512,
    nullary main_c_1 (constantI S_ 32 4294967196#32),
    unary main_c_1 main_v6 (broadcastInDim S8x512 ![] bcast_S_S8x512 : (⟨S_, .i32⟩ : BufTy).Contents (Elt F) → (⟨S8x512, .i32⟩ : BufTy).Contents (Elt F)),
    binary main_arg2 main_v6 main_v7 (cmpi .ne : (⟨S8x512, .i32⟩ : BufTy).Contents (Elt F) → (⟨S8x512, .i32⟩ : BufTy).Contents (Elt F) → (⟨S8x512, .i1⟩ : BufTy).Contents (Elt F)),
    nullary main_cst (constant S_ .f32 0x00000000#32),
    TRef.unary (.of main_cst : TRef sig ⟨S_, .f32⟩) main_call3.v0 id,
    TRef.unary main_call3.v0 main_call3.v1 (broadcastInDim S8x512 ![] bcast_S_S8x512),
    TRef.ternary (.of main_v7 : TRef sig ⟨S8x512, .i1⟩) (.of main_v5 : TRef sig ⟨S8x512, .f32⟩) main_call3.v1 main_call3.v2 select,
    nullary main_cst_2 (constant S_ .f32 0x00000000#32),
    binary main_v8 main_cst_2 main_v9 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    unary main_v7 main_v10 ((extui 32 · natLt_1_32) : (⟨S8x512, .i1⟩ : BufTy).Contents (Elt F) → (⟨S8x512, .i32⟩ : BufTy).Contents (Elt F)),
    nullary main_c_3 (constantI S_ 32 0#32),
    binary main_v10 main_c_3 main_v11 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    unary main_v11 main_v12 (sitofp .f32 : (⟨S8, .i32⟩ : BufTy).Contents (Elt F) → (⟨S8, .f32⟩ : BufTy).Contents (Elt F)),
    binary main_v9 main_v12 main_v13 (Host.divf : (⟨S8, .f32⟩ : BufTy).Contents (Elt F) → (⟨S8, .f32⟩ : BufTy).Contents (Elt F) → (⟨S8, .f32⟩ : BufTy).Contents (Elt F)),
    unary main_v13 main_v14 ((extractStridedSlice S4 ![0] · slices_S8_S4_0) : (⟨S8, .f32⟩ : BufTy).Contents (Elt F) → (⟨S4, .f32⟩ : BufTy).Contents (Elt F)),
    unary main_v13 main_v15 ((extractStridedSlice S4 ![4] · slices_S8_S4_4) : (⟨S8, .f32⟩ : BufTy).Contents (Elt F) → (⟨S4, .f32⟩ : BufTy).Contents (Elt F)),
    unary main_v0 main_v16 ((extractStridedSlice S4x512x32000 ![0, 0, 0] · slices_S8x512x32000_S4x512x32000_0_0_0) : (⟨S8x512x32000, .f32⟩ : BufTy).Contents (Elt F) → (⟨S4x512x32000, .f32⟩ : BufTy).Contents (Elt F)),
    nullary main_cst_4 (constant S_ .f32 0x00000000#32),
    binary main_v16 main_cst_4 main_v17 ((fun x v => Host.reduceAdd x v reducesTo_S4x512x32000_S_d0_1_2 h_S_) : (⟨S4x512x32000, .f32⟩ : BufTy).Contents (Elt F) → (⟨S_, .f32⟩ : BufTy).Contents (Elt F) → (⟨S_, .f32⟩ : BufTy).Contents (Elt F)),
    nullary main_cst_5 (constant S_ .f32 0x4C7A0000#32),
    binary main_v17 main_cst_5 main_v18 (Host.divf : (⟨S_, .f32⟩ : BufTy).Contents (Elt F) → (⟨S_, .f32⟩ : BufTy).Contents (Elt F) → (⟨S_, .f32⟩ : BufTy).Contents (Elt F)),
    unary main_v0 main_v19 ((extractStridedSlice S4x512x32000 ![4, 0, 0] · slices_S8x512x32000_S4x512x32000_4_0_0) : (⟨S8x512x32000, .f32⟩ : BufTy).Contents (Elt F) → (⟨S4x512x32000, .f32⟩ : BufTy).Contents (Elt F)),
    nullary main_cst_6 (constant S_ .f32 0x00000000#32),
    binary main_v19 main_cst_6 main_v20 ((fun x v => Host.reduceAdd x v reducesTo_S4x512x32000_S_d0_1_2 h_S_) : (⟨S4x512x32000, .f32⟩ : BufTy).Contents (Elt F) → (⟨S_, .f32⟩ : BufTy).Contents (Elt F) → (⟨S_, .f32⟩ : BufTy).Contents (Elt F)),
    nullary main_cst_7 (constant S_ .f32 0x4C7A0000#32),
    binary main_v20 main_cst_7 main_v21 (Host.divf : (⟨S_, .f32⟩ : BufTy).Contents (Elt F) → (⟨S_, .f32⟩ : BufTy).Contents (Elt F) → (⟨S_, .f32⟩ : BufTy).Contents (Elt F)) ]

/-- The fifth stretch: the preference loss of the two halves (the scaled difference, the log-sigmoid with its softplus inline, the sum, the sign and the division by 4, plus 1·0) and the constant 0. -/
abbrev ops3 : List (HloOp τ sig (Elt F)) :=
  [ nullary main_cst_8 (constant S_ .f32 0x00000000#32),
    unary main_cst_8 main_v22 (broadcastInDim S4 ![] bcast_S_S4 : (⟨S_, .f32⟩ : BufTy).Contents (Elt F) → (⟨S4, .f32⟩ : BufTy).Contents (Elt F)),
    nullary main_cst_9 (constant S_ .f32 0x00000000#32),
    unary main_cst_9 main_v23 (broadcastInDim S4 ![] bcast_S_S4 : (⟨S_, .f32⟩ : BufTy).Contents (Elt F) → (⟨S4, .f32⟩ : BufTy).Contents (Elt F)),
    binary main_v14 main_v22 main_v24 (subf : (⟨S4, .f32⟩ : BufTy).Contents (Elt F) → (⟨S4, .f32⟩ : BufTy).Contents (Elt F) → (⟨S4, .f32⟩ : BufTy).Contents (Elt F)),
    binary main_v15 main_v23 main_v25 (subf : (⟨S4, .f32⟩ : BufTy).Contents (Elt F) → (⟨S4, .f32⟩ : BufTy).Contents (Elt F) → (⟨S4, .f32⟩ : BufTy).Contents (Elt F)),
    binary main_v24 main_v25 main_v26 (subf : (⟨S4, .f32⟩ : BufTy).Contents (Elt F) → (⟨S4, .f32⟩ : BufTy).Contents (Elt F) → (⟨S4, .f32⟩ : BufTy).Contents (Elt F)),
    nullary main_cst_10 (constant S_ .f32 0x3DCCCCCD#32),
    unary main_cst_10 main_v27 (broadcastInDim S4 ![] bcast_S_S4 : (⟨S_, .f32⟩ : BufTy).Contents (Elt F) → (⟨S4, .f32⟩ : BufTy).Contents (Elt F)),
    binary main_v27 main_v26 main_v28 (mulf : (⟨S4, .f32⟩ : BufTy).Contents (Elt F) → (⟨S4, .f32⟩ : BufTy).Contents (Elt F) → (⟨S4, .f32⟩ : BufTy).Contents (Elt F)),
    TRef.unary (.of main_v28 : TRef sig ⟨S4, .f32⟩) main_call4.v0 Host.negf,
    TRef.nullary main_call4.call0.cst (constant S_ .f32 0x00000000#32),
    TRef.unary main_call4.call0.cst main_call4.call0.v0 (broadcastInDim S4 ![] bcast_S_S4),
    TRef.binary main_call4.v0 main_call4.call0.v0 main_call4.call0.v1 maximumf,
    TRef.unary main_call4.call0.cst main_call4.call0.v2 (broadcastInDim S4 ![] bcast_S_S4),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S4 ![] bcast_S_S4),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_11 (constant S_ .f32 0x00000000#32),
    binary main_v29 main_cst_11 main_v30 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    unary main_v30 main_v31 (Host.negf : (⟨S_, .f32⟩ : BufTy).Contents (Elt F) → (⟨S_, .f32⟩ : BufTy).Contents (Elt F)),
    nullary main_cst_12 (constant S_ .f32 0x40800000#32),
    binary main_v31 main_cst_12 main_v32 (Host.divf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    nullary main_cst_14 (constant S_ .f32 0x00000000#32),
    binary main_cst_13 main_cst_14 main_v33 (mulf : (⟨S_, .f32⟩ : BufTy).Contents (Elt F) → (⟨S_, .f32⟩ : BufTy).Contents (Elt F) → (⟨S_, .f32⟩ : BufTy).Contents (Elt F)),
    binary main_v33 main_v32 main_v34 (addf : (⟨S_, .f32⟩ : BufTy).Contents (Elt F) → (⟨S_, .f32⟩ : BufTy).Contents (Elt F) → (⟨S_, .f32⟩ : BufTy).Contents (Elt F)),
    nullary main_cst_15 (constant S_ .f32 0x00000000#32) ]

/-- @main's operations in order, the calls unfolded. -/
abbrev ops : List (HloOp τ sig (Elt F)) := ops1a ++ ops1b ++ ops1c ++ ops2 ++ ops3

-- a hundred and ten binds re-associated: the rewrite under the chain recurses once per statement
set_option maxRecDepth 8192 in
set_option maxHeartbeats 4000000 in
/-- @main is that straight line: the functions' definitions unfolded at their calls and the records at their fields, both
    sides are one chain of `hlo` steps once sequencing is reassociated. -/
theorem main_eq (c : Dev nD) : main (F := F) c = seq ops := by
  simp only [ops, ops1a, ops1b, ops1c, ops2, ops3, List.cons_append, List.nil_append, main, fn_log_softmax.body, fn_clip.body,
    fn_take_along_axis.body, fn_where.body, fn_softplus.body, fn_log_sigmoid.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ### Every operation touches TensorCore references only, and determines its results -/

theorem ops1a_sub : (ops1a : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub ..⟩

theorem ops1b_sub : (ops1b : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub ..⟩

theorem ops1c_sub : (ops1c : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem ops2_sub : (ops2 : List (HloOp τ sig (Elt F))).Forall fun op => op.bufs ⊆ tcRefs τ sig :=
  ⟨reshape_bufs_sub .., nullary_bufs_sub .., unary_bufs_sub .., binary_bufs_sub .., nullary_bufs_sub .., unary_bufs_sub ..,
    unary_bufs_sub .., ternary_bufs_sub .., nullary_bufs_sub .., binary_bufs_sub .., unary_bufs_sub .., nullary_bufs_sub ..,
    binary_bufs_sub .., unary_bufs_sub .., binary_bufs_sub .., unary_bufs_sub .., unary_bufs_sub .., unary_bufs_sub ..,
    nullary_bufs_sub .., binary_bufs_sub .., nullary_bufs_sub .., binary_bufs_sub .., unary_bufs_sub .., nullary_bufs_sub ..,
    binary_bufs_sub .., nullary_bufs_sub .., binary_bufs_sub ..⟩

theorem ops3_sub : (ops3 : List (HloOp τ sig (Elt F))).Forall fun op => op.bufs ⊆ tcRefs τ sig :=
  ⟨nullary_bufs_sub .., unary_bufs_sub .., nullary_bufs_sub .., unary_bufs_sub .., binary_bufs_sub .., binary_bufs_sub ..,
    binary_bufs_sub .., nullary_bufs_sub .., unary_bufs_sub .., binary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., nullary_bufs_sub .., binary_bufs_sub .., unary_bufs_sub .., nullary_bufs_sub ..,
    binary_bufs_sub .., nullary_bufs_sub .., nullary_bufs_sub .., binary_bufs_sub .., binary_bufs_sub .., nullary_bufs_sub ..⟩

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp ops1a_sub op h,
      List.forall_iff_forall_mem.mp ops1b_sub op h,
      List.forall_iff_forall_mem.mp ops1c_sub op h,
      List.forall_iff_forall_mem.mp ops2_sub op h,
      List.forall_iff_forall_mem.mp ops3_sub op h]

theorem ops1a_fresh : (ops1a : List (HloOp τ sig (Elt F))).Forall fun op => op.fresh = ∅ :=
  ⟨rfl, rfl, rfl, rfl, rfl, rfl, rfl, rfl, rfl, rfl, rfl, rfl, rfl, rfl, rfl, rfl⟩

theorem ops1b_fresh : (ops1b : List (HloOp τ sig (Elt F))).Forall fun op => op.fresh = ∅ :=
  ⟨rfl, rfl, rfl, rfl, rfl, rfl, rfl, rfl, rfl⟩

theorem ops1c_fresh : (ops1c : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_fresh : ∀ op ∈ (ops : List (HloOp τ sig (Elt F))), op.fresh = ∅ := fun op h => by
  simp only [ops, List.mem_append] at h
  rcases h with (((h | h) | h) | h) | h
  exacts [List.forall_iff_forall_mem.mp ops1a_fresh op h,
    List.forall_iff_forall_mem.mp ops1b_fresh op h,
    List.forall_iff_forall_mem.mp ops1c_fresh op h,
    List.forall_iff_forall_mem.mp ops2_fresh op h,
    List.forall_iff_forall_mem.mp ops3_fresh op h]

/-- Every weakly fair execution of @main terminates, each TensorCore buffer at the operations' fold over the launch contents. -/
theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Line

end Cert.RefRun

end
-- ==== Proof.RRun.lean ====
/-
  The reference's run, read back: @main with its outlined functions unfolded is one straight line of host operations, every
  weakly fair execution of it terminates, and its six results end at the composed terms of RefTerms.lean (the loss being the
  shared chain `Spec.lossOut` of the two halves of the sequence means), the arguments unchanged.
-/
import proofs.«418210_j44899588112976_3_alg».proof.Proof.RRunLine

noncomputable section

namespace Cert.RefRun

open Idealize.ShloMosaic Idealize.ShloMosaic.TcCoe Idealize.SL.Sem Idealize.ShloMosaic.StableHlo
open Cert.ReferenceIdeal Cert.ReferenceIdeal.Gen

/-- The first four of the eight sequence means. -/
abbrev chosen (s : FVec Ideal S8 .f32) : FVec Ideal S4 .f32 := extractStridedSlice S4 ![0] s slices_S8_S4_0
/-- The last four of the eight sequence means. -/
abbrev rejected (s : FVec Ideal S8 .f32) : FVec Ideal S4 .f32 := extractStridedSlice S4 ![4] s slices_S8_S4_4

section Stages

variable {F : FTy → Type} [FloatOps F]

/-- The sequence means from the gathered column on: the column as a rank-2 array, zero where the target is −100, summed
    along each sequence and divided by the count of kept targets. -/
def seqTail (t4 : FVec F S8x512x1 .f32) (tg : IVec S8x512 32) : FVec F S8 .f32 :=
  let v5 : FVec F S8x512 .f32 := shapeCast S8x512 t4 shapeCasts_S8x512x1_S8x512
  let v8 : FVec F S8x512 .f32 := select (Cert.RefTerms.maskT tg) v5 (broadcastInDim S8x512 ![] bcast_S_S8x512 (id (constant S_ .f32 0x00000000#32)))
  let v9 : FVec F S8 .f32 := Host.reduceAdd v8 (constant S_ .f32 0x00000000#32) reducesTo_S8x512_S8_d1 h_S_
  let v10 : IVec S8x512 32 := extui 32 (Cert.RefTerms.maskT tg) natLt_1_32
  let v11 : IVec S8 32 := Host.reduce IntOp.addi v10 (constantI S_ 32 0#32) reducesTo_S8x512_S8_d1 h_S_
  let v12 : FVec F S8 .f32 := sitofp .f32 v11
  Host.divf v9 v12

/-- The gathered column of the log-softmax of the logits at the clipped targets. -/
def column (x : FVec F S8x512x4096 .f32) (w : FVec F S32000x4096 .f32) (tg : IVec S8x512 32) : FVec F S8x512x1 .f32 :=
  Cert.RefTerms.takeAlong (Cert.RefTerms.logSoftmax (Cert.RefTerms.logits x w))
    (broadcastInDim S8x512x1 ![0, 1] bcast_S8x512_S8x512x1_0_1 (Cert.RefTerms.clipT tg))

/-- The sequence means are the tail applied to the gathered column. -/
theorem seqT_eq (x : FVec F S8x512x4096 .f32) (w : FVec F S32000x4096 .f32) (tg : IVec S8x512 32) :
    Cert.RefTerms.seqT x w tg = seqTail (column x w tg) tg := rfl

/-- The mean of one half of the logits: the four sequences from `off` on summed over all three axes, divided by the word of
    65536000. -/
def meanHalf (a : FVec F S8x512x32000 .f32) (off : Fin 3 → Nat) (h : S8x512x32000.Slices off S4x512x32000) : FVec F S_ .f32 :=
  Host.divf (Host.reduceAdd (extractStridedSlice S4x512x32000 off a h) (constant S_ .f32 0x00000000#32) reducesTo_S4x512x32000_S_d0_1_2 h_S_)
    (constant S_ .f32 0x4C7A0000#32)

/-- The preference loss of the two halves of the sequence means, at any float values: the chain `Spec.lossOut` states at
    the ideal ones. -/
def lossF (ch rj : FVec F S4 .f32) : FVec F S_ .f32 :=
  let z4 : FVec F S4 .f32 := broadcastInDim S4 ![] bcast_S_S4 (constant S_ .f32 0x00000000#32)
  let d : FVec F S4 .f32 := subf (subf ch z4) (subf rj z4)
  let a : FVec F S4 .f32 := mulf (broadcastInDim S4 ![] bcast_S_S4 (constant S_ .f32 0x3DCCCCCD#32)) d
  let n : FVec F S4 .f32 := Host.negf a
  let p1 : FVec F S4 .f32 := maximumf n z4
  let p3 : FVec F S4 .f32 := subf n z4
  let p4 : IVec S4 1 := cmpf .une p3 p3
  let p6 : FVec F S4 .f32 := addf n z4
  let p10 : FVec F S4 .f32 := Host.log1p (Host.exp (Host.negf (Host.absf p3)))
  let p12 : FVec F S4 .f32 := select p4 p6 (addf p1 p10)
  let ls : FVec F S4 .f32 := Host.negf p12
  let sm : FVec F S_ .f32 := Host.reduceAdd ls (constant S_ .f32 0x00000000#32) reducesTo_S4_S_d0 h_S_
  let q : FVec F S_ .f32 := Host.divf (Host.negf sm) (constant S_ .f32 0x40800000#32)
  addf (mulf (constant S_ .f32 0x3F800000#32) (constant S_ .f32 0x00000000#32)) q

attribute [local irreducible] Host.reduce
attribute [local irreducible] Host.gather
attribute [local irreducible] Host.reduceAdd

/-! ### The linear head and the log-softmax, from any contents -/

/-- The first stretch's sixteen operations over the buffers themselves: each typed reference read as the buffer it names, its function at the buffer's own type. -/
abbrev ops1aP : List (HloOp τ sig (Elt F)) :=
  [ binary main_arg0 main_arg1 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    nullary main_call0_cst ((constant S_ .f32 0xFF800000#32) : (⟨S_, .f32⟩ : BufTy).Contents (Elt F)),
    binary main_v0 main_call0_cst main_call0_v0 ((fun x v => Host.reduce FloatOps.maximumf x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    nullary main_call0_cst_0 ((constant S_ .f32 0xFF800000#32) : (⟨S_, .f32⟩ : BufTy).Contents (Elt F)),
    unary main_call0_cst_0 main_call0_v1 ((broadcastInDim S8x512 ![] bcast_S_S8x512) : (⟨S_, .f32⟩ : BufTy).Contents (Elt F) → (⟨S8x512, .f32⟩ : BufTy).Contents (Elt F)),
    binary main_call0_v1 main_call0_v0 main_call0_v2 (maximumf : (⟨S8x512, .f32⟩ : BufTy).Contents (Elt F) → (⟨S8x512, .f32⟩ : BufTy).Contents (Elt F) → (⟨S8x512, .f32⟩ : BufTy).Contents (Elt F)),
    unary main_call0_v2 main_call0_v3 ((broadcastInDim S8x512x1 ![0, 1] bcast_S8x512_S8x512x1_0_1) : (⟨S8x512, .f32⟩ : BufTy).Contents (Elt F) → (⟨S8x512x1, .f32⟩ : BufTy).Contents (Elt F)),
    unary main_call0_v3 main_call0_v4 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    binary main_v0 main_call0_v4 main_call0_v5 (subf : (⟨S8x512x32000, .f32⟩ : BufTy).Contents (Elt F) → (⟨S8x512x32000, .f32⟩ : BufTy).Contents (Elt F) → (⟨S8x512x32000, .f32⟩ : BufTy).Contents (Elt F)),
    unary main_call0_v5 main_call0_v6 (Host.exp : (⟨S8x512x32000, .f32⟩ : BufTy).Contents (Elt F) → (⟨S8x512x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    unary main_call0_v7 main_call0_v8 ((broadcastInDim S8x512x1 ![0, 1] bcast_S8x512_S8x512x1_0_1) : (⟨S8x512, .f32⟩ : BufTy).Contents (Elt F) → (⟨S8x512x1, .f32⟩ : BufTy).Contents (Elt F)),
    unary main_call0_v8 main_call0_v9 (Host.log : (⟨S8x512x1, .f32⟩ : BufTy).Contents (Elt F) → (⟨S8x512x1, .f32⟩ : BufTy).Contents (Elt F)),
    unary main_call0_v9 main_call0_v10 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    binary main_call0_v5 main_call0_v10 main_v1 (subf : (⟨S8x512x32000, .f32⟩ : BufTy).Contents (Elt F) → (⟨S8x512x32000, .f32⟩ : BufTy).Contents (Elt F) → (⟨S8x512x32000, .f32⟩ : BufTy).Contents (Elt F)) ]

/-- The two lists are one: a typed reference's transport is the identity at a literal buffer. -/
theorem ops1a_plain : (ops1a : List (HloOp τ sig (Elt F))) = ops1aP := rfl

set_option maxRecDepth 8192 in
set_option maxHeartbeats 400000 in
theorem s1a_v0 (V : Valuation τ sig (Elt F)) :
    after ops1a V (main_v0 : DevRef τ sig)
      = Cert.RefTerms.logits (V (main_arg0 : DevRef τ sig)) (V (main_arg1 : DevRef τ sig)) := by
  rw [ops1a_plain]
  after_results_simp <;> rfl

set_option maxRecDepth 8192 in
set_option maxHeartbeats 400000 in
theorem s1a_v1 (V : Valuation τ sig (Elt F)) :
    after ops1a V (main_v1 : DevRef τ sig)
      = Cert.RefTerms.logSoftmax (Cert.RefTerms.logits (V (main_arg0 : DevRef τ sig)) (V (main_arg1 : DevRef τ sig))) := by
  rw [ops1a_plain]
  after_results_simp <;> rfl

set_option maxRecDepth 8192 in
set_option maxHeartbeats 100000 in
theorem s1a_arg0 (V : Valuation τ sig (Elt F)) :
    after ops1a V (main_arg0 : DevRef τ sig)
      = V (main_arg0 : DevRef τ sig) := by
  rw [ops1a_plain]
  after_results_simp

set_option maxRecDepth 8192 in
set_option maxHeartbeats 100000 in
theorem s1a_arg1 (V : Valuation τ sig (Elt F)) :
    after ops1a V (main_arg1 : DevRef τ sig)
      = V (main_arg1 : DevRef τ sig) := by
  rw [ops1a_plain]
  after_results_simp

set_option maxRecDepth 8192 in
set_option maxHeartbeats 100000 in
theorem s1a_arg2 (V : Valuation τ sig (Elt F)) :
    after ops1a V (main_arg2 : DevRef τ sig)
      = V (main_arg2 : DevRef τ sig) := by
  rw [ops1a_plain]
  after_results_simp

/-! ### The clipped target as a column index, from any contents -/

set_option maxRecDepth 8192 in
set_option maxHeartbeats 400000 in
theorem s1b_v3 (V : Valuation τ sig (Elt F)) :
    after ops1b V (main_v3 : DevRef τ sig)
      = broadcastInDim S8x512x1 ![0, 1] bcast_S8x512_S8x512x1_0_1 (Cert.RefTerms.clipT (V (main_arg2 : DevRef τ sig))) := by
  after_results_simp
  simp only [TRef.ofBuf, TRef.toBuf, cast_eq]
  rfl

set_option maxRecDepth 8192 in
set_option maxHeartbeats 100000 in
theorem s1b_v0 (V : Valuation τ sig (Elt F)) :
    after ops1b V (main_v0 : DevRef τ sig)
      = V (main_v0 : DevRef τ sig) := by
  after_results_simp

set_option maxRecDepth 8192 in
set_option maxHeartbeats 100000 in
theorem s1b_v1 (V : Valuation τ sig (Elt F)) :
    after ops1b V (main_v1 : DevRef τ sig)
      = V (main_v1 : DevRef τ sig) := by
  after_results_simp

set_option maxRecDepth 8192 in
set_option maxHeartbeats 100000 in
theorem s1b_arg0 (V : Valuation τ sig (Elt F)) :
    after ops1b V (main_arg0 : DevRef τ sig)
      = V (main_arg0 : DevRef τ sig) := by
  after_results_simp

set_option maxRecDepth 8192 in
set_option maxHeartbeats 100000 in
theorem s1b_arg1 (V : Valuation τ sig (Elt F)) :
    after ops1b V (main_arg1 : DevRef τ sig)
      = V (main_arg1 : DevRef τ sig) := by
  after_results_simp

set_option maxRecDepth 8192 in
set_option maxHeartbeats 100000 in
theorem s1b_arg2 (V : Valuation τ sig (Elt F)) :
    after ops1b V (main_arg2 : DevRef τ sig)
      = V (main_arg2 : DevRef τ sig) := by
  after_results_simp

/-! ### The gather with its guard, from any contents -/

/-- The third stretch's twenty-two operations over the buffers themselves. -/
abbrev ops1cP : List (HloOp τ sig (Elt F)) :=
  [ nullary main_call2_c ((constantI S_ 32 0#32) : (⟨S_, .i32⟩ : BufTy).Contents (Elt F)),
    unary main_call2_c main_call2_v0 ((broadcastInDim S8x512x1 ![] bcast_S_S8x512x1) : (⟨S_, .i32⟩ : BufTy).Contents (Elt F) → (⟨S8x512x1, .i32⟩ : BufTy).Contents (Elt F)),
    binary main_v3 main_call2_v0 main_call2_v1 ((cmpi .slt) : (⟨S8x512x1, .i32⟩ : BufTy).Contents (Elt F) → (⟨S8x512x1, .i32⟩ : BufTy).Contents (Elt F) → (⟨S8x512x1, .i1⟩ : BufTy).Contents (Elt F)),
    nullary main_call2_c_0 ((constantI S_ 32 32000#32) : (⟨S_, .i32⟩ : BufTy).Contents (Elt F)),
    unary main_call2_c_0 main_call2_v2 ((broadcastInDim S8x512x1 ![] bcast_S_S8x512x1) : (⟨S_, .i32⟩ : BufTy).Contents (Elt F) → (⟨S8x512x1, .i32⟩ : BufTy).Contents (Elt F)),
    binary main_v3 main_call2_v2 main_call2_v3 (addi : (⟨S8x512x1, .i32⟩ : BufTy).Contents (Elt F) → (⟨S8x512x1, .i32⟩ : BufTy).Contents (Elt F) → (⟨S8x512x1, .i32⟩ : BufTy).Contents (Elt F)),
    ternary main_call2_v1 main_call2_v3 main_v3 main_call2_v4 (select : (⟨S8x512x1, .i1⟩ : BufTy).Contents (Elt F) → (⟨S8x512x1, .i32⟩ : BufTy).Contents (Elt F) → (⟨S8x512x1, .i32⟩ : BufTy).Contents (Elt F) → (⟨S8x512x1, .i32⟩ : BufTy).Contents (Elt F)),
    reshape main_call2_v4 main_call2_v5 rfl shapeCasts_S8x512x1_S8x512x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S8x512x1x1 ![] bcast_S_S8x512x1x1) : (⟨S_, .i32⟩ : BufTy).Contents (Elt F) → (⟨S8x512x1x1, .i32⟩ : BufTy).Contents (Elt F)),
    binary main_call2_v5 main_call2_v6 main_call2_v7 ((cmpi .sge) : (⟨S8x512x1x1, .i32⟩ : BufTy).Contents (Elt F) → (⟨S8x512x1x1, .i32⟩ : BufTy).Contents (Elt F) → (⟨S8x512x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S8x512x1x1 ![0, 1, 2, 3] bcast_S1x1x1x1_S8x512x1x1_0_1_2_3) : (⟨S1x1x1x1, .i32⟩ : BufTy).Contents (Elt F) → (⟨S8x512x1x1, .i32⟩ : BufTy).Contents (Elt F)),
    binary main_call2_v5 main_call2_v9 main_call2_v10 ((cmpi .sle) : (⟨S8x512x1x1, .i32⟩ : BufTy).Contents (Elt F) → (⟨S8x512x1x1, .i32⟩ : BufTy).Contents (Elt F) → (⟨S8x512x1x1, .i1⟩ : BufTy).Contents (Elt F)),
    binary main_call2_v7 main_call2_v10 main_call2_v11 (andi : (⟨S8x512x1x1, .i1⟩ : BufTy).Contents (Elt F) → (⟨S8x512x1x1, .i1⟩ : BufTy).Contents (Elt F) → (⟨S8x512x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S8x512x1x1_S8x512x1_d3 h_S_) : (⟨S8x512x1x1, .i1⟩ : BufTy).Contents (Elt F) → (⟨S_, .i1⟩ : BufTy).Contents (Elt F) → (⟨S8x512x1, .i1⟩ : BufTy).Contents (Elt F)),
    binary main_v1 main_call2_v5 main_call2_v13 ((fun x i => Host.gather gather_S8x512x32000_S8x512x1x1_S8x512x1_n_2_01_01_2_3_111 x i) : (⟨S8x512x32000, .f32⟩ : BufTy).Contents (Elt F) → (⟨S8x512x1x1, .i32⟩ : BufTy).Contents (Elt F) → (⟨S8x512x1, .f32⟩ : BufTy).Contents (Elt F)),
    nullary main_call2_cst ((constant S_ .f32 0x7FC00000#32) : (⟨S_, .f32⟩ : BufTy).Contents (Elt F)),
    unary main_call2_cst main_call2_v14 ((broadcastInDim S8x512x1 ![] bcast_S_S8x512x1) : (⟨S_, .f32⟩ : BufTy).Contents (Elt F) → (⟨S8x512x1, .f32⟩ : BufTy).Contents (Elt F)),
    ternary main_call2_v12 main_call2_v13 main_call2_v14 main_v4 (select : (⟨S8x512x1, .i1⟩ : BufTy).Contents (Elt F) → (⟨S8x512x1, .f32⟩ : BufTy).Contents (Elt F) → (⟨S8x512x1, .f32⟩ : BufTy).Contents (Elt F) → (⟨S8x512x1, .f32⟩ : BufTy).Contents (Elt F)) ]

/-- The two lists are one, as for the first stretch. -/
theorem ops1c_plain : (ops1c : List (HloOp τ sig (Elt F))) = ops1cP := rfl

set_option maxRecDepth 8192 in
set_option maxHeartbeats 400000 in
theorem s1c_v4 (V : Valuation τ sig (Elt F)) :
    after ops1c V (main_v4 : DevRef τ sig)
      = Cert.RefTerms.takeAlong (V (main_v1 : DevRef τ sig)) (V (main_v3 : DevRef τ sig)) := by
  rw [ops1c_plain]
  after_results_simp <;> rfl

set_option maxRecDepth 8192 in
set_option maxHeartbeats 100000 in
theorem s1c_v0 (V : Valuation τ sig (Elt F)) :
    after ops1c V (main_v0 : DevRef τ sig)
      = V (main_v0 : DevRef τ sig) := by
  rw [ops1c_plain]
  after_results_simp

set_option maxRecDepth 8192 in
set_option maxHeartbeats 100000 in
theorem s1c_arg0 (V : Valuation τ sig (Elt F)) :
    after ops1c V (main_arg0 : DevRef τ sig)
      = V (main_arg0 : DevRef τ sig) := by
  rw [ops1c_plain]
  after_results_simp

set_option maxRecDepth 8192 in
set_option maxHeartbeats 100000 in
theorem s1c_arg1 (V : Valuation τ sig (Elt F)) :
    after ops1c V (main_arg1 : DevRef τ sig)
      = V (main_arg1 : DevRef τ sig) := by
  rw [ops1c_plain]
  after_results_simp

set_option maxRecDepth 8192 in
set_option maxHeartbeats 100000 in
theorem s1c_arg2 (V : Valuation τ sig (Elt F)) :
    after ops1c V (main_arg2 : DevRef τ sig)
      = V (main_arg2 : DevRef τ sig) := by
  rw [ops1c_plain]
  after_results_simp

/-! ### The sequence means and the two halves' means, from any contents -/

set_option maxRecDepth 8192 in
set_option maxHeartbeats 400000 in
theorem s2_v14 (V : Valuation τ sig (Elt F)) :
    after ops2 V (main_v14 : DevRef τ sig)
      = extractStridedSlice S4 ![0] (seqTail (V (main_v4 : DevRef τ sig)) (V (main_arg2 : DevRef τ sig))) slices_S8_S4_0 := by
  after_results_simp <;> rfl

set_option maxRecDepth 8192 in
set_option maxHeartbeats 400000 in
theorem s2_v15 (V : Valuation τ sig (Elt F)) :
    after ops2 V (main_v15 : DevRef τ sig)
      = extractStridedSlice S4 ![4] (seqTail (V (main_v4 : DevRef τ sig)) (V (main_arg2 : DevRef τ sig))) slices_S8_S4_4 := by
  after_results_simp <;> rfl

set_option maxRecDepth 8192 in
set_option maxHeartbeats 400000 in
theorem s2_v18 (V : Valuation τ sig (Elt F)) :
    after ops2 V (main_v18 : DevRef τ sig)
      = meanHalf (V (main_v0 : DevRef τ sig)) ![0, 0, 0] slices_S8x512x32000_S4x512x32000_0_0_0 := by
  after_results_simp <;> rfl

set_option maxRecDepth 8192 in
set_option maxHeartbeats 400000 in
theorem s2_v21 (V : Valuation τ sig (Elt F)) :
    after ops2 V (main_v21 : DevRef τ sig)
      = meanHalf (V (main_v0 : DevRef τ sig)) ![4, 0, 0] slices_S8x512x32000_S4x512x32000_4_0_0 := by
  after_results_simp <;> rfl

set_option maxRecDepth 8192 in
set_option maxHeartbeats 100000 in
theorem s2_arg0 (V : Valuation τ sig (Elt F)) :
    after ops2 V (main_arg0 : DevRef τ sig)
      = V (main_arg0 : DevRef τ sig) := by
  after_results_simp

set_option maxRecDepth 8192 in
set_option maxHeartbeats 100000 in
theorem s2_arg1 (V : Valuation τ sig (Elt F)) :
    after ops2 V (main_arg1 : DevRef τ sig)
      = V (main_arg1 : DevRef τ sig) := by
  after_results_simp

set_option maxRecDepth 8192 in
set_option maxHeartbeats 100000 in
theorem s2_arg2 (V : Valuation τ sig (Elt F)) :
    after ops2 V (main_arg2 : DevRef τ sig)
      = V (main_arg2 : DevRef τ sig) := by
  after_results_simp

/-! ### The loss, from any contents -/

set_option maxRecDepth 8192 in
set_option maxHeartbeats 400000 in
theorem s3_v34 (V : Valuation τ sig (Elt F)) :
    after ops3 V (main_v34 : DevRef τ sig)
      = lossF (V (main_v14 : DevRef τ sig)) (V (main_v15 : DevRef τ sig)) := by
  after_results_simp <;> rfl

set_option maxRecDepth 8192 in
set_option maxHeartbeats 400000 in
theorem s3_cst_15 (V : Valuation τ sig (Elt F)) :
    after ops3 V (main_cst_15 : DevRef τ sig)
      = constant S_ .f32 0x00000000#32 := by
  after_results_simp

set_option maxRecDepth 8192 in
set_option maxHeartbeats 100000 in
theorem s3_v14 (V : Valuation τ sig (Elt F)) :
    after ops3 V (main_v14 : DevRef τ sig)
      = V (main_v14 : DevRef τ sig) := by
  after_results_simp

set_option maxRecDepth 8192 in
set_option maxHeartbeats 100000 in
theorem s3_v15 (V : Valuation τ sig (Elt F)) :
    after ops3 V (main_v15 : DevRef τ sig)
      = V (main_v15 : DevRef τ sig) := by
  after_results_simp

set_option maxRecDepth 8192 in
set_option maxHeartbeats 100000 in
theorem s3_v18 (V : Valuation τ sig (Elt F)) :
    after ops3 V (main_v18 : DevRef τ sig)
      = V (main_v18 : DevRef τ sig) := by
  after_results_simp

set_option maxRecDepth 8192 in
set_option maxHeartbeats 100000 in
theorem s3_v21 (V : Valuation τ sig (Elt F)) :
    after ops3 V (main_v21 : DevRef τ sig)
      = V (main_v21 : DevRef τ sig) := by
  after_results_simp

set_option maxRecDepth 8192 in
set_option maxHeartbeats 100000 in
theorem s3_arg0 (V : Valuation τ sig (Elt F)) :
    after ops3 V (main_arg0 : DevRef τ sig)
      = V (main_arg0 : DevRef τ sig) := by
  after_results_simp

set_option maxRecDepth 8192 in
set_option maxHeartbeats 100000 in
theorem s3_arg1 (V : Valuation τ sig (Elt F)) :
    after ops3 V (main_arg1 : DevRef τ sig)
      = V (main_arg1 : DevRef τ sig) := by
  after_results_simp

set_option maxRecDepth 8192 in
set_option maxHeartbeats 100000 in
theorem s3_arg2 (V : Valuation τ sig (Elt F)) :
    after ops3 V (main_arg2 : DevRef τ sig)
      = V (main_arg2 : DevRef τ sig) := by
  after_results_simp

/-! ### The five stretches in a row -/

/-- The whole line is its five stretches run one after the other. -/
theorem after_ops (V : Valuation τ sig (Elt F)) :
    after ops V = after ops3 (after ops2 (after ops1c (after ops1b (after ops1a V)))) := by
  simp only [ops, after_app]

/-- After the first three stretches: the gathered column, the logits, and the arguments. -/
theorem pre_v4 (V : Valuation τ sig (Elt F)) :
    after ops1c (after ops1b (after ops1a V)) (main_v4 : DevRef τ sig) = column (V (main_arg0 : DevRef τ sig)) (V (main_arg1 : DevRef τ sig)) (V (main_arg2 : DevRef τ sig)) := by
  rw [s1c_v4, s1b_v1, s1b_v3, s1a_v1, s1a_arg2]
  rfl
theorem pre_v0 (V : Valuation τ sig (Elt F)) :
    after ops1c (after ops1b (after ops1a V)) (main_v0 : DevRef τ sig) = Cert.RefTerms.logits (V (main_arg0 : DevRef τ sig)) (V (main_arg1 : DevRef τ sig)) := by
  rw [s1c_v0, s1b_v0, s1a_v0]
theorem pre_arg0 (V : Valuation τ sig (Elt F)) : after ops1c (after ops1b (after ops1a V)) (main_arg0 : DevRef τ sig) = V (main_arg0 : DevRef τ sig) := by
  rw [s1c_arg0, s1b_arg0, s1a_arg0]
theorem pre_arg1 (V : Valuation τ sig (Elt F)) : after ops1c (after ops1b (after ops1a V)) (main_arg1 : DevRef τ sig) = V (main_arg1 : DevRef τ sig) := by
  rw [s1c_arg1, s1b_arg1, s1a_arg1]
theorem pre_arg2 (V : Valuation τ sig (Elt F)) : after ops1c (after ops1b (after ops1a V)) (main_arg2 : DevRef τ sig) = V (main_arg2 : DevRef τ sig) := by
  rw [s1c_arg2, s1b_arg2, s1a_arg2]

/-- The results of the whole line, from any contents. -/
theorem res_v34 (V : Valuation τ sig (Elt F)) :
    after ops V (main_v34 : DevRef τ sig)
      = lossF (extractStridedSlice S4 ![0] (Cert.RefTerms.seqT (V (main_arg0 : DevRef τ sig)) (V (main_arg1 : DevRef τ sig)) (V (main_arg2 : DevRef τ sig))) slices_S8_S4_0)
          (extractStridedSlice S4 ![4] (Cert.RefTerms.seqT (V (main_arg0 : DevRef τ sig)) (V (main_arg1 : DevRef τ sig)) (V (main_arg2 : DevRef τ sig))) slices_S8_S4_4) := by
  rw [after_ops, s3_v34, s2_v14, s2_v15, pre_v4, pre_arg2, seqT_eq]
theorem res_v14 (V : Valuation τ sig (Elt F)) :
    after ops V (main_v14 : DevRef τ sig)
      = extractStridedSlice S4 ![0] (Cert.RefTerms.seqT (V (main_arg0 : DevRef τ sig)) (V (main_arg1 : DevRef τ sig)) (V (main_arg2 : DevRef τ sig))) slices_S8_S4_0 := by
  rw [after_ops, s3_v14, s2_v14, pre_v4, pre_arg2, seqT_eq]
theorem res_v15 (V : Valuation τ sig (Elt F)) :
    after ops V (main_v15 : DevRef τ sig)
      = extractStridedSlice S4 ![4] (Cert.RefTerms.seqT (V (main_arg0 : DevRef τ sig)) (V (main_arg1 : DevRef τ sig)) (V (main_arg2 : DevRef τ sig))) slices_S8_S4_4 := by
  rw [after_ops, s3_v15, s2_v15, pre_v4, pre_arg2, seqT_eq]
theorem res_v18 (V : Valuation τ sig (Elt F)) :
    after ops V (main_v18 : DevRef τ sig) = Cert.RefTerms.meanC (V (main_arg0 : DevRef τ sig)) (V (main_arg1 : DevRef τ sig)) := by
  rw [after_ops, s3_v18, s2_v18, pre_v0]
  rfl
theorem res_v21 (V : Valuation τ sig (Elt F)) :
    after ops V (main_v21 : DevRef τ sig) = Cert.RefTerms.meanR (V (main_arg0 : DevRef τ sig)) (V (main_arg1 : DevRef τ sig)) := by
  rw [after_ops, s3_v21, s2_v21, pre_v0]
  rfl
theorem res_cst_15 (V : Valuation τ sig (Elt F)) :
    after ops V (main_cst_15 : DevRef τ sig) = constant S_ .f32 0x00000000#32 := by
  rw [after_ops, s3_cst_15]
theorem res_arg0 (V : Valuation τ sig (Elt F)) : after ops V (main_arg0 : DevRef τ sig) = V (main_arg0 : DevRef τ sig) := by
  rw [after_ops, s3_arg0, s2_arg0, pre_arg0]
theorem res_arg1 (V : Valuation τ sig (Elt F)) : after ops V (main_arg1 : DevRef τ sig) = V (main_arg1 : DevRef τ sig) := by
  rw [after_ops, s3_arg1, s2_arg1, pre_arg1]
theorem res_arg2 (V : Valuation τ sig (Elt F)) : after ops V (main_arg2 : DevRef τ sig) = V (main_arg2 : DevRef τ sig) := by
  rw [after_ops, s3_arg2, s2_arg2, pre_arg2]

end Stages

/-- At the ideal values the loss chain is the shared one. -/
theorem lossF_ideal (ch rj : FVec Ideal S4 .f32) :
    lossF (F := Ideal) ch rj = Cert.Spec.lossOut bcast_S_S4 reducesTo_S4_S_d0 h_S_ ch rj := rfl

/-- At the compiled mesh, from any memory with zero counters: every weakly fair execution of the reference's @main
    terminates with its six results at the composed terms of its arguments' launch contents, the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v34)
          = Cert.Spec.lossOut bcast_S_S4 reducesTo_S4_S_d0 h_S_
              (chosen (Cert.RefTerms.seqT (F := Ideal) (m ((c.tc : Thread nD τ).loc main_arg0)) (m ((c.tc : Thread nD τ).loc main_arg1)) (m ((c.tc : Thread nD τ).loc main_arg2))))
              (rejected (Cert.RefTerms.seqT (F := Ideal) (m ((c.tc : Thread nD τ).loc main_arg0)) (m ((c.tc : Thread nD τ).loc main_arg1)) (m ((c.tc : Thread nD τ).loc main_arg2))))
      ∧ r.2.mem ((c.tc : Thread nD τ).loc main_v14)
          = chosen (Cert.RefTerms.seqT (F := Ideal) (m ((c.tc : Thread nD τ).loc main_arg0)) (m ((c.tc : Thread nD τ).loc main_arg1)) (m ((c.tc : Thread nD τ).loc main_arg2)))
      ∧ r.2.mem ((c.tc : Thread nD τ).loc main_v15)
          = rejected (Cert.RefTerms.seqT (F := Ideal) (m ((c.tc : Thread nD τ).loc main_arg0)) (m ((c.tc : Thread nD τ).loc main_arg1)) (m ((c.tc : Thread nD τ).loc main_arg2)))
      ∧ r.2.mem ((c.tc : Thread nD τ).loc main_v18)
          = Cert.RefTerms.meanC (F := Ideal) (m ((c.tc : Thread nD τ).loc main_arg0)) (m ((c.tc : Thread nD τ).loc main_arg1))
      ∧ r.2.mem ((c.tc : Thread nD τ).loc main_v21)
          = Cert.RefTerms.meanR (F := Ideal) (m ((c.tc : Thread nD τ).loc main_arg0)) (m ((c.tc : Thread nD τ).loc main_arg1))
      ∧ r.2.mem ((c.tc : Thread nD τ).loc main_cst_15) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.ReferenceIdeal.defs (F := Ideal)) _ _).mono (fun _ h c =>
    ⟨(h c main_v34).trans ((res_v34 _).trans (lossF_ideal _ _)),
      (h c main_v14).trans (res_v14 _),
      (h c main_v15).trans (res_v15 _),
      (h c main_v18).trans (res_v18 _),
      (h c main_v21).trans (res_v21 _),
      (h c main_cst_15).trans (res_cst_15 _),
      (h c main_arg0).trans (res_arg0 _),
      (h c main_arg1).trans (res_arg1 _),
      (h c main_arg2).trans (res_arg2 _)⟩)
    (run_main m ρ)

end Cert.RefRun

end
-- ==== Proof.LibSumBlocks.lean ====
import Mathlib.Algebra.BigOperators.Fin
import Mathlib.Algebra.BigOperators.Group.Finset.Defs
import Mathlib.Algebra.BigOperators.Group.List.Basic
import Mathlib.Data.Fintype.BigOperators
import Idealize.ShloMosaic.Lib.ValueIdx

/-!
# Finite sums taken block by block

Pure bookkeeping about finite sums in an additive commutative monoid `M` (only commutativity and associativity of `+`
are used, so every statement holds in the extended reals as well).

* `sum_idx3`, `sum_idx4`: a sum over the index set of a rank-3 (rank-4) shape is the iterated sum over its coordinates,
  because the index set is in bijection with the product of the coordinate ranges (`idxEquiv3`, `idxEquiv4`).
* `sum_rows_blocks`: the 1024 numbers `0 ≤ row < 1024` are written uniquely as `512·c + 32·s + 8·k + r` with
  `c < 2`, `s < 16`, `k < 4`, `r < 8` (mixed-radix digits), so a sum over the rows is the fourfold sum over the digits.
* `sum_rows_pairs`: likewise `row = 16·b + ch` with `b = row / 16 < 64` and `ch = row % 16 < 16`.
* `foldl_add_eq_sum`: a left fold over `0, 1, …, n-1` that adds `g k` at step `k` ends at the start value plus `∑ k, g k`.
-/

open scoped BigOperators
open Idealize.ShloMosaic Idealize.ShloMosaic.ValueIdx

namespace Cert.Hand

/-! ## Sums over the index set of a shape -/

/-- A rank-3 index set is the product of its three coordinate ranges: an index goes to its coordinates,
    a triple of coordinates to the index `ix3` built from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates:
    `∑ i, f i = ∑ a, ∑ b, ∑ c, f (a, b, c)`. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges: an index goes to its coordinates,
    a quadruple of coordinates to the index `ix4` built from them. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates:
    `∑ i, f i = ∑ a, ∑ b, ∑ c, ∑ d, f (a, b, c, d)`. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## 1024 rows in blocks -/

/-- Mixed-radix digits: `(c, s, k, r)` with `c < 2`, `s < 16`, `k < 4`, `r < 8` corresponds to the row
    `512·c + 32·s + 8·k + r < 1024`; the digits of a row are `row / 512`, `row % 512 / 32`, `row % 32 / 8`, `row % 8`. -/
def rowsBlocksEquiv : Fin 2 × Fin 16 × Fin 4 × Fin 8 ≃ Fin 1024 where
  toFun p := ⟨512 * p.1.val + 32 * p.2.1.val + 8 * p.2.2.1.val + p.2.2.2.val, by
    have := p.1.isLt; have := p.2.1.isLt; have := p.2.2.1.isLt; have := p.2.2.2.isLt; omega⟩
  invFun row := (⟨row.val / 512, by have := row.isLt; omega⟩, ⟨row.val % 512 / 32, by omega⟩,
    ⟨row.val % 32 / 8, by omega⟩, ⟨row.val % 8, by omega⟩)
  left_inv p := by
    obtain ⟨⟨c, hc⟩, ⟨s, hs⟩, ⟨k, hk⟩, ⟨r, hr⟩⟩ := p
    refine Prod.ext (Fin.ext ?_) (Prod.ext (Fin.ext ?_) (Prod.ext (Fin.ext ?_) (Fin.ext ?_))) <;>
      simp only <;> omega
  right_inv row := by
    obtain ⟨v, hv⟩ := row
    refine Fin.ext ?_
    simp only
    omega

/-- 1024 rows, taken as 2 halves of 16 blocks of 4 chunks of 8 rows: row = 512·c + 32·s + 8·k + r. -/
theorem sum_rows_blocks {M : Type*} [AddCommMonoid M] (f : Fin 1024 → M) :
    ∑ c : Fin 2, ∑ s : Fin 16, ∑ k : Fin 4, ∑ r : Fin 8,
      f ⟨512 * c.val + 32 * s.val + 8 * k.val + r.val, by omega⟩ = ∑ row : Fin 1024, f row := by
  rw [← Equiv.sum_comp rowsBlocksEquiv f, Fintype.sum_prod_type]
  refine Finset.sum_congr rfl fun c _ => ?_
  rw [Fintype.sum_prod_type]
  refine Finset.sum_congr rfl fun s _ => ?_
  rw [Fintype.sum_prod_type]
  rfl

/-- Quotient and remainder by 16: `(b, ch)` with `b < 64`, `ch < 16` corresponds to the row `16·b + ch < 1024`;
    conversely `b = row / 16` and `ch = row % 16`. -/
def rowsPairsEquiv : Fin 64 × Fin 16 ≃ Fin 1024 where
  toFun p := ⟨16 * p.1.val + p.2.val, by have := p.1.isLt; have := p.2.isLt; omega⟩
  invFun row := (⟨row.val / 16, by have := row.isLt; omega⟩, ⟨row.val % 16, by omega⟩)
  left_inv p := by
    obtain ⟨⟨b, hb⟩, ⟨ch, hch⟩⟩ := p
    refine Prod.ext (Fin.ext ?_) (Fin.ext ?_) <;> simp only <;> omega
  right_inv row := by
    obtain ⟨v, hv⟩ := row
    refine Fin.ext ?_
    simp only
    omega

/-- 1024 rows as 64 × 16 pairs in row-major order: row = 16·b + ch. -/
theorem sum_rows_pairs {M : Type*} [AddCommMonoid M] (g : Fin 64 → Fin 16 → M) :
    ∑ row : Fin 1024, g ⟨row.val / 16, by omega⟩ ⟨row.val % 16, by omega⟩ = ∑ b : Fin 64, ∑ ch : Fin 16, g b ch := by
  exact (Equiv.sum_comp rowsPairsEquiv.symm (fun p : Fin 64 × Fin 16 => g p.1 p.2)).trans
    (Fintype.sum_prod_type _)

/-! ## A left fold that accumulates a sum -/

/-- Over any list: folding `acc ↦ acc + g k` from `a` gives `a` plus the sum of the `g k` along the list. -/
theorem foldl_add_eq_add_sum_map {M : Type*} [AddCommMonoid M] {α : Type*} (g : α → M) (l : List α) (a : M) :
    l.foldl (fun acc k => acc + g k) a = a + (l.map g).sum := by
  induction l generalizing a with
  | nil => simp
  | cons x xs ih => rw [List.foldl_cons, ih, List.map_cons, List.sum_cons, add_assoc]

/-- A left fold that adds `g k` at step `k` is the start plus the sum. -/
theorem foldl_add_eq_sum {M : Type*} [AddCommMonoid M] (n : Nat) (g : Fin n → M) (a : M) :
    (List.finRange n).foldl (fun acc k => acc + g k) a = a + ∑ k : Fin n, g k := by
  rw [foldl_add_eq_add_sum_map, Fin.sum_univ_def]

end Cert.Hand
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.LibGatherAt.lean ====
import proofs.«418210_j44899588112976_3_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.RGather.lean ====
/-
  The reference's gather of one column per token, read at a token: where the index word is a signed number in [0, 31999] — the
  clip guarantees it — no wrap-around is applied, the out-of-range guard passes, and the value is the operand's entry at that
  column of the token's row.
-/
import proofs.«418210_j44899588112976_3_alg».proof.Proof.RefTerms
import proofs.«418210_j44899588112976_3_alg».proof.Proof.Gen.ReferenceIdeal
import proofs.«418210_j44899588112976_3_alg».proof.Proof.LibGatherAt
import proofs.«418210_j44899588112976_3_alg».proof.Proof.LibLayoutIx
import Idealize.ShloMosaic.Lib.Pipeline.Value
import Idealize.ShloMosaic.Lib.ValueLayout
import Idealize.ShloMosaic.PureOps.Reduce

noncomputable section

namespace Cert.RefGather

open Idealize.ShloMosaic Idealize.ShloMosaic.ValueIdx Cert.ReferenceIdeal Cert.ReferenceIdeal.Gen

/-! ## A gather with two batch axes, read at an index -/

section BSV
variable {α : Type} {B S V : Nat}

/-- Dimension numbers of a gather that reads, for each token `(b, s)` of a `[B, S]` batch, ONE entry of that token's own row of
    an operand `[B, S, V]`: the first two axes are batch axes shared by the operand and the start indices `[B, S, 1, 1]`, the
    last operand axis is collapsed and named by the start-index map, and the index vector (of one component) lies on the
    start indices' last axis. The result is `[B, S, 1]`; it has no offset axis. -/
abbrev dimsBSV (B S V : Nat)
    (wf : GatherDims.WF ⟨3, ![B, S, V]⟩ ⟨4, ![B, S, 1, 1]⟩ ⟨3, ![B, S, 1]⟩ [] [2] [0, 1] [2] [0, 1] 3 ![1, 1, 1]) :
    GatherDims ⟨3, ![B, S, V]⟩ ⟨4, ![B, S, 1, 1]⟩ ⟨3, ![B, S, 1]⟩ where
  offsetDims := []
  collapsedSliceDims := [2]
  operandBatchingDims := [0, 1]
  startIndicesBatchingDims := [0, 1]
  startIndexMap := [2]
  indexVectorDim := 3
  sliceSizes := ![1, 1, 1]
  wf := wf

/-- Result element `(b, s, 0)` is the operand at `(b, s, v)`: the two batch coordinates are the result's own, and `v` is the
    start index word of token `(b, s)`, read signed and clamped into the last axis. -/
theorem gather_BSV_apply (hV : 0 < V)
    (wf : GatherDims.WF ⟨3, ![B, S, V]⟩ ⟨4, ![B, S, 1, 1]⟩ ⟨3, ![B, S, 1]⟩ [] [2] [0, 1] [2] [0, 1] 3 ![1, 1, 1])
    (x : (⟨3, ![B, S, V]⟩ : Shape).Idx → α) (idx : IVec ⟨4, ![B, S, 1, 1]⟩ 32) (b : Fin B) (s : Fin S) :
    Host.gather (dimsBSV B S V wf) x idx (ix3 b s 0)
      = x (ix3 b s (Cert.Hand.clampIx V hV (idx (ix4 b s 0 0)))) := by
  unfold Host.gather
  congr 1
  funext a
  refine Fin.ext ?_
  match a with
  | ⟨0, h0⟩ =>
    -- the first axis is a batch axis: no start, no offset, the result's own first coordinate
    show GatherDims.start _ _ _ _ + GatherDims.batchCoord _ _ _ + GatherDims.offCoord _ _ _ = _
    have hb : (⟨0, h0⟩ : Fin 3) ∈ (dimsBSV B S V wf).operandBatchingDims :=
      (by decide : (0 : Fin 3) ∈ ([0, 1] : List (Fin 3)))
    rw [GatherDims.start_batching _ _ _ _ hb,
      GatherDims.offCoord_eq_zero _ _ _ (show (⟨0, h0⟩ : Fin 3) ∉ (dimsBSV B S V wf).sKept from
        (by decide : (0 : Fin 3) ∉ ([] : List (Fin 3))))]
    unfold GatherDims.batchCoord
    rw [dif_pos hb, Nat.zero_add, Nat.add_zero]
    rfl
  | ⟨1, h1⟩ =>
    -- the second axis is a batch axis: the result's own second coordinate
    show GatherDims.start _ _ _ _ + GatherDims.batchCoord _ _ _ + GatherDims.offCoord _ _ _ = _
    have hb : (⟨1, h1⟩ : Fin 3) ∈ (dimsBSV B S V wf).operandBatchingDims :=
      (by decide : (1 : Fin 3) ∈ ([0, 1] : List (Fin 3)))
    rw [GatherDims.start_batching _ _ _ _ hb,
      GatherDims.offCoord_eq_zero _ _ _ (show (⟨1, h1⟩ : Fin 3) ∉ (dimsBSV B S V wf).sKept from
        (by decide : (1 : Fin 3) ∉ ([] : List (Fin 3))))]
    unfold GatherDims.batchCoord
    rw [dif_pos hb, Nat.zero_add, Nat.add_zero]
    rfl
  | ⟨2, h2⟩ =>
    -- the third axis is collapsed and is the start index's one component, clamped
    show GatherDims.start _ _ _ _ + GatherDims.batchCoord _ _ _ + GatherDims.offCoord _ _ _ = _
    have hm : (⟨2, h2⟩ : Fin 3) ∈ (dimsBSV B S V wf).startIndexMap :=
      (by decide : (2 : Fin 3) ∈ ([2] : List (Fin 3)))
    rw [GatherDims.batchCoord_eq_zero _ _ _ (show (⟨2, h2⟩ : Fin 3) ∉ (dimsBSV B S V wf).operandBatchingDims from
        (by decide : (2 : Fin 3) ∉ ([0, 1] : List (Fin 3)))),
      GatherDims.offCoord_eq_zero _ _ _ (show (⟨2, h2⟩ : Fin 3) ∉ (dimsBSV B S V wf).sKept from
        (by decide : (2 : Fin 3) ∉ ([] : List (Fin 3))))]
    unfold GatherDims.start
    rw [dif_pos hm]
    have hsi : (dimsBSV B S V wf).siIdx (ix3 b s 0)
        ⟨List.idxOf (⟨2, h2⟩ : Fin 3) (dimsBSV B S V wf).startIndexMap, List.idxOf_lt_length_iff.2 hm⟩
          = ix4 b s 0 0 := by
      funext c; refine Fin.ext ?_
      match c with
      | ⟨0, _⟩ => rfl
      | ⟨1, _⟩ => rfl
      | ⟨2, _⟩ => rfl
      | ⟨3, _⟩ => rfl
    rw [hsi]
    rfl

end BSV

/-! ## The pieces of the reference's column read: the wrap-around, the reshape, the range guard -/

/-- Signed "at least zero" holds of a word that is not negative. -/
theorem sge_zero_of_nonneg (w : BitVec 32) (h0 : 0 ≤ w.toInt) : IntOp.cmpi .sge w 0#32 = 1#1 := by
  show BitVec.ofBool ((0#32 : BitVec 32).sle w) = 1#1
  have h : (0#32 : BitVec 32).sle w = true := by
    simp only [BitVec.sle, BitVec.toInt_zero]
    exact decide_eq_true h0
  rw [h]; rfl

/-- Signed "at most 31999" holds of a word whose signed value is at most 31999. -/
theorem sle_max_of_le (w : BitVec 32) (h1 : w.toInt ≤ 31999) : IntOp.cmpi .sle w 31999#32 = 1#1 := by
  show BitVec.ofBool (w.sle 31999#32) = 1#1
  have hc : (31999#32 : BitVec 32).toInt = 31999 := by decide
  have h : w.sle 31999#32 = true := by
    simp only [BitVec.sle]
    exact decide_eq_true (by rw [hc]; exact h1)
  rw [h]; rfl

/-- The wrap-around of negative indices (add 32000 to a word below zero) leaves a word that is not negative alone. -/
theorem wrapped_at (ix : IVec S8x512x1 32) (h : S_.BroadcastsInDim S8x512x1 (![] : Fin 0 → Fin S8x512x1.rank))
    (i : S8x512x1.Idx) (h0 : 0 ≤ (ix i).toInt) :
    select (cmpi .slt ix (broadcastInDim S8x512x1 ![] h (constantI S_ 32 0#32)))
      (addi ix (broadcastInDim S8x512x1 ![] h (constantI S_ 32 32000#32))) ix i = ix i := by
  have hc : IntOp.cmpi .slt (ix i) 0#32 = 0#1 := by
    show BitVec.ofBool ((ix i).slt 0#32) = 0#1
    rw [Cert.Hand.slt_zero_of_nonneg _ h0]; rfl
  show Scalar.select (IntOp.cmpi .slt (ix i) 0#32) (IntOp.addi (ix i) 32000#32) (ix i) = ix i
  rw [hc, select_zero]

/-- The reshape that appends a unit axis reads, at `(b, s, 0, 0)`, the operand at `(b, s, 0)`: both have row-major position
    `b · 512 + s`. -/
theorem cast_at {α : Type} (v : S8x512x1.Idx → α) (h : S8x512x1.ShapeCasts S8x512x1x1) (b : Fin 8) (s : Fin 512) :
    shapeCast S8x512x1x1 v h (ix4 b s 0 0) = v (ix3 b s 0) :=
  shapeCast_apply v h _ _ (by
    rw [Shape.rowMajor_val_four, Shape.rowMajor_val_three]
    show (b.val * 512 + s.val) * 1 + 0 = ((b.val * 512 + s.val) * 1 + 0) * 1 + 0
    omega)

/-- A fold of a commutative, associative operation over an index set of one element combines that element with the start. -/
theorem fold_fin_one {β : Type} (op : β → β → β) [Std.Commutative op] [Std.Associative op] (init : β) (f : Fin 1 → β) :
    (Finset.univ : Finset (Fin 1)).fold op init f = op (f 0) init := by
  rw [Finset.univ_unique, Finset.fold_singleton]
  rfl

/-- The range guard — `0 ≤ i` and `i ≤ 31999`, combined by "and" along the unit last axis from the initial bit 1 — is the bit 1 at
    a token whose index word is a signed number in [0, 31999]: the reduction runs over the one element of that axis. -/
theorem guard_at (v : IVec S8x512x1x1 32)
    (hA : S_.BroadcastsInDim S8x512x1x1 (![] : Fin 0 → Fin S8x512x1x1.rank))
    (hC : S1.BroadcastsInDim S1x1x1x1 (![3] : Fin 1 → Fin S1x1x1x1.rank))
    (hB : S1x1x1x1.BroadcastsInDim S8x512x1x1 (![0, 1, 2, 3] : Fin 4 → Fin S8x512x1x1.rank))
    (hR : S8x512x1x1.ReducesTo [3] S8x512x1) (hS : 0 < S_.numel)
    (b : Fin 8) (s : Fin 512) (h0 : 0 ≤ (v (ix4 b s 0 0)).toInt) (h1 : (v (ix4 b s 0 0)).toInt ≤ 31999) :
    Host.reduce IntOp.andi
      (andi (cmpi .sge v (broadcastInDim S8x512x1x1 ![] hA (constantI S_ 32 0#32)))
        (cmpi .sle v (broadcastInDim S8x512x1x1 ![0, 1, 2, 3] hB
          (broadcastInDim S1x1x1x1 ![3] hC (constantI S1 32 31999#32)))))
      (constantI S_ 1 1#1) hR hS (ix3 b s 0) = 1#1 := by
  have hRed : S8x512x1x1.Reduces [3] S8x512x1 := by decide
  -- the one index of the source over `(b, s, 0)`
  have hl : ∀ k : Fin 1, hRed.lift (ix3 b s 0) k = ix4 b s 0 0 := by
    intro k
    funext c; refine Fin.ext ?_
    match c with
    | ⟨0, _⟩ => rfl
    | ⟨1, _⟩ => rfl
    | ⟨2, _⟩ => rfl
    | ⟨3, _⟩ =>
      show k.val = 0
      omega
  rw [Host.reduce_eq_fold_single IntOp.andi _ _ hR hRed hS]
  refine (fold_fin_one IntOp.andi _ _).trans ?_
  change IntOp.andi (IntOp.andi (IntOp.cmpi .sge (v (hRed.lift (ix3 b s 0) (0 : Fin 1))) 0#32)
    (IntOp.cmpi .sle (v (hRed.lift (ix3 b s 0) (0 : Fin 1))) 31999#32)) 1#1 = 1#1
  rw [hl, sge_zero_of_nonneg _ h0, sle_max_of_le _ h1]
  rfl

/-- The guarded gather at a token: when the start index word of token (b, s) is the signed number k in [0, 32000), the guard
    passes, the clamp of the start index is the identity, and the selected value is the operand at (b, s, k). -/
theorem guarded_gather_at (a : FVec Ideal S8x512x32000 .f32) (v : IVec S8x512x1x1 32)
    (hA : S_.BroadcastsInDim S8x512x1x1 (![] : Fin 0 → Fin S8x512x1x1.rank))
    (hC : S1.BroadcastsInDim S1x1x1x1 (![3] : Fin 1 → Fin S1x1x1x1.rank))
    (hB : S1x1x1x1.BroadcastsInDim S8x512x1x1 (![0, 1, 2, 3] : Fin 4 → Fin S8x512x1x1.rank))
    (hR : S8x512x1x1.ReducesTo [3] S8x512x1) (hS : 0 < S_.numel)
    (hN : S_.BroadcastsInDim S8x512x1 (![] : Fin 0 → Fin S8x512x1.rank))
    (b : Fin 8) (s : Fin 512) (k : Fin 32000) (hk : (v (ix4 b s 0 0)).toInt = (k.val : Int)) :
    select
      (Host.reduce IntOp.andi
        (andi (cmpi .sge v (broadcastInDim S8x512x1x1 ![] hA (constantI S_ 32 0#32)))
          (cmpi .sle v (broadcastInDim S8x512x1x1 ![0, 1, 2, 3] hB
            (broadcastInDim S1x1x1x1 ![3] hC (constantI S1 32 31999#32)))))
        (constantI S_ 1 1#1) hR hS)
      (Host.gather gather_S8x512x32000_S8x512x1x1_S8x512x1_n_2_01_01_2_3_111 a v)
      (broadcastInDim S8x512x1 ![] hN (constant (F := Ideal) S_ .f32 0x7FC00000#32)) (ix3 b s 0)
      = a (ix3 b s k) := by
  have hlt := k.isLt
  have h0 : 0 ≤ (v (ix4 b s 0 0)).toInt := by rw [hk]; omega
  have h1 : (v (ix4 b s 0 0)).toInt ≤ 31999 := by rw [hk]; omega
  have hd : gather_S8x512x32000_S8x512x1x1_S8x512x1_n_2_01_01_2_3_111
      = dimsBSV 8 512 32000 Cert.ReferenceIdeal.Gen.gather_S8x512x32000_S8x512x1x1_S8x512x1_n_2_01_01_2_3_111_wf := rfl
  rw [select_apply, guard_at v hA hC hB hR hS b s h0 h1, select_one, hd,
    gather_BSV_apply (by decide : 0 < 32000)]
  congr 1
  have hc : Cert.Hand.clampIx 32000 (by decide) (v (ix4 b s 0 0)) = k := by
    refine Fin.ext ?_
    rw [Cert.Hand.clampIx_val_of_mem 32000 (by decide) _ h0 (by rw [hk]; omega), hk]
    rfl
  rw [hc]

/-- One column per token: with the index word of token (b, s) the signed number k in [0, 32000), the result at (b, s, 0) is the
    operand at (b, s, k). -/
theorem takeAlong_at (a : FVec Ideal S8x512x32000 .f32) (ix : IVec S8x512x1 32) (b : Fin 8) (s : Fin 512) (k : Fin 32000)
    (hk : (ix (ix3 b s 0)).toInt = (k.val : Int)) :
    Cert.RefTerms.takeAlong (F := Ideal) a ix (ix3 b s 0) = a (ix3 b s k) := by
  have hw0 : 0 ≤ (ix (ix3 b s 0)).toInt := by rw [hk]; omega
  unfold Cert.RefTerms.takeAlong
  refine guarded_gather_at a _ _ _ _ _ _ _ b s k ?_
  rw [cast_at, wrapped_at _ _ _ hw0]
  exact hk

end Cert.RefGather

end
-- ==== Proof.RCount.lean ====
/-
  The reference's count of kept tokens: the mask bits widened to 32-bit words and summed along a sequence (512 words, each 0
  or 1: the sum is at most 512 and never wraps), converted to a float, is the real number of kept tokens.
-/
import proofs.«418210_j44899588112976_3_alg».proof.Proof.RefTerms
import proofs.«418210_j44899588112976_3_alg».proof.Proof.Spec
import proofs.«418210_j44899588112976_3_alg».proof.Proof.Gen.ReferenceIdeal
import proofs.«418210_j44899588112976_3_alg».proof.Proof.LibSumBlocks
import Idealize.ShloMosaic.Lib.Pipeline.Value

noncomputable section

namespace Cert.RefCount

open Idealize.ShloMosaic Idealize.ShloMosaic.ValueIdx Cert.ReferenceIdeal Cert.ReferenceIdeal.Gen

/-- Source index over the result index b with s on the summed axis: the pair (b, s). -/
theorem lift_eq (hR : S8x512.Reduces [1] S8) (b : Fin 8) (s : Fin 512) : hR.lift (ix1 b) s = ix2 b s := by
  funext c
  apply Fin.ext
  match c with
  | ⟨0, _⟩ => rfl
  | ⟨1, _⟩ => rfl

/-- The mask at (b, s) is the keep bit of the target word there. -/
theorem maskT_at (tg : IVec S8x512 32) (b : Fin 8) (s : Fin 512) :
    Cert.RefTerms.maskT tg (ix2 b s) = Cert.Spec.keep (tg (ix2 b s)) := rfl

/-- Words that are each 0 or 1, added up over a set of fewer than 2^32 members: the sum, read as a natural number, is the
    number of members whose bit is 1 — no partial sum reaches 2^32, so none wraps. -/
theorem fold_bits_toNat {ι : Type} [DecidableEq ι] (g : ι → BitVec 1) (S : Finset ι) :
    S.card < 2 ^ 32 →
      (S.fold IntOp.addi 0#32 (fun s => (g s).setWidth 32)).toNat = (S.filter (fun s => g s = 1#1)).card := by
  refine Finset.induction_on S ?_ ?_
  · intro _; rfl
  · intro a S ha ih hc
    rw [Finset.card_insert_of_notMem ha] at hc
    have ih' := ih (by omega)
    have hle : (S.filter (fun s => g s = 1#1)).card ≤ S.card := Finset.card_filter_le _ _
    rw [Finset.fold_insert ha]
    show ((g a).setWidth 32 + _).toNat = _
    rw [BitVec.toNat_add, ih', Finset.filter_insert]
    by_cases h1 : g a = 1#1
    · have ha' : a ∉ S.filter (fun s => g s = 1#1) := fun h => ha (Finset.mem_filter.1 h).1
      have e1 : ((1#1 : BitVec 1).setWidth 32).toNat = 1 := by decide
      rw [if_pos h1, Finset.card_insert_of_notMem ha', h1, e1, Nat.mod_eq_of_lt (by omega)]
      omega
    · have e0 : ((0#1 : BitVec 1).setWidth 32).toNat = 0 := by decide
      rw [if_neg h1, eq_zero_of_ne_one h1, e0, Nat.mod_eq_of_lt (by omega)]
      omega

/-- The converted integer count of sequence b's kept tokens is the real count. -/
theorem count_at (tg : IVec S8x512 32) (b : Fin 8) :
    (sitofp (F := Ideal) .f32
        (Host.reduce IntOp.addi (extui 32 (Cert.RefTerms.maskT tg) natLt_1_32) (constantI S_ 32 0#32) reducesTo_S8x512_S8_d1 h_S_)) (ix1 b)
      = ((Cert.Spec.cntR tg b : ℝ) : EReal) := by
  have hR : S8x512.Reduces [1] S8 := by decide
  rw [sitofp_apply, Host.reduce_eq_fold_single IntOp.addi _ _ reducesTo_S8x512_S8_d1 hR h_S_ (ix1 b)]
  -- the summed words, read at the pair (b, s), are the widened keep bits
  have hf : (fun s : Fin 512 => extui 32 (Cert.RefTerms.maskT tg) natLt_1_32 (hR.lift (ix1 b) s))
      = fun s : Fin 512 => (Cert.Spec.keep (tg (ix2 b s))).setWidth 32 := by
    funext s
    rw [lift_eq hR b s, extui_apply, maskT_at]
  change FloatOps.sitofp (F := Ideal) .f32 ((Finset.univ : Finset (Fin 512)).fold IntOp.addi 0#32
      (fun s : Fin 512 => extui 32 (Cert.RefTerms.maskT tg) natLt_1_32 (hR.lift (ix1 b) s))) = _
  rw [hf]
  -- the sum's natural-number value is the number of kept tokens, at most 512
  have hn := fold_bits_toNat (fun s : Fin 512 => Cert.Spec.keep (tg (ix2 b s))) Finset.univ
    (by rw [Finset.card_univ, Fintype.card_fin]; norm_num)
  have hle : ((Finset.univ : Finset (Fin 512)).filter (fun s => Cert.Spec.keep (tg (ix2 b s)) = 1#1)).card ≤ 512 :=
    (Finset.card_filter_le _ _).trans (by rw [Finset.card_univ, Fintype.card_fin])
  show ((((Finset.univ : Finset (Fin 512)).fold IntOp.addi 0#32
      (fun s : Fin 512 => (Cert.Spec.keep (tg (ix2 b s))).setWidth 32)).toInt : ℝ) : EReal) = _
  rw [BitVec.toInt_eq_toNat_of_lt (by rw [hn]; omega), hn]
  unfold Cert.Spec.cntR Cert.Spec.keepR
  rw [Finset.sum_boole, Int.cast_natCast]

end Cert.RefCount

end
-- ==== Proof.RValue.lean ====
/-
  The reference's composed terms, read at an index on the extended reals over REAL inputs, are the functions of Spec.lean:
  the linear head is the real logit; the row maximum is a real number M, so the shifted row, its exponentials, their positive
  sum and its logarithm are real and (a − M) − log Σ exp (a_v − M) = a − lse; the gathered column is the clipped target's
  (the clip keeps the index in range, so the out-of-range guard passes); the mask keeps or zeroes; a sum of reals is the real
  sum; the count of kept tokens, summed as 32-bit integers (at most 512: no wrap) and converted, is the real count.
-/
import proofs.«418210_j44899588112976_3_alg».proof.Proof.RefTerms
import proofs.«418210_j44899588112976_3_alg».proof.Proof.RowMath
import proofs.«418210_j44899588112976_3_alg».proof.Proof.Gen.ReferenceIdeal
import proofs.«418210_j44899588112976_3_alg».proof.Proof.LibDots
import proofs.«418210_j44899588112976_3_alg».proof.Proof.LibLayoutIx
import proofs.«418210_j44899588112976_3_alg».proof.Proof.LibSumBlocks
import proofs.«418210_j44899588112976_3_alg».proof.Proof.LibGatherAt
import proofs.«418210_j44899588112976_3_alg».proof.Proof.RGather
import proofs.«418210_j44899588112976_3_alg».proof.Proof.RCount
import Idealize.ShloMosaic.Lib.Pipeline.Value
import Idealize.ShloMosaic.Lib.ValueLayout

noncomputable section

namespace Cert.RefValue

open Idealize.ShloMosaic Idealize.ShloMosaic.ValueIdx Cert.ReferenceIdeal Cert.ReferenceIdeal.Gen Cert.Spec

variable (xr : SX.Idx → ℝ) (wr : SW.Idx → ℝ) (tg : ST.Idx → BitVec 32)

/-! ## Layout operations and one-axis reductions at the literal shapes -/

section Layout
variable {α : Type}

/-- An [8, 512] array laid into [8, 512, 1] reads (b, s) at (b, s, k). -/
theorem bcast_col3 (h : (⟨2, ![8, 512]⟩ : Shape).BroadcastsInDim ⟨3, ![8, 512, 1]⟩ (![0, 1] : Fin 2 → Fin 3))
    (x : (⟨2, ![8, 512]⟩ : Shape).Idx → α) (b : Fin 8) (s : Fin 512) (k : Fin 1) :
    broadcastInDim ⟨3, ![8, 512, 1]⟩ (![0, 1] : Fin 2 → Fin 3) h x (ix3 b s k) = x (ix2 b s) :=
  broadcastInDim_apply _ h x _ (ix2 b s) (fun a => match a with
    | ⟨0, _⟩ => rfl
    | ⟨1, _⟩ => rfl)

/-- An [8, 512, 1] array stretched to [8, 512, 32000] reads (b, s, 0) at (b, s, v). -/
theorem bcast_row3 (h : (⟨3, ![8, 512, 1]⟩ : Shape).BroadcastsInDim ⟨3, ![8, 512, 32000]⟩ (![0, 1, 2] : Fin 3 → Fin 3))
    (x : (⟨3, ![8, 512, 1]⟩ : Shape).Idx → α) (b : Fin 8) (s : Fin 512) (v : Fin 32000) :
    broadcastInDim ⟨3, ![8, 512, 32000]⟩ (![0, 1, 2] : Fin 3 → Fin 3) h x (ix3 b s v) = x (ix3 b s 0) :=
  broadcastInDim_apply _ h x _ (ix3 b s 0) (fun a => match a with
    | ⟨0, _⟩ => rfl
    | ⟨1, _⟩ => rfl
    | ⟨2, _⟩ => rfl)

/-- Reducing the last axis of [8, 512, 32000]: index (b, s) with coordinate k inserted is (b, s, k). -/
theorem lift_row (h : Shape.Reduces ⟨3, ![8, 512, 32000]⟩ [2] ⟨2, ![8, 512]⟩) (b : Fin 8) (s : Fin 512) (k : Fin 32000) :
    h.lift (ix2 b s) k = ix3 b s k := by
  funext c; apply Fin.ext
  match c with
  | ⟨0, _⟩ => rfl
  | ⟨1, _⟩ => rfl
  | ⟨2, _⟩ => rfl

/-- Reducing the last axis of [8, 512]: index b with coordinate s inserted is (b, s). -/
theorem lift_seq (h : Shape.Reduces ⟨2, ![8, 512]⟩ [1] ⟨1, ![8]⟩) (b : Fin 8) (s : Fin 512) :
    h.lift (ix1 b) s = ix2 b s := by
  funext c; apply Fin.ext
  match c with
  | ⟨0, _⟩ => rfl
  | ⟨1, _⟩ => rfl

end Layout

/-- The word of −∞ is the bottom of the extended reals. -/
theorem ofBits_neg_inf : Ideal.ofBits .f32 0xFF800000#32 = (⊥ : EReal) := by simp [Ideal.ofBits, Ideal.ieee]

/-- The row maximum: the host's maximum-reduction from −∞ over the last axis, at (b, s), is the maximum folded from ⊥
    over the row. -/
theorem rowMax_at (h' : (⟨3, ![8, 512, 32000]⟩ : Shape).ReducesTo [2] ⟨2, ![8, 512]⟩) (hu : 0 < (⟨0, ![]⟩ : Shape).numel)
    (a : FVec Ideal ⟨3, ![8, 512, 32000]⟩ .f32) (b : Fin 8) (s : Fin 512) :
    Host.reduce FloatOps.maximumf a (constant (F := Ideal) ⟨0, ![]⟩ .f32 0xFF800000#32) h' hu (ix2 b s)
      = (Finset.univ : Finset (Fin 32000)).fold max ⊥ (fun v => a (ix3 b s v)) := by
  have h : Shape.Reduces ⟨3, ![8, 512, 32000]⟩ [2] ⟨2, ![8, 512]⟩ := by decide
  rw [Host.reduce_eq_fold_single _ a _ h' h hu (ix2 b s)]
  have e0 : constant (F := Ideal) ⟨0, ![]⟩ .f32 0xFF800000#32 (Shape.Idx.first hu) = (⊥ : EReal) := ofBits_neg_inf
  rw [e0]
  have e1 : (a ∘ h.lift (ix2 b s)) = fun v => a (ix3 b s v) := by
    funext v; exact congrArg a (lift_row h b s v)
  rw [e1]; rfl

/-- The row sum: the host's sum from the word of 0 over the last axis, at (b, s), is the sum over the row. -/
theorem rowSum_at (h' : (⟨3, ![8, 512, 32000]⟩ : Shape).ReducesTo [2] ⟨2, ![8, 512]⟩) (hu : 0 < (⟨0, ![]⟩ : Shape).numel)
    (e : FVec Ideal ⟨3, ![8, 512, 32000]⟩ .f32) (b : Fin 8) (s : Fin 512) :
    Host.reduceAdd e (constant (F := Ideal) ⟨0, ![]⟩ .f32 0x00000000#32) h' hu (ix2 b s) = ∑ v : Fin 32000, e (ix3 b s v) := by
  have h : Shape.Reduces ⟨3, ![8, 512, 32000]⟩ [2] ⟨2, ![8, 512]⟩ := by decide
  show Ideal.hostReduceAdd h' e (Ideal.ofBits .f32 0x00000000#32) (ix2 b s) = _
  rw [Ideal.hostReduceAdd_single h' h, Ideal.ofBits_zero_f32, zero_add]
  refine Finset.sum_congr rfl fun v _ => ?_
  exact congrArg e (lift_row h b s v)

/-- The sum over a sequence: the host's sum from the word of 0 over the last axis of [8, 512], at b. -/
theorem seqSum_at (h' : (⟨2, ![8, 512]⟩ : Shape).ReducesTo [1] ⟨1, ![8]⟩) (hu : 0 < (⟨0, ![]⟩ : Shape).numel)
    (e : FVec Ideal ⟨2, ![8, 512]⟩ .f32) (b : Fin 8) :
    Host.reduceAdd e (constant (F := Ideal) ⟨0, ![]⟩ .f32 0x00000000#32) h' hu (ix1 b) = ∑ s : Fin 512, e (ix2 b s) := by
  have h : Shape.Reduces ⟨2, ![8, 512]⟩ [1] ⟨1, ![8]⟩ := by decide
  show Ideal.hostReduceAdd h' e (Ideal.ofBits .f32 0x00000000#32) (ix1 b) = _
  rw [Ideal.hostReduceAdd_single h' h, Ideal.ofBits_zero_f32, zero_add]
  refine Finset.sum_congr rfl fun s _ => ?_
  exact congrArg e (lift_seq h b s)

/-! ## The linear head and the log-softmax -/

/-- The linear head over real inputs is the real logit. -/
theorem logits_at (b : Fin 8) (s : Fin 512) (v : Fin 32000) :
    Cert.RefTerms.logits (F := Ideal) (fun i => ((xr i : ℝ) : EReal)) (fun i => ((wr i : ℝ) : EReal)) (ix3 b s v)
      = ((logitR xr wr b s v : ℝ) : EReal) := by
  unfold Cert.RefTerms.logits
  refine (Cert.Lib.Dots.dotGeneral_rank3_rowsT_apply (G := 8) (M := 512) (K := 4096) (N := 32000)
    Facts₀.dot_S8x512x4096_S32000x4096_S8x512x32000_2_1_01_0_n_n_wf none _ _ b s v).trans ?_
  unfold logitR
  rw [Cert.RowMath.coe_sum]
  refine Finset.sum_congr rfl fun k _ => ?_
  rw [EReal.coe_mul]

theorem host_exp_apply {s : Shape} {φ : FTy} (x : FVec Ideal s φ) (i : s.Idx) : Host.exp x i = Ideal.exp (x i) := rfl
theorem host_log_apply {s : Shape} {φ : FTy} (x : FVec Ideal s φ) (i : s.Idx) : Host.log x i = Ideal.log (x i) := rfl

/-- A scalar constant broadcast to any shape is the constant's value at every index. -/
theorem bcast_const {t : Shape} (dims : Fin (⟨0, ![]⟩ : Shape).rank → Fin t.rank) (h : (⟨0, ![]⟩ : Shape).BroadcastsInDim t dims)
    (c : BitVec 32) (j : t.Idx) :
    broadcastInDim t dims h (constant (F := Ideal) ⟨0, ![]⟩ .f32 c) j = Ideal.ofBits .f32 c := rfl

/-- Subtracting a per-token value, laid along the row, from a row: at (b, s, v) the row's entry minus the token's value. -/
theorem shift_at (h2 : (⟨2, ![8, 512]⟩ : Shape).BroadcastsInDim ⟨3, ![8, 512, 1]⟩ (![0, 1] : Fin 2 → Fin 3))
    (h3 : (⟨3, ![8, 512, 1]⟩ : Shape).BroadcastsInDim ⟨3, ![8, 512, 32000]⟩ (![0, 1, 2] : Fin 3 → Fin 3))
    (a : FVec Ideal ⟨3, ![8, 512, 32000]⟩ .f32) (m : FVec Ideal ⟨2, ![8, 512]⟩ .f32) (b : Fin 8) (s : Fin 512) (v : Fin 32000) :
    subf a (broadcastInDim ⟨3, ![8, 512, 32000]⟩ (![0, 1, 2] : Fin 3 → Fin 3) h3
        (broadcastInDim ⟨3, ![8, 512, 1]⟩ (![0, 1] : Fin 2 → Fin 3) h2 m)) (ix3 b s v)
      = a (ix3 b s v) - m (ix2 b s) := by
  rw [subf_apply, bcast_row3, bcast_col3]

/-- The logarithm of a row sum, laid along the row: when the row's entries are real numbers f v with a positive sum, at
    (b, s, v) it is the real logarithm of the sum. -/
theorem logsum_at (h2 : (⟨2, ![8, 512]⟩ : Shape).BroadcastsInDim ⟨3, ![8, 512, 1]⟩ (![0, 1] : Fin 2 → Fin 3))
    (h3 : (⟨3, ![8, 512, 1]⟩ : Shape).BroadcastsInDim ⟨3, ![8, 512, 32000]⟩ (![0, 1, 2] : Fin 3 → Fin 3))
    (hr : (⟨3, ![8, 512, 32000]⟩ : Shape).ReducesTo [2] ⟨2, ![8, 512]⟩) (hu : 0 < (⟨0, ![]⟩ : Shape).numel)
    (e : FVec Ideal ⟨3, ![8, 512, 32000]⟩ .f32) (f : Fin 32000 → ℝ) (b : Fin 8) (s : Fin 512)
    (he : ∀ v, e (ix3 b s v) = ((f v : ℝ) : EReal)) (hpos : 0 < ∑ v, f v) (v : Fin 32000) :
    broadcastInDim ⟨3, ![8, 512, 32000]⟩ (![0, 1, 2] : Fin 3 → Fin 3) h3
        (Host.log (broadcastInDim ⟨3, ![8, 512, 1]⟩ (![0, 1] : Fin 2 → Fin 3) h2
          (Host.reduceAdd e (constant (F := Ideal) ⟨0, ![]⟩ .f32 0x00000000#32) hr hu))) (ix3 b s v)
      = ((Real.log (∑ v, f v) : ℝ) : EReal) := by
  rw [bcast_row3, host_log_apply, bcast_col3, rowSum_at, Finset.sum_congr rfl (fun v _ => he v), ← Cert.RowMath.coe_sum,
    Ideal.log_coe, if_neg (not_le.mpr hpos)]

/-- The log-softmax's last three stages on a shifted row: when the shifted row's entries at token (b, s) are the real
    numbers L v − M, the result at column v is L v minus the row's log-partition, whatever M. -/
theorem logSoftmax_core (h2 : (⟨2, ![8, 512]⟩ : Shape).BroadcastsInDim ⟨3, ![8, 512, 1]⟩ (![0, 1] : Fin 2 → Fin 3))
    (h3 : (⟨3, ![8, 512, 1]⟩ : Shape).BroadcastsInDim ⟨3, ![8, 512, 32000]⟩ (![0, 1, 2] : Fin 3 → Fin 3))
    (hr : (⟨3, ![8, 512, 32000]⟩ : Shape).ReducesTo [2] ⟨2, ![8, 512]⟩) (hu : 0 < (⟨0, ![]⟩ : Shape).numel)
    (v5 : FVec Ideal ⟨3, ![8, 512, 32000]⟩ .f32) (L : Fin 32000 → ℝ) (M : ℝ) (b : Fin 8) (s : Fin 512)
    (h5 : ∀ v, v5 (ix3 b s v) = ((L v - M : ℝ) : EReal)) (v : Fin 32000) :
    subf v5 (broadcastInDim ⟨3, ![8, 512, 32000]⟩ (![0, 1, 2] : Fin 3 → Fin 3) h3
        (Host.log (broadcastInDim ⟨3, ![8, 512, 1]⟩ (![0, 1] : Fin 2 → Fin 3) h2
          (Host.reduceAdd (Host.exp v5) (constant (F := Ideal) ⟨0, ![]⟩ .f32 0x00000000#32) hr hu)))) (ix3 b s v)
      = ((L v - lseR L : ℝ) : EReal) := by
  have hexp : ∀ v, Host.exp v5 (ix3 b s v) = ((Real.exp (L v - M) : ℝ) : EReal) := by
    intro v; rw [host_exp_apply, h5 v, Ideal.exp_coe]
  have hpos : 0 < ∑ v : Fin 32000, Real.exp (L v - M) :=
    Finset.sum_pos (fun v _ => Real.exp_pos _) ⟨0, Finset.mem_univ _⟩
  rw [subf_apply, h5 v, logsum_at h2 h3 hr hu _ _ b s hexp hpos v, ← EReal.coe_sub, Cert.RowMath.shifted_logp]

/-- log-softmax of a row of real logits: at column v it is the logit minus the row's log-partition. -/
theorem logSoftmax_at (a : FVec Ideal S8x512x32000 .f32) (L : Fin 32000 → ℝ) (b : Fin 8) (s : Fin 512)
    (ha : ∀ v, a (ix3 b s v) = ((L v : ℝ) : EReal)) (v : Fin 32000) :
    Cert.RefTerms.logSoftmax a (ix3 b s v) = ((L v - lseR L : ℝ) : EReal) := by
  obtain ⟨M, hM⟩ := Cert.RowMath.rowMax_real L
  simp only [Cert.RefTerms.logSoftmax]
  refine logSoftmax_core _ _ _ _ _ L M b s ?_ v
  intro v'
  rw [shift_at, maximumf_apply, rowMax_at, bcast_const, ofBits_neg_inf, ha,
    show (fun v => a (ix3 b s v)) = fun v => ((L v : ℝ) : EReal) from funext ha, hM, max_eq_right bot_le, ← EReal.coe_sub]

/-! ## The clipped target, the picked column, the mask, the sums -/

/-- The clipped targets at (b, s): the target word clipped into [0, 31999]. -/
theorem clipT_at (b : Fin 8) (s : Fin 512) : Cert.RefTerms.clipT tg (ix2 b s) = clipW (tg (ix2 b s)) := rfl

/-- The mask at (b, s): the bit "the target is not −100". -/
theorem maskT_at (b : Fin 8) (s : Fin 512) : Cert.RefTerms.maskT tg (ix2 b s) = keep (tg (ix2 b s)) := rfl

/-- An [8, 512, 1] array reshaped to [8, 512] reads (b, s, 0) at (b, s). -/
theorem cast_32 {α : Type} (x : (⟨3, ![8, 512, 1]⟩ : Shape).Idx → α)
    (h : (⟨3, ![8, 512, 1]⟩ : Shape).ShapeCasts ⟨2, ![8, 512]⟩) (b : Fin 8) (s : Fin 512) :
    shapeCast ⟨2, ![8, 512]⟩ x h (ix2 b s) = x (ix3 b s 0) :=
  shapeCast_apply x h _ (ix3 b s 0) (by
    rw [Shape.rowMajor_val_three, Shape.rowMajor_val_two]
    show (b.val * 512 + s.val) * 1 + 0 = b.val * 512 + s.val
    omega)

/-- One token's masked log-probability: when the log-softmax's row at token (b, s) is L v − lse L, the picked column
    under the mask is the specification's token term. -/
theorem tok_at (lp : FVec Ideal S8x512x32000 .f32) (L : Fin 32000 → ℝ) (b : Fin 8) (s : Fin 512)
    (hlp : ∀ v, lp (ix3 b s v) = ((L v - lseR L : ℝ) : EReal)) :
    select (Cert.RefTerms.maskT tg)
        (shapeCast S8x512 (Cert.RefTerms.takeAlong lp
          (broadcastInDim S8x512x1 ![0, 1] Facts₀.bcast_S8x512_S8x512x1_0_1 (Cert.RefTerms.clipT tg)))
          Facts₀.shapeCasts_S8x512x1_S8x512)
        (broadcastInDim S8x512 ![] Facts₀.bcast_S_S8x512 (id (constant (F := Ideal) S_ .f32 0x00000000#32))) (ix2 b s)
      = ((tokR L (tg (ix2 b s)) : ℝ) : EReal) := by
  have hix : broadcastInDim S8x512x1 ![0, 1] Facts₀.bcast_S8x512_S8x512x1_0_1 (Cert.RefTerms.clipT tg) (ix3 b s 0)
      = clipW (tg (ix2 b s)) := (bcast_col3 _ _ b s 0).trans (clipT_at tg b s)
  have hk : (broadcastInDim S8x512x1 ![0, 1] Facts₀.bcast_S8x512_S8x512x1_0_1 (Cert.RefTerms.clipT tg) (ix3 b s 0)).toInt
      = ((clipIx (tg (ix2 b s))).val : Int) := by
    rw [hix]; exact (Int.toNat_of_nonneg (clipW_range (tg (ix2 b s))).1).symm
  rw [select_apply, cast_32, Cert.RefGather.takeAlong_at lp _ b s (clipIx (tg (ix2 b s))) hk, hlp, maskT_at]
  show Scalar.select (keep (tg (ix2 b s))) _ (Ideal.ofBits .f32 0x00000000#32) = _
  unfold tokR
  by_cases hkeep : keep (tg (ix2 b s)) = 1#1
  · rw [hkeep, select_one, if_pos rfl]
  · rw [eq_zero_of_ne_one hkeep, select_zero, if_neg (by decide), Ideal.ofBits_zero_f32, EReal.coe_zero]

/-- A sequence's sum of masked token log-probabilities. -/
theorem num_at (lp : FVec Ideal S8x512x32000 .f32) (Lf : Fin 512 → Fin 32000 → ℝ) (b : Fin 8)
    (hlp : ∀ s v, lp (ix3 b s v) = ((Lf s v - lseR (Lf s) : ℝ) : EReal)) :
    Host.reduceAdd
        (select (Cert.RefTerms.maskT tg)
          (shapeCast S8x512 (Cert.RefTerms.takeAlong lp
            (broadcastInDim S8x512x1 ![0, 1] Facts₀.bcast_S8x512_S8x512x1_0_1 (Cert.RefTerms.clipT tg)))
            Facts₀.shapeCasts_S8x512x1_S8x512)
          (broadcastInDim S8x512 ![] Facts₀.bcast_S_S8x512 (id (constant (F := Ideal) S_ .f32 0x00000000#32))))
        (constant (F := Ideal) S_ .f32 0x00000000#32) Facts₀.reducesTo_S8x512_S8_d1 Facts₀.h_S_ (ix1 b)
      = (((∑ s : Fin 512, tokR (Lf s) (tg (ix2 b s)) : ℝ)) : EReal) := by
  rw [seqSum_at, Cert.RowMath.coe_sum]
  exact Finset.sum_congr rfl fun s _ => tok_at tg lp (Lf s) b s (hlp s)

/-- The eight sequence means the reference computes from real inputs are the specification's. -/
theorem seqT_eq :
    Cert.RefTerms.seqT (F := Ideal) (fun i => ((xr i : ℝ) : EReal)) (fun i => ((wr i : ℝ) : EReal)) tg = seqVec xr wr tg := by
  funext i
  obtain ⟨b, rfl⟩ : ∃ b : Fin 8, i = ix1 b := ⟨i 0, eq_ix1 i⟩
  simp only [Cert.RefTerms.seqT]
  rw [Cert.LibLayoutIx.host_divf_apply,
    num_at tg (Cert.RefTerms.logSoftmax (Cert.RefTerms.logits (F := Ideal) (fun i => ((xr i : ℝ) : EReal)) (fun i => ((wr i : ℝ) : EReal))))
      (fun s => logitR xr wr b s) b
      (fun s v => logSoftmax_at _ _ b s (fun v' => logits_at xr wr b s v') v),
    Cert.RefCount.count_at]
  rfl

end Cert.RefValue

end
-- ==== Proof.RMean.lean ====
/-
  The reference's two logit means over REAL inputs are the specification's: the slice of four sequences' logits summed over
  all three axes is the real sum over (sequence, token, column), and the quotient by the word of 65536000 is the extended reals'.
-/
import proofs.«418210_j44899588112976_3_alg».proof.Proof.RefTerms
import proofs.«418210_j44899588112976_3_alg».proof.Proof.Spec
import proofs.«418210_j44899588112976_3_alg».proof.Proof.Gen.ReferenceIdeal
import proofs.«418210_j44899588112976_3_alg».proof.Proof.LibDots
import proofs.«418210_j44899588112976_3_alg».proof.Proof.LibSumBlocks
import Idealize.ShloMosaic.Lib.Pipeline.Value

noncomputable section

namespace Cert.RefMean

open Idealize.ShloMosaic Idealize.ShloMosaic.ValueIdx Cert.ReferenceIdeal Cert.ReferenceIdeal.Gen Cert.Spec

/-- The embedding of the reals into the extended reals commutes with finite sums. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

variable (xr : SX.Idx → ℝ) (wr : SW.Idx → ℝ)

/-- The linear head over real inputs, read at (b, s, v), is the real logit. -/
theorem logits_apply (b : Fin 8) (s : Fin 512) (v : Fin 32000) :
    Cert.RefTerms.logits (F := Ideal) (fun i => ((xr i : ℝ) : EReal)) (fun i => ((wr i : ℝ) : EReal)) (ix3 b s v)
      = ((logitR xr wr b s v : ℝ) : EReal) := by
  unfold Cert.RefTerms.logits logitR
  rw [coe_sum]
  refine (Cert.Lib.Dots.dotGeneral_rank3_rowsT_apply (G := 8) (M := 512) (K := 4096) (N := 32000)
    Facts₀.dot_S8x512x4096_S32000x4096_S8x512x32000_2_1_01_0_n_n_wf none
    (fun i => ((xr i : ℝ) : EReal)) (fun i => ((wr i : ℝ) : EReal)) b s v).trans ?_
  refine Finset.sum_congr rfl fun h _ => ?_
  rw [EReal.coe_mul]

/-- A slice of four sequences starting at sequence o reads the array at sequence o + b. -/
theorem slice_apply {G : FTy → Type} (x : S8x512x32000.Idx → G .f32) (o : Nat) (ho : o + 4 ≤ 8) (off : Fin 3 → Nat)
    (hoff : off = ![o, 0, 0]) (h : S8x512x32000.Slices off S4x512x32000) (b : Fin 4) (s : Fin 512) (v : Fin 32000) :
    extractStridedSlice S4x512x32000 off x h (ix3 b s v) = x (ix3 ⟨o + b.val, by omega⟩ s v) := by
  subst hoff
  unfold extractStridedSlice
  congr 1
  funext a
  apply Fin.ext
  match a with
  | ⟨0, _⟩ => rfl
  | ⟨1, _⟩ => show 0 + s.val = s.val; omega
  | ⟨2, _⟩ => show 0 + v.val = v.val; omega

/-- The sum of an array of four sequences' values over all three axes (from the word of zero), divided by a word: the
    quotient of the iterated sum over (sequence, token, column) by that word. -/
theorem divTotal_apply (V : FVec Ideal S4x512x32000 .f32) (hr : S4x512x32000.ReducesTo [0, 1, 2] S_) (h0 : 0 < S_.numel)
    (c : BitVec 32) (i : S_.Idx) :
    Host.divf (F := Ideal)
        (Host.reduceAdd (F := Ideal) V (constant (F := Ideal) S_ .f32 0x00000000#32) hr h0)
        (constant (F := Ideal) S_ .f32 c) i
      = Ideal.div (∑ b : Fin 4, ∑ s : Fin 512, ∑ v : Fin 32000, V (ix3 b s v)) (Ideal.ofBits .f32 c) := by
  unfold Host.divf Host.reduceAdd constant
  simp only [Ideal.hostDivf_def, Ideal.hostReduceAdd_def, Ideal.ofBits_def]
  -- the reduction to a scalar is the initial value, zero, plus the sum over every index of the array
  rw [Ideal.hostReduceAdd_total hr (fun b => b.elim0), Ideal.ofBits_zero_f32, zero_add, Cert.Hand.sum_idx3]

/-- The four sequences' logits starting at sequence o, summed over all three axes and divided by a word: the total is
    the embedded real sum of those sequences' row sums. -/
theorem mean_eq (o : Nat) (ho : o + 4 ≤ 8) (off : Fin 3 → Nat) (hoff : off = ![o, 0, 0])
    (h : S8x512x32000.Slices off S4x512x32000) (hr : S4x512x32000.ReducesTo [0, 1, 2] S_) (h0 : 0 < S_.numel)
    (c : BitVec 32) (i : S_.Idx) :
    Host.divf (F := Ideal)
        (Host.reduceAdd (F := Ideal)
          (extractStridedSlice S4x512x32000 off
            (Cert.RefTerms.logits (F := Ideal) (fun i => ((xr i : ℝ) : EReal)) (fun i => ((wr i : ℝ) : EReal))) h)
          (constant (F := Ideal) S_ .f32 0x00000000#32) hr h0)
        (constant (F := Ideal) S_ .f32 c) i
      = Ideal.div (((∑ b : Fin 4, rowsumR xr wr ⟨o + b.val, by omega⟩ : ℝ)) : EReal) (Ideal.ofBits .f32 c) := by
  rw [divTotal_apply, coe_sum]
  refine congrArg (fun t => Ideal.div t (Ideal.ofBits .f32 c)) ?_
  refine Finset.sum_congr rfl fun b _ => ?_
  unfold rowsumR
  rw [coe_sum]
  refine Finset.sum_congr rfl fun s _ => ?_
  rw [coe_sum]
  refine Finset.sum_congr rfl fun v _ => ?_
  rw [slice_apply _ o ho off hoff h b s v, logits_apply]

/-- The mean of the chosen half's logits is the specification's. -/
theorem meanC_eq :
    Cert.RefTerms.meanC (F := Ideal) (fun i => ((xr i : ℝ) : EReal)) (fun i => ((wr i : ℝ) : EReal)) = meanOut xr wr 0 := by
  funext i
  refine (mean_eq xr wr 0 (by omega) _ rfl _ _ _ _ i).trans ?_
  -- the specification's sequence index 4·k + b is the slice's first sequence plus b
  unfold meanOut
  congr 2

/-- The mean of the rejected half's logits is the specification's. -/
theorem meanR_eq :
    Cert.RefTerms.meanR (F := Ideal) (fun i => ((xr i : ℝ) : EReal)) (fun i => ((wr i : ℝ) : EReal)) = meanOut xr wr 1 := by
  funext i
  refine (mean_eq xr wr 4 (by omega) _ rfl _ _ _ _ i).trans ?_
  -- the specification's sequence index 4·k + b is the slice's first sequence plus b
  unfold meanOut
  congr 2

end Cert.RefMean

end
-- ==== Proof.Pre.lean ====
/-
  The precondition read: "every entry of x and of w is smaller in absolute value than +∞" says that both arrays hold real
  numbers (an extended real whose absolute value is below +∞ is neither infinity).
-/
import proofs.«418210_j44899588112976_3_alg».proof.Pre_finite_inputs
import proofs.«418210_j44899588112976_3_alg».proof.Proof.Gen.Pre_finite_inputs
import proofs.«418210_j44899588112976_3_alg».proof.Proof.Spec
import Idealize.ShloMosaic.Lib.ReduceAll

noncomputable section

namespace Cert.PreReal

open Idealize.ShloMosaic Idealize.ShloMosaic.ValueIdx Cert.Pre_finite_inputs Cert.Spec

/-- The pattern 0x7F800000 of the 32-bit format denotes +∞. -/
theorem inf_bits : Ideal.ofBits .f32 0x7F800000#32 = (⊤ : EReal) := by
  simp [Ideal.ofBits, Ideal.ieee]

/-- An extended real whose absolute value max a (−a) compares below +∞ is neither infinity, hence the real number
    `a.toReal`: a = +∞ gives max a (−a) = +∞, and a = −∞ gives −a = +∞. -/
theorem real_of_abs_lt (a : EReal)
    (h : Ideal.cmp .olt (max a (-a)) (Ideal.ofBits .f32 0x7F800000#32) = 1#1) : a = ((a.toReal : ℝ) : EReal) := by
  rw [inf_bits] at h
  have hlt : max a (-a) < ⊤ := by
    by_contra hn
    simp [Ideal.cmp, hn] at h
  have h1 : a ≠ ⊤ := fun e => by rw [e] at hlt; simp at hlt
  have h2 : a ≠ ⊥ := fun e => by rw [e] at hlt; simp at hlt
  exact (EReal.coe_toReal h1 h2).symm

/-- Under the precondition both float arguments are arrays of real numbers. -/
theorem real_of_pre (x : FVec Ideal S8x512x4096 .f32) (w : FVec Ideal S32000x4096 .f32) (tg : IVec S8x512 32)
    (h : Cert.Pre_finite_inputs.fn (F := Ideal) x w tg = fun _ => 1#1) :
    ∃ (xr : SX.Idx → ℝ) (wr : SW.Idx → ℝ),
      x = (fun i => ((xr i : ℝ) : EReal)) ∧ w = (fun i => ((wr i : ℝ) : EReal)) := by
  haveI : Subsingleton S_.Idx := ⟨fun a b => funext fun d => d.elim0⟩
  have h0 := congrFun h ValueIdx.ix0
  dsimp only [Cert.Pre_finite_inputs.fn] at h0
  obtain ⟨hx, hw⟩ := IntOp.andi_eq_one.1 h0
  refine ⟨fun i => (x i).toReal, fun i => (w i).toReal, funext fun i => ?_, funext fun i => ?_⟩
  · exact real_of_abs_lt (x i) (Host.reduce_andi_all _ _ _ _ _ hx i)
  · exact real_of_abs_lt (w i) (Host.reduce_andi_all _ _ _ _ _ hw i)

end Cert.PreReal

end
-- ==== Proof.lean ====
/-
  The certificate of a fused linear head with a preference loss: a kernel that streams the 32000 vocabulary columns in 25
  blocks of 1280, keeping per token row a running maximum, a running sum of exponentials rescaled to it, the picked target
  logit and the plain sum, against a reference that materialises all logits and takes log-softmax.

  With L the real logits x · wᵀ (the inputs are finite, so every logit is a real number):
    • the kernel's per-token value is L[t] − (m + log Σ_v exp (L_v − m)) with m the running maximum after the last block; the
      reference's is (L[t] − M) − log Σ_v exp (L_v − M) with M the row maximum. Both are L[t] − log Σ_v exp L_v: for a real
      shift the log-partition does not depend on it, and the online rescaling exp (a − m) · exp (m − m') = exp (a − m') keeps
      the running sum equal to Σ exp (L_v − m) over the blocks seen so far.
    • the picked logit is a sum over columns of L_v where the column number equals the clipped target, 0 elsewhere — exactly one
      column matches, as the reference's gather at the clipped index (which the clip keeps in range, so its guard passes).
    • masked tokens contribute 0 on both sides; the divisor is the number of kept tokens, as a sum of 0/1 reals in the kernel
      and as a 32-bit integer count (at most 512, no wrap) converted in the reference; the quotient is the extended reals' on both.
    • the logit means are the same sum over (sequence, token, column), grouped by blocks and rows in the kernel.
    • from the eight sequence means on, both programs run the same chain of host operations.
  The kernel's values are read off the generated frame run (what each control case leaves, by induction over the grid points);
  the reference's run is its operations listed in order. The word-level kernel and its idealization differ by no rewrite.
-/
import proofs.«418210_j44899588112976_3_alg».proof.Defs
import proofs.«418210_j44899588112976_3_alg».proof.Proof.Gen.Kernel
import proofs.«418210_j44899588112976_3_alg».proof.Proof.Gen.Kernel.Frame
import proofs.«418210_j44899588112976_3_alg».proof.Proof.Gen.KernelIdeal
import proofs.«418210_j44899588112976_3_alg».proof.Proof.Gen.KernelIdeal.Frame
import proofs.«418210_j44899588112976_3_alg».proof.Proof.Gen.ReferenceIdeal
import proofs.«418210_j44899588112976_3_alg».proof.Proof.Gen.Pre_finite_inputs
import proofs.«418210_j44899588112976_3_alg».proof.Proof.KFinal
import proofs.«418210_j44899588112976_3_alg».proof.Proof.RRun
import proofs.«418210_j44899588112976_3_alg».proof.Proof.RValue
import proofs.«418210_j44899588112976_3_alg».proof.Proof.RMean
import proofs.«418210_j44899588112976_3_alg».proof.Proof.Pre
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono
    (fun _ h c => ⟨(h c).2.2.2.2.2.2.1, (h c).2.2.2.2.2.2.2.1, (h c).2.2.2.2.2.2.2.2⟩) (Cert.RefRun.run m ρ)

theorem preserves : Cert.preserves_Kernel_KernelIdeal := trivial

/-- Under the precondition both float inputs are real arrays; over real inputs the kernel's six results and the reference's
    are the same functions of the arguments (Spec.lean). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose xr wr hx hw using fun c => Cert.PreReal.real_of_pre _ _ _ (hpre c)
  refine ⟨_, _, _, _, _, _, Cert.KFinal.run m ρ xr wr hx hw, ?_⟩
  refine (θ_run (Cert.ReferenceIdeal.defs (F := Ideal)) _ _).mono (fun r h c => ?_) (Cert.RefRun.run m' ρ')
  obtain ⟨h0, h1, h2, h3, h4, h5, a0, a1, a2⟩ := h c
  obtain ⟨g0, g1, g2⟩ := hagree c
  -- the reference's arguments are the kernel's, which are real arrays
  have sx := g0.trans (hx c)
  have sw := g1.trans (hw c)
  rw [sx, sw, g2, Cert.RefValue.seqT_eq] at h0 h1 h2
  rw [sx, sw, Cert.RefMean.meanC_eq] at h3
  rw [sx, sw, Cert.RefMean.meanR_eq] at h4
  exact ⟨h0, h1, h2, h3, h4, h5, a0, a1, a2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
